-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x64 : Shape := ⟨2, ![4096, 64]⟩
abbrev S1x8192 : Shape := ⟨2, ![1, 8192]⟩
abbrev S4096 : Shape := ⟨1, ![4096]⟩
abbrev S8192x320 : Shape := ⟨2, ![8192, 320]⟩
abbrev S256x8192 : Shape := ⟨2, ![256, 8192]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S1x8192 : S_.BroadcastsInDim S1x8192 (![] : Fin 0 → Fin S1x8192.rank)
  reducesTo_S1x8192_S_d0_1 : S1x8192.ReducesTo [0, 1] S_
  bcast_S_S4096 : S_.BroadcastsInDim S4096 (![] : Fin 0 → Fin S4096.rank)
  reducesTo_S4096_S_d0 : S4096.ReducesTo [0] S_
  bcast_S_S8192x320 : S_.BroadcastsInDim S8192x320 (![] : Fin 0 → Fin S8192x320.rank)
  reducesTo_S8192x320_S_d0_1 : S8192x320.ReducesTo [0, 1] S_
  bcast_S_S256x8192 : S_.BroadcastsInDim S256x8192 (![] : Fin 0 → Fin S256x8192.rank)
  reducesTo_S256x8192_S_d0_1 : S256x8192.ReducesTo [0, 1] S_

variable [Facts]

def fn_part1 {F : FTy → Type} [FloatOps F] (main_arg3 : FVec F S4096 .f32) (main_arg4 : FVec F S8192x320 .f32) (main_arg5 : FVec F S256x8192 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S8192x320 .f32 := Host.absf main_arg4
  let main_cst_6 : FVec F S_ .f32 := constant S_ .f32 0x7F800000#32
  let main_v20 : FVec F S8192x320 .f32 := broadcastInDim S8192x320 ![] bcast_S_S8192x320 main_cst_6
  let main_v21 : IVec S8192x320 1 := cmpf .olt main_v19 main_v20
  let main_c_7 : IVec S_ 1 := constantI S_ 1 1#1
  let main_v22 : IVec S_ 1 := (fun x v => Host.reduce IntOp.andi x v reducesTo_S8192x320_S_d0_1 h_S_) main_v21 main_c_7
  let main_v23 : IVec S_ 1 := andi main_v18 main_v22
  let main_v24 : FVec F S256x8192 .f32 := Host.absf main_arg5
  let main_cst_8 : FVec F S_ .f32 := constant S_ .f32 0x7F800000#32
  let main_v25 : FVec F S256x8192 .f32 := broadcastInDim S256x8192 ![] bcast_S_S256x8192 main_cst_8
  let main_v26 : IVec S256x8192 1 := cmpf .olt main_v24 main_v25
  let main_c_9 : IVec S_ 1 := constantI S_ 1 1#1
  let main_v27 : IVec S_ 1 := (fun x v => Host.reduce IntOp.andi x v reducesTo_S256x8192_S_d0_1 h_S_) main_v26 main_c_9
  let main_v28 : IVec S_ 1 := andi main_v23 main_v27
  let main_cst_10 : FVec F S_ .f32 := constant S_ .f32 0x00000000#32
  let main_v29 : FVec F S4096 .f32 := broadcastInDim S4096 ![] bcast_S_S4096 main_cst_10
  let main_v30 : IVec S4096 1 := cmpf .une main_arg3 main_v29
  let main_c_11 : IVec S_ 1 := constantI S_ 1 1#1
  let main_v31 : IVec S_ 1 := (fun x v => Host.reduce IntOp.andi x v reducesTo_S4096_S_d0 h_S_) main_v30 main_c_11
  let main_v32 : IVec S_ 1 := andi main_v28 main_v31
  main_v32

def fn {F : FTy → Type} [FloatOps F] (main_arg0 : FVec F S4096x256 .f32) (main_arg1 : FVec F S4096x64 .f32) (main_arg2 : FVec F S1x8192 .f32) (main_arg3 : FVec F S4096 .f32) (main_arg4 : FVec F S8192x320 .f32) (main_arg5 : FVec F S256x8192 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S1x8192 .f32 := Host.absf main_arg2
  let main_cst_2 : FVec F S_ .f32 := constant S_ .f32 0x7F800000#32
  let main_v10 : FVec F S1x8192 .f32 := broadcastInDim S1x8192 ![] bcast_S_S1x8192 main_cst_2
  let main_v11 : IVec S1x8192 1 := cmpf .olt main_v9 main_v10
  let main_c_3 : IVec S_ 1 := constantI S_ 1 1#1
  let main_v12 : IVec S_ 1 := (fun x v => Host.reduce IntOp.andi x v reducesTo_S1x8192_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg3 main_arg4 main_arg5 main_v13 main_v16
-- ==== Kernel.lean ====
abbrev S4096x256 : Shape := ⟨2, ![4096, 256]⟩
abbrev S4096x64 : Shape := ⟨2, ![4096, 64]⟩
abbrev S1x8192 : Shape := ⟨2, ![1, 8192]⟩
abbrev S4096 : Shape := ⟨1, ![4096]⟩
abbrev S8192x320 : Shape := ⟨2, ![8192, 320]⟩
abbrev S256x8192 : Shape := ⟨2, ![256, 8192]⟩
abbrev S_ : Shape := ⟨0, ![]⟩
abbrev S1x4096x2 : Shape := ⟨3, ![1, 4096, 2]⟩
abbrev S1x4096x1 : Shape := ⟨3, ![1, 4096, 1]⟩
abbrev S1x4096 : Shape := ⟨2, ![1, 4096]⟩
abbrev S4096x2x320 : Shape := ⟨3, ![4096, 2, 320]⟩
abbrev S4096x1x320 : Shape := ⟨3, ![4096, 1, 320]⟩
abbrev S4096x320 : Shape := ⟨2, ![4096, 320]⟩
abbrev S4096x1 : Shape := ⟨2, ![4096, 1]⟩
abbrev S256x320 : Shape := ⟨2, ![256, 320]⟩
abbrev S1x256 : Shape := ⟨2, ![1, 256]⟩
abbrev S2048x320 : Shape := ⟨2, ![2048, 320]⟩
abbrev S256x2048 : Shape := ⟨2, ![256, 2048]⟩
abbrev S1x2048 : Shape := ⟨2, ![1, 2048]⟩
abbrev S2048x256 : Shape := ⟨2, ![2048, 256]⟩

abbrev nBuf : Space → Nat
  | .hbm => 74
  | .vmem => 16
  | .smem => 0
  | _ => 0

abbrev bufTy : (tb : Table) → Fin (tcTables nBuf tb) → BufTy
  | .hbm, ⟨0, _⟩ => ⟨S4096x256, .f32⟩
  | .hbm, ⟨1, _⟩ => ⟨S4096x64, .f32⟩
  | .hbm, ⟨2, _⟩ => ⟨S1x8192, .f32⟩
  | .hbm, ⟨3, _⟩ => ⟨S4096, .f32⟩
  | .hbm, ⟨4, _⟩ => ⟨S8192x320, .f32⟩
  | .hbm, ⟨5, _⟩ => ⟨S256x8192, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S1x4096x2, .f32⟩
  | .hbm, ⟨20, _⟩ => ⟨S1x4096x1, .f32⟩
  | .hbm, ⟨21, _⟩ => ⟨S1x4096, .f32⟩
  | .hbm, ⟨22, _⟩ => ⟨S1x4096, .f32⟩
  | .hbm, ⟨23, _⟩ => ⟨S1x4096, .f32⟩
  | .hbm, ⟨24, _⟩ => ⟨S1x4096x1, .f32⟩
  | .hbm, ⟨25, _⟩ => ⟨S1x4096, .f32⟩
  | .hbm, ⟨26, _⟩ => ⟨S1x4096, .f32⟩
  | .hbm, ⟨27, _⟩ => ⟨S1x4096, .f32⟩
  | .hbm, ⟨28, _⟩ => ⟨S1x4096, .f32⟩
  | .hbm, ⟨29, _⟩ => ⟨S4096, .f32⟩
  | .hbm, ⟨30, _⟩ => ⟨S1x4096x1, .f32⟩
  | .hbm, ⟨31, _⟩ => ⟨S1x4096, .f32⟩
  | .hbm, ⟨32, _⟩ => ⟨S1x4096, .f32⟩
  | .hbm, ⟨33, _⟩ => ⟨S1x4096, .f32⟩
  | .hbm, ⟨34, _⟩ => ⟨S1x4096x1, .f32⟩
  | .hbm, ⟨35, _⟩ => ⟨S1x4096, .f32⟩
  | .hbm, ⟨36, _⟩ => ⟨S1x4096, .f32⟩
  | .hbm, ⟨37, _⟩ => ⟨S1x4096, .f32⟩
  | .hbm, ⟨38, _⟩ => ⟨S1x4096, .f32⟩
  | .hbm, ⟨39, _⟩ => ⟨S1x4096x1, .f32⟩
  | .hbm, ⟨40, _⟩ => ⟨S1x4096x1, .f32⟩
  | .hbm, ⟨41, _⟩ => ⟨S1x4096x2, .f32⟩
  | .hbm, ⟨42, _⟩ => ⟨S1x8192, .f32⟩
  | .hbm, ⟨43, _⟩ => ⟨S4096x2x320, .f32⟩
  | .hbm, ⟨44, _⟩ => ⟨S4096x1x320, .f32⟩
  | .hbm, ⟨45, _⟩ => ⟨S4096x320, .f32⟩
  | .hbm, ⟨46, _⟩ => ⟨S4096x1x320, .f32⟩
  | .hbm, ⟨47, _⟩ => ⟨S4096x320, .f32⟩
  | .hbm, ⟨48, _⟩ => ⟨S4096x1, .f32⟩
  | .hbm, ⟨49, _⟩ => ⟨S4096x320, .f32⟩
  | .hbm, ⟨50, _⟩ => ⟨S4096x320, .f32⟩
  | .hbm, ⟨51, _⟩ => ⟨S4096x1, .f32⟩
  | .hbm, ⟨52, _⟩ => ⟨S4096x320, .f32⟩
  | .hbm, ⟨53, _⟩ => ⟨S4096x320, .f32⟩
  | .hbm, ⟨54, _⟩ => ⟨S4096x320, .f32⟩
  | .hbm, ⟨55, _⟩ => ⟨S4096x1, .f32⟩
  | .hbm, ⟨56, _⟩ => ⟨S4096x320, .f32⟩
  | .hbm, ⟨57, _⟩ => ⟨S4096x320, .f32⟩
  | .hbm, ⟨58, _⟩ => ⟨S4096x1, .f32⟩
  | .hbm, ⟨59, _⟩ => ⟨S4096x320, .f32⟩
  | .hbm, ⟨60, _⟩ => ⟨S4096x320, .f32⟩
  | .hbm, ⟨61, _⟩ => ⟨S4096x320, .f32⟩
  | .hbm, ⟨62, _⟩ => ⟨S4096x1x320, .f32⟩
  | .hbm, ⟨63, _⟩ => ⟨S4096x1x320, .f32⟩
  | .hbm, ⟨64, _⟩ => ⟨S4096x2x320, .f32⟩
  | .hbm, ⟨65, _⟩ => ⟨S8192x320, .f32⟩
  | .hbm, ⟨66, _⟩ => ⟨S4096x320, .f32⟩
  | .hbm, ⟨67, _⟩ => ⟨S8192x320, .bf16⟩
  | .hbm, ⟨68, _⟩ => ⟨S256x8192, .bf16⟩
  | .hbm, ⟨69, _⟩ => ⟨S1x8192, .bf16⟩
  | .hbm, ⟨70, _⟩ => ⟨S4096x320, .bf16⟩
  | .hbm, ⟨71, _⟩ => ⟨S256x320, .bf16⟩
  | .hbm, ⟨72, _⟩ => ⟨S1x256, .f32⟩
  | .hbm, ⟨73, _⟩ => ⟨S4096x256, .f32⟩
  | .local _ .vmem, ⟨0, _⟩ => ⟨S2048x320, .bf16⟩
  | .local _ .vmem, ⟨1, _⟩ => ⟨S2048x320, .bf16⟩
  | .local _ .vmem, ⟨2, _⟩ => ⟨S256x2048, .bf16⟩
  | .local _ .vmem, ⟨3, _⟩ => ⟨S256x2048, .bf16⟩
  | .local _ .vmem, ⟨4, _⟩ => ⟨S1x2048, .bf16⟩
  | .local _ .vmem, ⟨5, _⟩ => ⟨S1x2048, .bf16⟩
  | .local _ .vmem, ⟨6, _⟩ => ⟨S256x320, .bf16⟩
  | .local _ .vmem, ⟨7, _⟩ => ⟨S1x256, .f32⟩
  | .local _ .vmem, ⟨8, _⟩ => ⟨S256x320, .f32⟩
  | .local _ .vmem, ⟨9, _⟩ => ⟨S1x256, .f32⟩
  | .local _ .vmem, ⟨10, _⟩ => ⟨S2048x320, .bf16⟩
  | .local _ .vmem, ⟨11, _⟩ => ⟨S2048x320, .bf16⟩
  | .local _ .vmem, ⟨12, _⟩ => ⟨S256x320, .bf16⟩
  | .local _ .vmem, ⟨13, _⟩ => ⟨S1x256, .f32⟩
  | .local _ .vmem, ⟨14, _⟩ => ⟨S2048x256, .f32⟩
  | .local _ .vmem, ⟨15, _⟩ => ⟨S2048x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62_0 : Ref sig .tc := ⟨.hbm, 71, rfl⟩
abbrev main_v62_1 : Ref sig .tc := ⟨.hbm, 72, rfl⟩
abbrev main_v63 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v21 : BitVec 1 := Scalar.cmpi .eq arg0 c3_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x320 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x320 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x320 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x320 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S4096 : S_.BroadcastsInDim S4096 (![] : Fin 0 → Fin S4096.rank)
  shapeCasts_S1x8192_S1x4096x2 : S1x8192.ShapeCasts S1x4096x2
  slices_S1x4096x2_S1x4096x1_0_0_0 : S1x4096x2.Slices ![0, 0, 0] S1x4096x1
  shapeCasts_S1x4096x1_S1x4096 : S1x4096x1.ShapeCasts S1x4096
  bcast_S4096_S1x4096_1 : S4096.BroadcastsInDim S1x4096 (![1] : Fin 1 → Fin S1x4096.rank)
  slices_S1x4096x2_S1x4096x1_0_0_1 : S1x4096x2.Slices ![0, 0, 1] S1x4096x1
  bcast_S1x4096_S1x4096x1_0_1 : S1x4096.BroadcastsInDim S1x4096x1 (![0, 1] : Fin 2 → Fin S1x4096x1.rank)
  concatenates_S1x4096x1_S1x4096x1_S1x4096x2_d2 : Shape.Concatenates [S1x4096x1, S1x4096x1] S1x4096x2 2
  shapeCasts_S1x4096x2_S1x8192 : S1x4096x2.ShapeCasts S1x8192
  shapeCasts_S8192x320_S4096x2x320 : S8192x320.ShapeCasts S4096x2x320
  slices_S4096x2x320_S4096x1x320_0_0_0 : S4096x2x320.Slices ![0, 0, 0] S4096x1x320
  shapeCasts_S4096x1x320_S4096x320 : S4096x1x320.ShapeCasts S4096x320
  slices_S4096x2x320_S4096x1x320_0_1_0 : S4096x2x320.Slices ![0, 1, 0] S4096x1x320
  bcast_S4096_S4096x1_0 : S4096.BroadcastsInDim S4096x1 (![0] : Fin 1 → Fin S4096x1.rank)
  bcast_S4096x1_S4096x320_0_1 : S4096x1.BroadcastsInDim S4096x320 (![0, 1] : Fin 2 → Fin S4096x320.rank)
  bcast_S4096x320_S4096x1x320_0_2 : S4096x320.BroadcastsInDim S4096x1x320 (![0, 2] : Fin 2 → Fin S4096x1x320.rank)
  concatenates_S4096x1x320_S4096x1x320_S4096x2x320_d1 : Shape.Concatenates [S4096x1x320, S4096x1x320] S4096x2x320 1
  shapeCasts_S4096x2x320_S8192x320 : S4096x2x320.ShapeCasts S8192x320
  concatenates_S4096x64_S4096x256_S4096x320_d1 : Shape.Concatenates [S4096x64, S4096x256] S4096x320 1
  bitsLt_bf16_f32 : FTy.bits .bf16 < FTy.bits .f32
  inb_S256x320_S256x320_0_0 : ∀ a, (![0, 0] : Fin 2 → Nat) a + S256x320.size a ≤ S256x320.size a
  h_S256x320 : 0 < S256x320.numel
  shapeCasts_S256x320_S256x320 : S256x320.ShapeCasts S256x320
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2048x320_S2048x320_0_0 : ∀ a, (![0, 0] : Fin 2 → Nat) a + S2048x320.size a ≤ S2048x320.size a
  h_S2048x320 : 0 < S2048x320.numel
  shapeCasts_S2048x320_S2048x320 : S2048x320.ShapeCasts S2048x320
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  packedbf16_S256x320_S256x320_0_0 : (Rect.unit (s := S256x320) ![0, 0] S256x320.size inb_S256x320_S256x320_0_0).PackedRows (EltTy.packing .bf16)
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  dot_S256x2048_S2048x320_S256x320_1_0_0_1_n_n_wf : DotDims.WF S256x2048 S2048x320 S256x320 [1] [0] [0] [1] [] []
  dot_S1x2048_S256x2048_S1x256_1_1_0_0_n_n_wf : DotDims.WF S1x2048 S256x2048 S1x256 [1] [1] [0] [0] [] []
  dot_S2048x320_S256x320_S2048x256_1_1_0_0_n_n_wf : DotDims.WF S2048x320 S256x320 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x320.size a ≤ S8192x320.size a
  hwx0_0 : ∀ i : grid0.Coords, EltTy.bits .bf16 = 32 ∨ (Rect.block (s := S8192x320) S2048x320.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S256x8192.size a
  hwx0_1 : ∀ i : grid0.Coords, EltTy.bits .bf16 = 32 ∨ (Rect.block (s := S256x8192) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .bf16 = 32 ∨ (Rect.block (s := S1x8192) S1x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x320.size a ≤ S256x320.size a
  hwx0_3 : ∀ i : grid0.Coords, EltTy.bits .bf16 = 32 ∨ (Rect.block (s := S256x320) S256x320.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x320.size a ≤ S4096x320.size a
  hwx1_0 : ∀ i : grid1.Coords, EltTy.bits .bf16 = 32 ∨ (Rect.block (s := S4096x320) S2048x320.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x320.size a ≤ S256x320.size a
  hwx1_1 : ∀ i : grid1.Coords, EltTy.bits .bf16 = 32 ∨ (Rect.block (s := S256x320) S256x320.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S4096x256.size a
  hwx1_3 : ∀ i : grid1.Coords, EltTy.bits .f32 = 32 ∨ (Rect.block (s := S4096x256) S2048x256.size (cc1_transform_3 i) (hinb1_3 i)).WholeWords (EltTy.packing .f32)

variable [Facts₀]

def dot_S256x2048_S2048x320_S256x320_1_0_0_1_n_n : DotDims S256x2048 S2048x320 S256x320 where
  lhsContracting := [1]
  rhsContracting := [0]
  lhsNonContracting := [0]
  rhsNonContracting := [1]
  lhsBatch := []
  rhsBatch := []
  wf := dot_S256x2048_S2048x320_S256x320_1_0_0_1_n_n_wf
def dot_S1x2048_S256x2048_S1x256_1_1_0_0_n_n : DotDims S1x2048 S256x2048 S1x256 where
  lhsContracting := [1]
  rhsContracting := [1]
  lhsNonContracting := [0]
  rhsNonContracting := [0]
  lhsBatch := []
  rhsBatch := []
  wf := dot_S1x2048_S256x2048_S1x256_1_1_0_0_n_n_wf
def dot_S2048x320_S256x320_S2048x256_1_1_0_0_n_n : DotDims S2048x320 S256x320 S2048x256 where
  lhsContracting := [1]
  rhsContracting := [1]
  lhsNonContracting := [0]
  rhsNonContracting := [0]
  lhsBatch := []
  rhsBatch := []
  wf := dot_S2048x320_S256x320_S2048x256_1_1_0_0_n_n_wf

abbrev win0_0 : Pipeline.Window sig grid0 :=
  Pipeline.Window.ofSpec (Memref.whole main_v58) S2048x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v59) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v60) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v62_0) S256x320.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v62_1) S1x256.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v61) S2048x320.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v62_0) S256x320.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v62_1) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v63) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x256 : Shape := ⟨2, ![4096, 256]⟩
abbrev S4096x64 : Shape := ⟨2, ![4096, 64]⟩
abbrev S1x8192 : Shape := ⟨2, ![1, 8192]⟩
abbrev S4096 : Shape := ⟨1, ![4096]⟩
abbrev S8192x320 : Shape := ⟨2, ![8192, 320]⟩
abbrev S256x8192 : Shape := ⟨2, ![256, 8192]⟩
abbrev S_ : Shape := ⟨0, ![]⟩
abbrev S1x4096x2 : Shape := ⟨3, ![1, 4096, 2]⟩
abbrev S1x4096x1 : Shape := ⟨3, ![1, 4096, 1]⟩
abbrev S1x4096 : Shape := ⟨2, ![1, 4096]⟩
abbrev S4096x320 : Shape := ⟨2, ![4096, 320]⟩
abbrev S320x8192 : Shape := ⟨2, ![320, 8192]⟩
abbrev S4096x8192 : Shape := ⟨2, ![4096, 8192]⟩
abbrev S4096x4096x2 : Shape := ⟨3, ![4096, 4096, 2]⟩
abbrev S4096x4096x1 : Shape := ⟨3, ![4096, 4096, 1]⟩
abbrev S4096x4096 : Shape := ⟨2, ![4096, 4096]⟩
abbrev S8192x256 : Shape := ⟨2, ![8192, 256]⟩

abbrev nBuf : Space → Nat
  | .hbm => 81
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x64, .f32⟩
  | .hbm, ⟨2, _⟩ => ⟨S1x8192, .f32⟩
  | .hbm, ⟨3, _⟩ => ⟨S4096, .f32⟩
  | .hbm, ⟨4, _⟩ => ⟨S8192x320, .f32⟩
  | .hbm, ⟨5, _⟩ => ⟨S256x8192, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S1x4096x2, .f32⟩
  | .hbm, ⟨15, _⟩ => ⟨S1x4096x1, .f32⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S1x4096x1, .f32⟩
  | .hbm, ⟨20, _⟩ => ⟨S1x4096, .f32⟩
  | .hbm, ⟨21, _⟩ => ⟨S1x4096, .f32⟩
  | .hbm, ⟨22, _⟩ => ⟨S1x4096, .f32⟩
  | .hbm, ⟨23, _⟩ => ⟨S1x4096, .f32⟩
  | .hbm, ⟨24, _⟩ => ⟨S4096, .f32⟩
  | .hbm, ⟨25, _⟩ => ⟨S1x4096x1, .f32⟩
  | .hbm, ⟨26, _⟩ => ⟨S1x4096, .f32⟩
  | .hbm, ⟨27, _⟩ => ⟨S1x4096, .f32⟩
  | .hbm, ⟨28, _⟩ => ⟨S1x4096, .f32⟩
  | .hbm, ⟨29, _⟩ => ⟨S1x4096x1, .f32⟩
  | .hbm, ⟨30, _⟩ => ⟨S1x4096, .f32⟩
  | .hbm, ⟨31, _⟩ => ⟨S1x4096, .f32⟩
  | .hbm, ⟨32, _⟩ => ⟨S1x4096, .f32⟩
  | .hbm, ⟨33, _⟩ => ⟨S1x4096, .f32⟩
  | .hbm, ⟨34, _⟩ => ⟨S1x4096x1, .f32⟩
  | .hbm, ⟨35, _⟩ => ⟨S1x4096x1, .f32⟩
  | .hbm, ⟨36, _⟩ => ⟨S1x4096x2, .f32⟩
  | .hbm, ⟨37, _⟩ => ⟨S1x8192, .f32⟩
  | .hbm, ⟨38, _⟩ => ⟨S4096x320, .f32⟩
  | .hbm, ⟨39, _⟩ => ⟨S320x8192, .f32⟩
  | .hbm, ⟨40, _⟩ => ⟨S4096x8192, .f32⟩
  | .hbm, ⟨41, _⟩ => ⟨S4096x4096x2, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x4096x1, .f32⟩
  | .hbm, ⟨46, _⟩ => ⟨S4096x4096, .f32⟩
  | .hbm, ⟨47, _⟩ => ⟨S1x4096, .f32⟩
  | .hbm, ⟨48, _⟩ => ⟨S4096x4096, .f32⟩
  | .hbm, ⟨49, _⟩ => ⟨S4096x4096, .f32⟩
  | .hbm, ⟨50, _⟩ => ⟨S4096x4096x1, .f32⟩
  | .hbm, ⟨51, _⟩ => ⟨S4096x4096, .f32⟩
  | .hbm, ⟨52, _⟩ => ⟨S1x4096, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S1x4096, .f32⟩
  | .hbm, ⟨57, _⟩ => ⟨S4096x4096, .f32⟩
  | .hbm, ⟨58, _⟩ => ⟨S4096x4096, .f32⟩
  | .hbm, ⟨59, _⟩ => ⟨S4096x4096x1, .f32⟩
  | .hbm, ⟨60, _⟩ => ⟨S4096x4096, .f32⟩
  | .hbm, ⟨61, _⟩ => ⟨S1x4096, .f32⟩
  | .hbm, ⟨62, _⟩ => ⟨S4096x4096, .f32⟩
  | .hbm, ⟨63, _⟩ => ⟨S4096x4096, .f32⟩
  | .hbm, ⟨64, _⟩ => ⟨S4096x4096x1, .f32⟩
  | .hbm, ⟨65, _⟩ => ⟨S4096x4096, .f32⟩
  | .hbm, ⟨66, _⟩ => ⟨S1x4096, .f32⟩
  | .hbm, ⟨67, _⟩ => ⟨S4096x4096, .f32⟩
  | .hbm, ⟨68, _⟩ => ⟨S4096x4096, .f32⟩
  | .hbm, ⟨69, _⟩ => ⟨S4096x4096, .f32⟩
  | .hbm, ⟨70, _⟩ => ⟨S1x4096, .f32⟩
  | .hbm, ⟨71, _⟩ => ⟨S4096x4096, .f32⟩
  | .hbm, ⟨72, _⟩ => ⟨S4096x4096, .f32⟩
  | .hbm, ⟨73, _⟩ => ⟨S4096x4096x1, .f32⟩
  | .hbm, ⟨74, _⟩ => ⟨S4096x4096x1, .f32⟩
  | .hbm, ⟨75, _⟩ => ⟨S4096x4096x2, .f32⟩
  | .hbm, ⟨76, _⟩ => ⟨S4096x8192, .f32⟩
  | .hbm, ⟨77, _⟩ => ⟨S4096x8192, .f32⟩
  | .hbm, ⟨78, _⟩ => ⟨S4096x8192, .f32⟩
  | .hbm, ⟨79, _⟩ => ⟨S8192x256, .f32⟩
  | .hbm, ⟨80, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_1 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  shapeCasts_S1x8192_S1x4096x2 : S1x8192.ShapeCasts S1x4096x2
  slices_S1x4096x2_S1x4096x1_0_0_0 : S1x4096x2.Slices ![0, 0, 0] S1x4096x1
  shapeCasts_S1x4096x1_S1x4096 : S1x4096x1.ShapeCasts S1x4096
  bcast_S4096_S1x4096_1 : S4096.BroadcastsInDim S1x4096 (![1] : Fin 1 → Fin S1x4096.rank)
  slices_S1x4096x2_S1x4096x1_0_0_1 : S1x4096x2.Slices ![0, 0, 1] S1x4096x1
  bcast_S1x4096_S1x4096x1_0_1 : S1x4096.BroadcastsInDim S1x4096x1 (![0, 1] : Fin 2 → Fin S1x4096x1.rank)
  concatenates_S1x4096x1_S1x4096x1_S1x4096x2_d2 : Shape.Concatenates [S1x4096x1, S1x4096x1] S1x4096x2 2
  shapeCasts_S1x4096x2_S1x8192 : S1x4096x2.ShapeCasts S1x8192
  concatenates_S4096x64_S4096x256_S4096x320_d1 : Shape.Concatenates [S4096x64, S4096x256] S4096x320 1
  transposes_S8192x320_S320x8192_1_0 : S8192x320.Transposes [1, 0] S320x8192
  shapeCasts_S4096x8192_S4096x4096x2 : S4096x8192.ShapeCasts S4096x4096x2
  slices_S4096x4096x2_S4096x4096x1_0_0_0 : S4096x4096x2.Slices ![0, 0, 0] S4096x4096x1
  shapeCasts_S4096x4096x1_S4096x4096 : S4096x4096x1.ShapeCasts S4096x4096
  bcast_S1x4096_S4096x4096_0_1 : S1x4096.BroadcastsInDim S4096x4096 (![0, 1] : Fin 2 → Fin S4096x4096.rank)
  slices_S4096x4096x2_S4096x4096x1_0_0_1 : S4096x4096x2.Slices ![0, 0, 1] S4096x4096x1
  bcast_S4096x4096_S4096x4096x1_0_1 : S4096x4096.BroadcastsInDim S4096x4096x1 (![0, 1] : Fin 2 → Fin S4096x4096x1.rank)
  concatenates_S4096x4096x1_S4096x4096x1_S4096x4096x2_d2 : Shape.Concatenates [S4096x4096x1, S4096x4096x1] S4096x4096x2 2
  shapeCasts_S4096x4096x2_S4096x8192 : S4096x4096x2.ShapeCasts S4096x8192
  bcast_S1x8192_S4096x8192_0_1 : S1x8192.BroadcastsInDim S4096x8192 (![0, 1] : Fin 2 → Fin S4096x8192.rank)
  transposes_S256x8192_S8192x256_1_0 : S256x8192.Transposes [1, 0] S8192x256
  dot_S4096x320_S320x8192_S4096x8192_1_0_0_1_n_n_wf : DotDims.WF S4096x320 S320x8192 S4096x8192 [1] [0] [0] [1] [] []
  dot_S4096x8192_S8192x256_S4096x256_1_0_0_1_n_n_wf : DotDims.WF S4096x8192 S8192x256 S4096x256 [1] [0] [0] [1] [] []

variable [Facts₀]

def dot_S4096x320_S320x8192_S4096x8192_1_0_0_1_n_n : DotDims S4096x320 S320x8192 S4096x8192 where
  lhsContracting := [1]
  rhsContracting := [0]
  lhsNonContracting := [0]
  rhsNonContracting := [1]
  lhsBatch := []
  rhsBatch := []
  wf := dot_S4096x320_S320x8192_S4096x8192_1_0_0_1_n_n_wf
def dot_S4096x8192_S8192x256_S4096x256_1_0_0_1_n_n : DotDims S4096x8192 S8192x256 S4096x256 where
  lhsContracting := [1]
  rhsContracting := [0]
  lhsNonContracting := [0]
  rhsNonContracting := [1]
  lhsBatch := []
  rhsBatch := []
  wf := dot_S4096x8192_S8192x256_S4096x256_1_0_0_1_n_n_wf

class Facts : Prop extends Facts₀ where

variable [Facts]
-- ==== Proof.BitsBoundary.lean ====
/-
  The unscoped buffers' contents at the boundaries between @main's items: at launch, after the first sixty host
  operations, and after the remaining five (where the first kernel region is entered).
-/
import proofs.«419977_j22127671509386_3_alg».proof.Proof.Gen.Kernel.Launch
import Idealize.ShloMosaic.Lib.StableHlo.Run

noncomputable section

namespace Cert.Kernel.Run

open Cert.Kernel Cert.Kernel.Gen Idealize.ShloMosaic Idealize.ShloMosaic.TcCoe Idealize.SL.Sem

variable {F : FTy → Type} [FloatOps F]
variable (m : (ℓ : Loc nD τ sig) → Buf (Elt F) ℓ)

/-- Core c's buffers at launch. -/
abbrev W0 (c : Dev nD) : Valuation τ sig (Elt F) := fun b => m (c, b)
/-- After the first sixty host operations. -/
abbrev W1 (c : Dev nD) : Valuation τ sig (Elt F) := StableHlo.after main_part0_ops0 (W0 m c)
/-- After all sixty-five: what the first region is entered from. -/
abbrev W2 (c : Dev nD) : Valuation τ sig (Elt F) := StableHlo.after main_part1_ops0 (W1 m c)

end Cert.Kernel.Run

end
-- ==== Proof.BitsFoldRuns.lean ====
/-
  The weight-fold kernel's body, case by case. The grid has four points, one per tile of 2048 state indices. At the
  first point the two accumulators (C·Beff, 256 × 320, and rec·Cᵀ, 1 × 256) are reset and the first tile's products
  added; at the two middle points a tile's products are added; at the last point they are added and the
  accumulators copied out (the first through a change of float format). Each case runs the printed body once; the
  pieces its stores leave in each buffer are what the run finds.
-/
import proofs.«419977_j22127671509386_3_alg».proof.Proof.Gen.Kernel.Launch
import proofs.«419977_j22127671509386_3_alg».proof.Proof.Gen.Kernel.Skeleton
import proofs.«419977_j22127671509386_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the four points -/

/-- "This is the first point": the condition of the reset. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val % 4 = 0 :=
  (by decide +kernel : ∀ t : Fin grid0.N, cond0 (grid0.coords t) ↔ t.val % 4 = 0)

/-- "This is the last point": the condition of the copy-out. -/
abbrev cond1 (i : grid0.Coords) : Prop := k0_cond2 i = 1#1
theorem hcond1 : ∀ t : Fin cfg0.N, cond1 (grid0.coords t) ↔ t.val % 4 = 3 :=
  (by decide +kernel : ∀ t : Fin grid0.N, cond1 (grid0.coords t) ↔ t.val % 4 = 3)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- Off the last point nothing is stored into the two outputs and neither is written back. -/
theorem idleAt3 : ∀ t : Fin cfg0.N, ¬cond1 (grid0.coords t) → cfg0.idle 3 (grid0.coords t) = true := by decide +kernel
theorem idleAt4 : ∀ t : Fin cfg0.N, ¬cond1 (grid0.coords t) → cfg0.idle 4 (grid0.coords t) = true := by decide +kernel
theorem noFlush3 : ∀ t : Fin cfg0.N, ¬cond1 (grid0.coords t) → (cfg0.win 3).flush t = false := by decide +kernel
theorem noFlush4 : ∀ t : Fin cfg0.N, ¬cond1 (grid0.coords t) → (cfg0.win 4).flush t = false := by decide +kernel
theorem liveAt3 : ∀ t : Fin cfg0.N, cond1 (grid0.coords t) → cfg0.idle 3 (grid0.coords t) = false := by decide +kernel
theorem liveAt4 : ∀ t : Fin cfg0.N, cond1 (grid0.coords t) → cfg0.idle 4 (grid0.coords t) = false := by decide +kernel

/-! ## The memrefs the body is called with -/

abbrev fm0 (t : Fin cfg0.N) : Memref sig .tc .vmem S2048x320 .bf16 := win0_0.stage (cfg0.slots t 0)
abbrev fh0 (t : Fin cfg0.N) : (fm0 t).IsWhole := hstage0_0 ((cfg0.slots t 0).cast nbuf0_0)
abbrev fm1 (t : Fin cfg0.N) : Memref sig .tc .vmem S256x2048 .bf16 := win0_1.stage (cfg0.slots t 1)
abbrev fh1 (t : Fin cfg0.N) : (fm1 t).IsWhole := hstage0_1 ((cfg0.slots t 1).cast nbuf0_1)
abbrev fm2 (t : Fin cfg0.N) : Memref sig .tc .vmem S1x2048 .bf16 := win0_2.stage (cfg0.slots t 2)
abbrev fh2 (t : Fin cfg0.N) : (fm2 t).IsWhole := hstage0_2 ((cfg0.slots t 2).cast nbuf0_2)
abbrev fm3 (t : Fin cfg0.N) : Memref sig .tc .vmem S256x320 .bf16 := win0_3.stage (cfg0.slots t 3)
abbrev fh3 (t : Fin cfg0.N) : (fm3 t).IsWhole := hstage0_3 ((cfg0.slots t 3).cast nbuf0_3)
abbrev fm4 (t : Fin cfg0.N) : Memref sig .tc .vmem S1x256 .f32 := win0_4.stage (cfg0.slots t 4)
abbrev fh4 (t : Fin cfg0.N) : (fm4 t).IsWhole := hstage0_4 ((cfg0.slots t 4).cast nbuf0_4)
/-- The two accumulators: whole scoped buffers of the kernel's own. -/
abbrev accM : Memref sig .tc .vmem S256x320 .f32 := Memref.whole cc0_scratch0
abbrev acbM : Memref sig .tc .vmem S1x256 .f32 := Memref.whole cc0_scratch1
abbrev VaccW : View sig .tc .vmem S256x320 .f32 := accM.view
abbrev VaccB : View sig .tc .vmem S1x256 .f32 := acbM.view
abbrev VoutW : View sig .tc .vmem S256x320 .bf16 := (Memref.whole cc0_stg3_0 : Memref sig .tc .vmem S256x320 .bf16).view
abbrev VoutB : View sig .tc .vmem S1x256 .f32 := (Memref.whole cc0_stg4_0 : Memref sig .tc .vmem S1x256 .f32).view

/-- The second region's staging buffers, which this region holds at anything. -/
def otherStaging (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the two accumulators named. -/
theorem PhiA_eq (c : Dev nD) :
    (Pipeline.ΦA spec0 c : sProp 𝕄)
      = iprop(iprop((∃ d, owns (c : Thread nD τ) accM fullShare d) ∗ (∃ d, owns (c : Thread nD τ) acbM fullShare d) ∗ otherStaging c) ∗ (∃ r, prngReg c r)) := by
  unfold Pipeline.ΦA otherStaging; rw [scopedRest0_eq]; simp only [accM, acbM, owns_whole]; try rfl

/-! ## The body's run, case by case -/

set_option maxHeartbeats 4000000 in
/-- First point: both accumulators reset, then the first tile added; the outputs untouched. -/
noncomputable def foldRunA (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : cond0 i) (hc1 : ¬cond1 i)
    (x0 : Vec F S2048x320 .bf16) (x1 : Vec F S256x2048 .bf16) (x2 : Vec F S1x2048 .bf16) :
    Σ' (LS0 : List (View.Piece (Elt F) S256x320 .f32)), { LS1 : List (View.Piece (Elt F) S1x256 .f32) //
      ∀ (xi3 : Vec F S256x320 .bf16) (xi4 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__fold_kernel i arg1 harg1 arg2 harg2 arg3 harg3 arg4 harg4 arg5 harg5 arg6 harg6 arg7 harg7) K } := by
  refine ⟨?_, ?_, fun xi3 xi4 E K => ?run⟩
  case run =>
    simp only [cc0__fold_kernel_eq_skeleton]; unfold cc0__fold_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

set_option maxHeartbeats 4000000 in
/-- A middle point: a tile added to each accumulator as the point before left it; the outputs untouched. -/
noncomputable def foldRunB (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : ¬cond1 i)
    (x0 : Vec F S2048x320 .bf16) (x1 : Vec F S256x2048 .bf16) (x2 : Vec F S1x2048 .bf16) (xs0 : Vec F S256x320 .f32) (xs1 : Vec F S1x256 .f32) :
    Σ' (LS0 : List (View.Piece (Elt F) S256x320 .f32)), { LS1 : List (View.Piece (Elt F) S1x256 .f32) //
      ∀ (xi3 : Vec F S256x320 .bf16) (xi4 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__fold_kernel i arg1 harg1 arg2 harg2 arg3 harg3 arg4 harg4 arg5 harg5 arg6 harg6 arg7 harg7) K } := by
  refine ⟨?_, ?_, fun xi3 xi4 E K => ?run⟩
  case run =>
    simp only [cc0__fold_kernel_eq_skeleton]; unfold cc0__fold_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

set_option maxHeartbeats 4000000 in
/-- Last point: the last tile added, then both accumulators copied into the outputs. -/
noncomputable def foldRunC (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : cond1 i)
    (x0 : Vec F S2048x320 .bf16) (x1 : Vec F S256x2048 .bf16) (x2 : Vec F S1x2048 .bf16) (xs0 : Vec F S256x320 .f32) (xs1 : Vec F S1x256 .f32) :
    Σ' (L3 : List (View.Piece (Elt F) S256x320 .bf16)), Σ' (L4 : List (View.Piece (Elt F) S1x256 .f32)), Σ' (LS0 : List (View.Piece (Elt F) S256x320 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__fold_kernel i arg1 harg1 arg2 harg2 arg3 harg3 arg4 harg4 arg5 harg5 arg6 harg6 arg7 harg7) K } := by
  refine ⟨?_, ?_, ?_, ?_, fun E K => ?run⟩
  case run =>
    simp only [cc0__fold_kernel_eq_skeleton]; unfold cc0__fold_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]; · iexists _; iexact HS0
    iexists _; iexact HS1

end Cert.Kernel.Run

end
-- ==== Proof.BitsFoldRegion.lean ====
/-
  The weight-fold region as a whole: what the two accumulators and the two outputs hold after each of the four
  points, by recursion on the point (the first resets and adds, the middle two add to what the point before left,
  the last adds and copies out), the invariant that carries the accumulators from point to point, the proof data,
  and the body obligation by cases on the point. Stated at the contents V the region finds in the buffers.
-/
import proofs.«419977_j22127671509386_3_alg».proof.Proof.BitsFoldRuns

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def fblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem fbefore0_of {c : Dev nD} (dat : Dat τ (Elt F) Unit ℕ (UR sig nD τ) ℕ cfg0 c) (hA : dat.A 0 = V c (Pipeline.arrRef spec0 0))
    (hafter : ∀ t, dat.after 0 t = fblk V c 0 t) (t : Fin cfg0.N) (d) : dat.before 0 t d = fblk V c 0 t :=
  (dat.before_in_eq_fetched 0 rfl (fun _ => rfl) (fun _ _ _ => rfl) (fun t => by rw [hafter]; unfold Dat.blockOf fblk; rw [hA]; try rfl) t d).trans
    (by unfold Dat.fetched Dat.blockOf fblk; rw [hA]; try rfl)
theorem fbefore1_of {c : Dev nD} (dat : Dat τ (Elt F) Unit ℕ (UR sig nD τ) ℕ cfg0 c) (hA : dat.A 1 = V c (Pipeline.arrRef spec0 1))
    (hafter : ∀ t, dat.after 1 t = fblk V c 1 t) (t : Fin cfg0.N) (d) : dat.before 1 t d = fblk V c 1 t :=
  (dat.before_in_eq_fetched 1 rfl (fun _ => rfl) (fun _ _ _ => rfl) (fun t => by rw [hafter]; unfold Dat.blockOf fblk; rw [hA]; try rfl) t d).trans
    (by unfold Dat.fetched Dat.blockOf fblk; rw [hA]; try rfl)
theorem fbefore2_of {c : Dev nD} (dat : Dat τ (Elt F) Unit ℕ (UR sig nD τ) ℕ cfg0 c) (hA : dat.A 2 = V c (Pipeline.arrRef spec0 2))
    (hafter : ∀ t, dat.after 2 t = fblk V c 2 t) (t : Fin cfg0.N) (d) : dat.before 2 t d = fblk V c 2 t :=
  (dat.before_in_eq_fetched 2 rfl (fun _ => rfl) (fun _ _ _ => rfl) (fun t => by rw [hafter]; unfold Dat.blockOf fblk; rw [hA]; try rfl) t d).trans
    (by unfold Dat.fetched Dat.blockOf fblk; rw [hA]; try rfl)

/-- What case A leaves in the two accumulators: its pieces read back. -/
def accWA (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : cond0 i) (hc1 : ¬cond1 i)
    (x0 : Vec F S2048x320 .bf16) (x1 : Vec F S256x2048 .bf16) (x2 : Vec F S1x2048 .bf16) : Vec F S256x320 .f32 :=
  VaccW.read (Elt F) (VaccW.writes (Elt F) VaccW.junk (foldRunA c i arg1 harg1 arg2 harg2 arg3 harg3 arg4 harg4 arg5 harg5 arg6 harg6 arg7 harg7 hc0 hc1 x0 x1 x2).1)
def accBA (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : cond0 i) (hc1 : ¬cond1 i)
    (x0 : Vec F S2048x320 .bf16) (x1 : Vec F S256x2048 .bf16) (x2 : Vec F S1x2048 .bf16) : Vec F S1x256 .f32 :=
  VaccB.read (Elt F) (VaccB.writes (Elt F) VaccB.junk (foldRunA c i arg1 harg1 arg2 harg2 arg3 harg3 arg4 harg4 arg5 harg5 arg6 harg6 arg7 harg7 hc0 hc1 x0 x1 x2).2.1)
theorem coverWA (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : cond0 i) (hc1 : ¬cond1 i)
    (x0 : Vec F S2048x320 .bf16) (x1 : Vec F S256x2048 .bf16) (x2 : Vec F S1x2048 .bf16) (y : S256x320.Idx) :
    ∃ pc ∈ (foldRunA c i arg1 harg1 arg2 harg2 arg3 harg3 arg4 harg4 arg5 harg5 arg6 harg6 arg7 harg7 hc0 hc1 x0 x1 x2).1, y ∈ pc.1.set :=
  View.cover_of_tiledL (foldRunA c i arg1 harg1 arg2 harg2 arg3 harg3 arg4 harg4 arg5 harg5 arg6 harg6 arg7 harg7 hc0 hc1 x0 x1 x2).1 S256x320.size (by sl_kernel_rfl) y
theorem coverBA (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : cond0 i) (hc1 : ¬cond1 i)
    (x0 : Vec F S2048x320 .bf16) (x1 : Vec F S256x2048 .bf16) (x2 : Vec F S1x2048 .bf16) (y : S1x256.Idx) :
    ∃ pc ∈ (foldRunA c i arg1 harg1 arg2 harg2 arg3 harg3 arg4 harg4 arg5 harg5 arg6 harg6 arg7 harg7 hc0 hc1 x0 x1 x2).2.1, y ∈ pc.1.set :=
  View.cover_of_tiledL (foldRunA c i arg1 harg1 arg2 harg2 arg3 harg3 arg4 harg4 arg5 harg5 arg6 harg6 arg7 harg7 hc0 hc1 x0 x1 x2).2.1 S1x256.size (by sl_kernel_rfl) y

/-- What case B leaves in the two accumulators: its pieces read back. -/
def accWB (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : ¬cond1 i)
    (x0 : Vec F S2048x320 .bf16) (x1 : Vec F S256x2048 .bf16) (x2 : Vec F S1x2048 .bf16) (xs0 : Vec F S256x320 .f32) (xs1 : Vec F S1x256 .f32) : Vec F S256x320 .f32 :=
  VaccW.read (Elt F) (VaccW.writes (Elt F) VaccW.junk (foldRunB c i arg1 harg1 arg2 harg2 arg3 harg3 arg4 harg4 arg5 harg5 arg6 harg6 arg7 harg7 hc0 hc1 x0 x1 x2 xs0 xs1).1)
def accBB (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : ¬cond1 i)
    (x0 : Vec F S2048x320 .bf16) (x1 : Vec F S256x2048 .bf16) (x2 : Vec F S1x2048 .bf16) (xs0 : Vec F S256x320 .f32) (xs1 : Vec F S1x256 .f32) : Vec F S1x256 .f32 :=
  VaccB.read (Elt F) (VaccB.writes (Elt F) VaccB.junk (foldRunB c i arg1 harg1 arg2 harg2 arg3 harg3 arg4 harg4 arg5 harg5 arg6 harg6 arg7 harg7 hc0 hc1 x0 x1 x2 xs0 xs1).2.1)
theorem coverWB (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : ¬cond1 i)
    (x0 : Vec F S2048x320 .bf16) (x1 : Vec F S256x2048 .bf16) (x2 : Vec F S1x2048 .bf16) (xs0 : Vec F S256x320 .f32) (xs1 : Vec F S1x256 .f32) (y : S256x320.Idx) :
    ∃ pc ∈ (foldRunB c i arg1 harg1 arg2 harg2 arg3 harg3 arg4 harg4 arg5 harg5 arg6 harg6 arg7 harg7 hc0 hc1 x0 x1 x2 xs0 xs1).1, y ∈ pc.1.set :=
  View.cover_of_tiledL (foldRunB c i arg1 harg1 arg2 harg2 arg3 harg3 arg4 harg4 arg5 harg5 arg6 harg6 arg7 harg7 hc0 hc1 x0 x1 x2 xs0 xs1).1 S256x320.size (by sl_kernel_rfl) y
theorem coverBB (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : ¬cond1 i)
    (x0 : Vec F S2048x320 .bf16) (x1 : Vec F S256x2048 .bf16) (x2 : Vec F S1x2048 .bf16) (xs0 : Vec F S256x320 .f32) (xs1 : Vec F S1x256 .f32) (y : S1x256.Idx) :
    ∃ pc ∈ (foldRunB c i arg1 harg1 arg2 harg2 arg3 harg3 arg4 harg4 arg5 harg5 arg6 harg6 arg7 harg7 hc0 hc1 x0 x1 x2 xs0 xs1).2.1, y ∈ pc.1.set :=
  View.cover_of_tiledL (foldRunB c i arg1 harg1 arg2 harg2 arg3 harg3 arg4 harg4 arg5 harg5 arg6 harg6 arg7 harg7 hc0 hc1 x0 x1 x2 xs0 xs1).2.1 S1x256.size (by sl_kernel_rfl) y

/-- What case C leaves in the two accumulators: its pieces read back. -/
def accWC (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : cond1 i)
    (x0 : Vec F S2048x320 .bf16) (x1 : Vec F S256x2048 .bf16) (x2 : Vec F S1x2048 .bf16) (xs0 : Vec F S256x320 .f32) (xs1 : Vec F S1x256 .f32) : Vec F S256x320 .f32 :=
  VaccW.read (Elt F) (VaccW.writes (Elt F) VaccW.junk (foldRunC c i arg1 harg1 arg2 harg2 arg3 harg3 arg4 harg4 arg5 harg5 arg6 harg6 arg7 harg7 hc0 hc1 x0 x1 x2 xs0 xs1).2.2.1)
def accBC (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : cond1 i)
    (x0 : Vec F S2048x320 .bf16) (x1 : Vec F S256x2048 .bf16) (x2 : Vec F S1x2048 .bf16) (xs0 : Vec F S256x320 .f32) (xs1 : Vec F S1x256 .f32) : Vec F S1x256 .f32 :=
  VaccB.read (Elt F) (VaccB.writes (Elt F) VaccB.junk (foldRunC c i arg1 harg1 arg2 harg2 arg3 harg3 arg4 harg4 arg5 harg5 arg6 harg6 arg7 harg7 hc0 hc1 x0 x1 x2 xs0 xs1).2.2.2.1)
theorem coverWC (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : cond1 i)
    (x0 : Vec F S2048x320 .bf16) (x1 : Vec F S256x2048 .bf16) (x2 : Vec F S1x2048 .bf16) (xs0 : Vec F S256x320 .f32) (xs1 : Vec F S1x256 .f32) (y : S256x320.Idx) :
    ∃ pc ∈ (foldRunC c i arg1 harg1 arg2 harg2 arg3 harg3 arg4 harg4 arg5 harg5 arg6 harg6 arg7 harg7 hc0 hc1 x0 x1 x2 xs0 xs1).2.2.1, y ∈ pc.1.set :=
  View.cover_of_tiledL (foldRunC c i arg1 harg1 arg2 harg2 arg3 harg3 arg4 harg4 arg5 harg5 arg6 harg6 arg7 harg7 hc0 hc1 x0 x1 x2 xs0 xs1).2.2.1 S256x320.size (by sl_kernel_rfl) y
theorem coverBC (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : cond1 i)
    (x0 : Vec F S2048x320 .bf16) (x1 : Vec F S256x2048 .bf16) (x2 : Vec F S1x2048 .bf16) (xs0 : Vec F S256x320 .f32) (xs1 : Vec F S1x256 .f32) (y : S1x256.Idx) :
    ∃ pc ∈ (foldRunC c i arg1 harg1 arg2 harg2 arg3 harg3 arg4 harg4 arg5 harg5 arg6 harg6 arg7 harg7 hc0 hc1 x0 x1 x2 xs0 xs1).2.2.2.1, y ∈ pc.1.set :=
  View.cover_of_tiledL (foldRunC c i arg1 harg1 arg2 harg2 arg3 harg3 arg4 harg4 arg5 harg5 arg6 harg6 arg7 harg7 hc0 hc1 x0 x1 x2 xs0 xs1).2.2.2.1 S1x256.size (by sl_kernel_rfl) y

/-- What the last case leaves in the two outputs' staging buffers. -/
def outWC (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : cond1 i)
    (x0 : Vec F S2048x320 .bf16) (x1 : Vec F S256x2048 .bf16) (x2 : Vec F S1x2048 .bf16) (xs0 : Vec F S256x320 .f32) (xs1 : Vec F S1x256 .f32) : Vec F S256x320 .bf16 :=
  VoutW.read (Elt F) (VoutW.writes (Elt F) VoutW.junk (foldRunC c i arg1 harg1 arg2 harg2 arg3 harg3 arg4 harg4 arg5 harg5 arg6 harg6 arg7 harg7 hc0 hc1 x0 x1 x2 xs0 xs1).1)
def outBC (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : cond1 i)
    (x0 : Vec F S2048x320 .bf16) (x1 : Vec F S256x2048 .bf16) (x2 : Vec F S1x2048 .bf16) (xs0 : Vec F S256x320 .f32) (xs1 : Vec F S1x256 .f32) : Vec F S1x256 .f32 :=
  VoutB.read (Elt F) (VoutB.writes (Elt F) VoutB.junk (foldRunC c i arg1 harg1 arg2 harg2 arg3 harg3 arg4 harg4 arg5 harg5 arg6 harg6 arg7 harg7 hc0 hc1 x0 x1 x2 xs0 xs1).2.1)
theorem coverOutW (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : cond1 i)
    (x0 : Vec F S2048x320 .bf16) (x1 : Vec F S256x2048 .bf16) (x2 : Vec F S1x2048 .bf16) (xs0 : Vec F S256x320 .f32) (xs1 : Vec F S1x256 .f32) (y : S256x320.Idx) :
    ∃ pc ∈ (foldRunC c i arg1 harg1 arg2 harg2 arg3 harg3 arg4 harg4 arg5 harg5 arg6 harg6 arg7 harg7 hc0 hc1 x0 x1 x2 xs0 xs1).1, y ∈ pc.1.set :=
  View.cover_of_tiledL (foldRunC c i arg1 harg1 arg2 harg2 arg3 harg3 arg4 harg4 arg5 harg5 arg6 harg6 arg7 harg7 hc0 hc1 x0 x1 x2 xs0 xs1).1 S256x320.size (by sl_kernel_rfl) y
theorem coverOutB (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : cond1 i)
    (x0 : Vec F S2048x320 .bf16) (x1 : Vec F S256x2048 .bf16) (x2 : Vec F S1x2048 .bf16) (xs0 : Vec F S256x320 .f32) (xs1 : Vec F S1x256 .f32) (y : S1x256.Idx) :
    ∃ pc ∈ (foldRunC c i arg1 harg1 arg2 harg2 arg3 harg3 arg4 harg4 arg5 harg5 arg6 harg6 arg7 harg7 hc0 hc1 x0 x1 x2 xs0 xs1).2.1, y ∈ pc.1.set :=
  View.cover_of_tiledL (foldRunC c i arg1 harg1 arg2 harg2 arg3 harg3 arg4 harg4 arg5 harg5 arg6 harg6 arg7 harg7 hc0 hc1 x0 x1 x2 xs0 xs1).2.1 S1x256.size (by sl_kernel_rfl) y

/-- Placeholders for the outputs at the points that store nothing into them (never consulted: the windows are idle
    and not written back there). -/
def idleW : Vec F S256x320 .bf16 := VoutW.read (Elt F) VoutW.junk
def idleB : Vec F S1x256 .f32 := VoutB.read (Elt F) VoutB.junk

/-! ## What the buffers hold after each point -/

/-- After point n: the two outputs' staging buffers, then the two accumulators. -/
def outsAt (c : Dev nD) : (n : ℕ) → n < cfg0.N → Vec F S256x320 .bf16 × Vec F S1x256 .f32 × Vec F S256x320 .f32 × Vec F S1x256 .f32
  | 0, hn => (idleW, idleB,
      accWA c (grid0.coords ⟨0, hn⟩) (fm0 ⟨0, hn⟩) (fh0 ⟨0, hn⟩) (fm1 ⟨0, hn⟩) (fh1 ⟨0, hn⟩) (fm2 ⟨0, hn⟩) (fh2 ⟨0, hn⟩) (fm3 ⟨0, hn⟩) (fh3 ⟨0, hn⟩) (fm4 ⟨0, hn⟩) (fh4 ⟨0, hn⟩) accM (Memref.isWhole_whole _) acbM (Memref.isWhole_whole _) ((hcond0 ⟨0, hn⟩).mpr (Nat.zero_mod _)) (fun h => (fun h => by (try dsimp only at h); omega) ((hcond1 ⟨0, hn⟩).mp h)) (fblk V c 0 ⟨0, hn⟩) (fblk V c 1 ⟨0, hn⟩) (fblk V c 2 ⟨0, hn⟩),
      accBA c (grid0.coords ⟨0, hn⟩) (fm0 ⟨0, hn⟩) (fh0 ⟨0, hn⟩) (fm1 ⟨0, hn⟩) (fh1 ⟨0, hn⟩) (fm2 ⟨0, hn⟩) (fh2 ⟨0, hn⟩) (fm3 ⟨0, hn⟩) (fh3 ⟨0, hn⟩) (fm4 ⟨0, hn⟩) (fh4 ⟨0, hn⟩) accM (Memref.isWhole_whole _) acbM (Memref.isWhole_whole _) ((hcond0 ⟨0, hn⟩).mpr (Nat.zero_mod _)) (fun h => (fun h => by (try dsimp only at h); omega) ((hcond1 ⟨0, hn⟩).mp h)) (fblk V c 0 ⟨0, hn⟩) (fblk V c 1 ⟨0, hn⟩) (fblk V c 2 ⟨0, hn⟩))
  | n + 1, hn =>
    if h0 : (n + 1) % 4 = 0 then
      False.elim (by have hN : n + 1 < 4 := lt_of_lt_of_eq hn (show cfg0.N = 4 from N_0); omega)
    else
      if h1 : (n + 1) % 4 = 3 then
        (outWC c (grid0.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) (fm4 ⟨n + 1, hn⟩) (fh4 ⟨n + 1, hn⟩) accM (Memref.isWhole_whole _) acbM (Memref.isWhole_whole _) (fun h => h0 ((hcond0 ⟨n + 1, hn⟩).mp h)) ((hcond1 ⟨n + 1, hn⟩).mpr h1) (fblk V c 0 ⟨n + 1, hn⟩) (fblk V c 1 ⟨n + 1, hn⟩) (fblk V c 2 ⟨n + 1, hn⟩) (outsAt c n (Nat.lt_of_succ_lt hn)).2.2.1 (outsAt c n (Nat.lt_of_succ_lt hn)).2.2.2,
         outBC c (grid0.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) (fm4 ⟨n + 1, hn⟩) (fh4 ⟨n + 1, hn⟩) accM (Memref.isWhole_whole _) acbM (Memref.isWhole_whole _) (fun h => h0 ((hcond0 ⟨n + 1, hn⟩).mp h)) ((hcond1 ⟨n + 1, hn⟩).mpr h1) (fblk V c 0 ⟨n + 1, hn⟩) (fblk V c 1 ⟨n + 1, hn⟩) (fblk V c 2 ⟨n + 1, hn⟩) (outsAt c n (Nat.lt_of_succ_lt hn)).2.2.1 (outsAt c n (Nat.lt_of_succ_lt hn)).2.2.2,
         accWC c (grid0.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) (fm4 ⟨n + 1, hn⟩) (fh4 ⟨n + 1, hn⟩) accM (Memref.isWhole_whole _) acbM (Memref.isWhole_whole _) (fun h => h0 ((hcond0 ⟨n + 1, hn⟩).mp h)) ((hcond1 ⟨n + 1, hn⟩).mpr h1) (fblk V c 0 ⟨n + 1, hn⟩) (fblk V c 1 ⟨n + 1, hn⟩) (fblk V c 2 ⟨n + 1, hn⟩) (outsAt c n (Nat.lt_of_succ_lt hn)).2.2.1 (outsAt c n (Nat.lt_of_succ_lt hn)).2.2.2,
         accBC c (grid0.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) (fm4 ⟨n + 1, hn⟩) (fh4 ⟨n + 1, hn⟩) accM (Memref.isWhole_whole _) acbM (Memref.isWhole_whole _) (fun h => h0 ((hcond0 ⟨n + 1, hn⟩).mp h)) ((hcond1 ⟨n + 1, hn⟩).mpr h1) (fblk V c 0 ⟨n + 1, hn⟩) (fblk V c 1 ⟨n + 1, hn⟩) (fblk V c 2 ⟨n + 1, hn⟩) (outsAt c n (Nat.lt_of_succ_lt hn)).2.2.1 (outsAt c n (Nat.lt_of_succ_lt hn)).2.2.2)
      else
        (idleW, idleB,
         accWB c (grid0.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) (fm4 ⟨n + 1, hn⟩) (fh4 ⟨n + 1, hn⟩) accM (Memref.isWhole_whole _) acbM (Memref.isWhole_whole _) (fun h => h0 ((hcond0 ⟨n + 1, hn⟩).mp h)) (fun h => h1 ((hcond1 ⟨n + 1, hn⟩).mp h)) (fblk V c 0 ⟨n + 1, hn⟩) (fblk V c 1 ⟨n + 1, hn⟩) (fblk V c 2 ⟨n + 1, hn⟩) (outsAt c n (Nat.lt_of_succ_lt hn)).2.2.1 (outsAt c n (Nat.lt_of_succ_lt hn)).2.2.2,
         accBB c (grid0.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) (fm4 ⟨n + 1, hn⟩) (fh4 ⟨n + 1, hn⟩) accM (Memref.isWhole_whole _) acbM (Memref.isWhole_whole _) (fun h => h0 ((hcond0 ⟨n + 1, hn⟩).mp h)) (fun h => h1 ((hcond1 ⟨n + 1, hn⟩).mp h)) (fblk V c 0 ⟨n + 1, hn⟩) (fblk V c 1 ⟨n + 1, hn⟩) (fblk V c 2 ⟨n + 1, hn⟩) (outsAt c n (Nat.lt_of_succ_lt hn)).2.2.1 (outsAt c n (Nat.lt_of_succ_lt hn)).2.2.2)

/-- The previous point, for a point that is not the first. -/
abbrev prevLt (t : Fin cfg0.N) : t.val - 1 < cfg0.N := Nat.lt_of_le_of_lt (Nat.sub_le _ _) t.isLt

theorem outsAt_A (c : Dev nD) (t : Fin cfg0.N) (h0 : t.val % 4 = 0) (h1 : ¬t.val % 4 = 3) :
    outsAt V c t.val t.isLt = (idleW, idleB,
      accWA c (grid0.coords t) (fm0 t) (fh0 t) (fm1 t) (fh1 t) (fm2 t) (fh2 t) (fm3 t) (fh3 t) (fm4 t) (fh4 t) accM (Memref.isWhole_whole _) acbM (Memref.isWhole_whole _) ((hcond0 t).mpr h0) (fun h => h1 ((hcond1 t).mp h)) (fblk V c 0 t) (fblk V c 1 t) (fblk V c 2 t),
      accBA c (grid0.coords t) (fm0 t) (fh0 t) (fm1 t) (fh1 t) (fm2 t) (fh2 t) (fm3 t) (fh3 t) (fm4 t) (fh4 t) accM (Memref.isWhole_whole _) acbM (Memref.isWhole_whole _) ((hcond0 t).mpr h0) (fun h => h1 ((hcond1 t).mp h)) (fblk V c 0 t) (fblk V c 1 t) (fblk V c 2 t)) := by
  obtain ⟨n, hn⟩ := t
  cases n with
  | zero => exact rfl
  | succ n => exact (by exfalso; have hN : n + 1 < 4 := lt_of_lt_of_eq hn (show cfg0.N = 4 from N_0); (try dsimp only at h0); omega)

theorem outsAt_B (c : Dev nD) (t : Fin cfg0.N) (h0 : ¬t.val % 4 = 0) (h1 : ¬t.val % 4 = 3) :
    outsAt V c t.val t.isLt = (idleW, idleB,
      accWB c (grid0.coords t) (fm0 t) (fh0 t) (fm1 t) (fh1 t) (fm2 t) (fh2 t) (fm3 t) (fh3 t) (fm4 t) (fh4 t) accM (Memref.isWhole_whole _) acbM (Memref.isWhole_whole _) (fun h => h0 ((hcond0 t).mp h)) (fun h => h1 ((hcond1 t).mp h)) (fblk V c 0 t) (fblk V c 1 t) (fblk V c 2 t) (outsAt V c (t.val - 1) (prevLt t)).2.2.1 (outsAt V c (t.val - 1) (prevLt t)).2.2.2,
      accBB c (grid0.coords t) (fm0 t) (fh0 t) (fm1 t) (fh1 t) (fm2 t) (fh2 t) (fm3 t) (fh3 t) (fm4 t) (fh4 t) accM (Memref.isWhole_whole _) acbM (Memref.isWhole_whole _) (fun h => h0 ((hcond0 t).mp h)) (fun h => h1 ((hcond1 t).mp h)) (fblk V c 0 t) (fblk V c 1 t) (fblk V c 2 t) (outsAt V c (t.val - 1) (prevLt t)).2.2.1 (outsAt V c (t.val - 1) (prevLt t)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 4 = 0) (h1 : t.val % 4 = 3) :
    outsAt V c t.val t.isLt = (
      outWC c (grid0.coords t) (fm0 t) (fh0 t) (fm1 t) (fh1 t) (fm2 t) (fh2 t) (fm3 t) (fh3 t) (fm4 t) (fh4 t) accM (Memref.isWhole_whole _) acbM (Memref.isWhole_whole _) (fun h => h0 ((hcond0 t).mp h)) ((hcond1 t).mpr h1) (fblk V c 0 t) (fblk V c 1 t) (fblk V c 2 t) (outsAt V c (t.val - 1) (prevLt t)).2.2.1 (outsAt V c (t.val - 1) (prevLt t)).2.2.2,
      outBC c (grid0.coords t) (fm0 t) (fh0 t) (fm1 t) (fh1 t) (fm2 t) (fh2 t) (fm3 t) (fh3 t) (fm4 t) (fh4 t) accM (Memref.isWhole_whole _) acbM (Memref.isWhole_whole _) (fun h => h0 ((hcond0 t).mp h)) ((hcond1 t).mpr h1) (fblk V c 0 t) (fblk V c 1 t) (fblk V c 2 t) (outsAt V c (t.val - 1) (prevLt t)).2.2.1 (outsAt V c (t.val - 1) (prevLt t)).2.2.2,
      accWC c (grid0.coords t) (fm0 t) (fh0 t) (fm1 t) (fh1 t) (fm2 t) (fh2 t) (fm3 t) (fh3 t) (fm4 t) (fh4 t) accM (Memref.isWhole_whole _) acbM (Memref.isWhole_whole _) (fun h => h0 ((hcond0 t).mp h)) ((hcond1 t).mpr h1) (fblk V c 0 t) (fblk V c 1 t) (fblk V c 2 t) (outsAt V c (t.val - 1) (prevLt t)).2.2.1 (outsAt V c (t.val - 1) (prevLt t)).2.2.2,
      accBC c (grid0.coords t) (fm0 t) (fh0 t) (fm1 t) (fh1 t) (fm2 t) (fh2 t) (fm3 t) (fh3 t) (fm4 t) (fh4 t) accM (Memref.isWhole_whole _) acbM (Memref.isWhole_whole _) (fun h => h0 ((hcond0 t).mp h)) ((hcond1 t).mpr h1) (fblk V c 0 t) (fblk V c 1 t) (fblk V c 2 t) (outsAt V c (t.val - 1) (prevLt t)).2.2.1 (outsAt V c (t.val - 1) (prevLt t)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulators carried from point to point -/

def PhiS (c : Dev nD) : (n : ℕ) → n ≤ cfg0.N → sProp 𝕄
  | 0, _ => Pipeline.ΦA spec0 c
  | n + 1, hn => iprop(iprop(owns (c : Thread nD τ) accM fullShare ((outsAt V c n hn).2.2.1) ∗ owns (c : Thread nD τ) acbM fullShare ((outsAt V c n hn).2.2.2) ∗ otherStaging c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare ((outsAt V c n hn).2.2.1) ∗ owns (c : Thread nD τ) acbM fullShare ((outsAt V c n hn).2.2.2) ∗ otherStaging c) ∗ (∃ r, prngReg c r)) := rfl

theorem PhiS_pos (c : Dev nD) (n : ℕ) (h : n ≤ cfg0.N) (hz : n ≠ 0) :
    PhiS V c n h = iprop(iprop(owns (c : Thread nD τ) accM fullShare ((outsAt V c (n - 1) (by omega)).2.2.1) ∗ owns (c : Thread nD τ) acbM fullShare ((outsAt V c (n - 1) (by omega)).2.2.2) ∗ otherStaging c) ∗ (∃ r, prngReg c r)) := by
  cases n with
  | zero => exact absurd rfl hz
  | succ n => rfl

/-! ## The proof data -/

def datF (c : Dev nD) : Dat τ (Elt F) Unit ℕ (UR sig nD τ) ℕ cfg0 c where
  A w := V c (Pipeline.arrRef spec0 w)
  after w t := match w with
    | ⟨0, _⟩ => fblk V c 0 t
    | ⟨1, _⟩ => fblk V c 1 t
    | ⟨2, _⟩ => fblk V c 2 t
    | ⟨3, _⟩ => (outsAt V c t.val t.isLt).1
    | ⟨4, _⟩ => (outsAt V c t.val t.isLt).2.1
  Φ t := PhiS V c t.val (Nat.le_of_lt_succ t.isLt)
  q _ := fullShare
  owed _ := 0

theorem A_eqF (c : Dev nD) (w : Fin cfg0.W) : (datF V c).A w = V c (Pipeline.arrRef spec0 w) := by
  dsimp only [datF]

theorem PhiS_castSucc (c : Dev nD) (t : Fin cfg0.N) :
    (datF V c).Φ t.castSucc = PhiS V c t.val (Nat.le_of_lt t.isLt) := by
  dsimp only [datF]; simp only [Fin.coe_castSucc]

theorem afterF0 (c : Dev nD) (t : Fin cfg0.N) : (datF V c).after 0 t = fblk V c 0 t := by dsimp only [datF]
theorem afterF1 (c : Dev nD) (t : Fin cfg0.N) : (datF V c).after 1 t = fblk V c 1 t := by dsimp only [datF]
theorem afterF2 (c : Dev nD) (t : Fin cfg0.N) : (datF V c).after 2 t = fblk V c 2 t := by dsimp only [datF]
theorem afterF3 (c : Dev nD) (t : Fin cfg0.N) : (datF V c).after 3 t = (outsAt V c t.val t.isLt).1 := by dsimp only [datF]
theorem afterF4 (c : Dev nD) (t : Fin cfg0.N) : (datF V c).after 4 t = (outsAt V c t.val t.isLt).2.1 := by dsimp only [datF]

theorem beforeF0 (c : Dev nD) (t : Fin cfg0.N) (d) : (datF V c).before 0 t d = fblk V c 0 t :=
  fbefore0_of V (datF V c) (A_eqF V c 0) (afterF0 V c) t d
theorem beforeF1 (c : Dev nD) (t : Fin cfg0.N) (d) : (datF V c).before 1 t d = fblk V c 1 t :=
  fbefore1_of V (datF V c) (A_eqF V c 1) (afterF1 V c) t d
theorem beforeF2 (c : Dev nD) (t : Fin cfg0.N) (d) : (datF V c).before 2 t d = fblk V c 2 t :=
  fbefore2_of V (datF V c) (A_eqF V c 2) (afterF2 V c) t d

/-! ## The body obligation -/

def fbodyPre (c : Dev nD) (t : Fin cfg0.N) : sProp 𝕄 :=
  iprop((datF V c).Φ t.castSucc ∗ (datF V c).owesAt () t.castSucc
    ∗ (∃ d, owns (c : Thread nD τ) (fm0 t) fullShare ((datF V c).before 0 t d))
    ∗ (∃ d, owns (c : Thread nD τ) (fm1 t) fullShare ((datF V c).before 1 t d))
    ∗ (∃ d, owns (c : Thread nD τ) (fm2 t) fullShare ((datF V c).before 2 t d))
    ∗ (∃ d, owns (c : Thread nD τ) (fm3 t) fullShare ((datF V c).before 3 t d))
    ∗ (∃ d, owns (c : Thread nD τ) (fm4 t) fullShare ((datF V c).before 4 t d)))

def fbodyPost (c : Dev nD) (t : Fin cfg0.N) : sProp 𝕄 :=
  iprop((datF V c).Φ t.succ ∗ (datF V c).owesAt () t.succ
    ∗ (datF V c).leavesExact 0 t
    ∗ (datF V c).leavesExact 1 t
    ∗ (datF V c).leavesExact 2 t
    ∗ (datF V c).leavesExact 3 t
    ∗ (datF V c).leavesExact 4 t)

theorem leaves_in0 (c : Dev nD) (t : Fin cfg0.N) : (datF V c).leavesExact 0 t = owns (c : Thread nD τ) (fm0 t) fullShare (fblk V c 0 t) := by
  unfold Dat.leavesExact; rw [liveAt0 t, afterF0]
theorem leaves_in1 (c : Dev nD) (t : Fin cfg0.N) : (datF V c).leavesExact 1 t = owns (c : Thread nD τ) (fm1 t) fullShare (fblk V c 1 t) := by
  unfold Dat.leavesExact; rw [liveAt1 t, afterF1]
theorem leaves_in2 (c : Dev nD) (t : Fin cfg0.N) : (datF V c).leavesExact 2 t = owns (c : Thread nD τ) (fm2 t) fullShare (fblk V c 2 t) := by
  unfold Dat.leavesExact; rw [liveAt2 t, afterF2]

set_option maxHeartbeats 8000000 in
theorem sound_fbody (c : Dev nD) (t : Fin cfg0.N) :
    fbodyPre V c t ⊢ wp frame (wpE (defs₀ (F := F)) Variants.none c none) Set.univ (bodyAt0 t) (fun _ => fbodyPost V c t) := by
  unfold fbodyPre fbodyPost bodyAt0
  simp only [beforeF0, beforeF1, beforeF2]
  rw [show (datF V c).owesAt () t.succ = (datF V c).owesAt () t.castSucc from rfl]
  rw [show (datF V c).Φ t.succ = PhiS V c (t.val + 1) t.isLt from rfl, PhiS_succ]
  rw [leaves_in0, leaves_in1, leaves_in2]
  have hN : t.val < 4 := lt_of_lt_of_eq t.isLt (show cfg0.N = 4 from N_0)
  by_cases h0 : t.val % 4 = 0
  · have h1 : ¬t.val % 4 = 3 := by omega
    have hz : t.val = 0 := by omega
    rw [Dat.leavesExact_idle (datF V c) 3 t (idleAt3 t (fun h => h1 ((hcond1 t).mp h))) (noFlush3 t (fun h => h1 ((hcond1 t).mp h)))]
    rw [Dat.leavesExact_idle (datF V c) 4 t (idleAt4 t (fun h => h1 ((hcond1 t).mp h))) (noFlush4 t (fun h => h1 ((hcond1 t).mp h)))]
    rw [outsAt_A V c t h0 h1]
    unfold accWA accBA; (try dsimp only)
    rw [PhiS_castSucc V c t, PhiS_zero V c _ _ hz, PhiA_eq]
    iintro ⟨⟨⟨HS0, HS1, Hrest⟩, Hg⟩, Ho, ⟨%d0, H0⟩, ⟨%d1, H1⟩, ⟨%d2, H2⟩, ⟨%d3, H3⟩, ⟨%d4, H4⟩⟩
    iapply ((foldRunA c (grid0.coords t) _ _ _ _ _ _ _ _ _ _ _ _ _ _ ((hcond0 t).mpr h0) (fun h => h1 ((hcond1 t).mp h)) (fblk V c 0 t) (fblk V c 1 t) (fblk V c 2 t)).2.2 _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 Hrest Hg]
    · isplitl [HS0 HS1 Hrest]
      · isplitl [HS0]
        · unfold owns; iexists _; isplitr
          swap; · iexact HS0
          ipureintro; exact View.read_writes_of_cover _ _ _ _ _ (coverWA c _ _ _ _ _ _ _ _ _ _ _ _ _ _ _ _ _ _ _ _)
        isplitl [HS1]
        · unfold owns; iexists _; isplitr
          swap; · iexact HS1
          ipureintro; exact View.read_writes_of_cover _ _ _ _ _ (coverBA c _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := by omega
    by_cases h1 : t.val % 4 = 3
    · rw [show (datF V c).leavesExact 3 t = owns (c : Thread nD τ) (fm3 t) fullShare ((datF V c).after 3 t) from by
        unfold Dat.leavesExact; rw [liveAt3 t ((hcond1 t).mpr h1)], afterF3]
      rw [show (datF V c).leavesExact 4 t = owns (c : Thread nD τ) (fm4 t) fullShare ((datF V c).after 4 t) from by
        unfold Dat.leavesExact; rw [liveAt4 t ((hcond1 t).mpr h1)], afterF4]
      rw [outsAt_C V c t h0 h1]
      unfold outWC outBC accWC accBC; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩⟩
      iapply ((foldRunC c (grid0.coords t) _ _ _ _ _ _ _ _ _ _ _ _ _ _ (fun h => h0 ((hcond0 t).mp h)) ((hcond1 t).mpr h1) (fblk V c 0 t) (fblk V c 1 t) (fblk V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (coverWC c _ _ _ _ _ _ _ _ _ _ _ _ _ _ _ _ _ _ _ _ _ _)
          isplitl [HS1]
          · unfold owns; iexists _; isplitr
            swap; · iexact HS1
            ipureintro; exact View.read_writes_of_cover _ _ _ _ _ (coverBC c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverOutW c _ _ _ _ _ _ _ _ _ _ _ _ _ _ _ _ _ _ _ _ _ _)
      unfold owns; iexists _; isplitr
      swap; · iexact H4
      ipureintro; exact View.read_writes_of_cover _ _ _ _ _ (coverOutB c _ _ _ _ _ _ _ _ _ _ _ _ _ _ _ _ _ _ _ _ _ _)
    · rw [Dat.leavesExact_idle (datF V c) 3 t (idleAt3 t (fun h => h1 ((hcond1 t).mp h))) (noFlush3 t (fun h => h1 ((hcond1 t).mp h)))]
      rw [Dat.leavesExact_idle (datF V c) 4 t (idleAt4 t (fun h => h1 ((hcond1 t).mp h))) (noFlush4 t (fun h => h1 ((hcond1 t).mp h)))]
      rw [outsAt_B V c t h0 h1]
      unfold accWB accBB; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩⟩
      iapply ((foldRunB c (grid0.coords t) _ _ _ _ _ _ _ _ _ _ _ _ _ _ (fun h => h0 ((hcond0 t).mp h)) (fun h => h1 ((hcond1 t).mp h)) (fblk V c 0 t) (fblk V c 1 t) (fblk V c 2 t) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (coverWB c _ _ _ _ _ _ _ _ _ _ _ _ _ _ _ _ _ _ _ _ _ _)
          isplitl [HS1]
          · unfold owns; iexists _; isplitr
            swap; · iexact HS1
            ipureintro; exact View.read_writes_of_cover _ _ _ _ _ (coverBB c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexists _; iexact H3
      iexists _; iexact H4

theorem fbody_obligation (c : Dev nD) : BodyObligation (datF (F := F) V c) (defs₀ (F := F)) Variants.none () Set.univ := fun t => by
  rw [bigSep_W0, bigSep_W0]
  exact sound_fbody V c t

/-- What the launch hands the region is the invariant before the first point. -/
theorem fhin (c : Dev nD) : Pipeline.ΦA spec0 c ⊢ (datF V c).Φ 0 := by
  rw [show (datF V c).Φ 0 = PhiS V c 0 (Nat.zero_le _) from rfl, PhiS_zero V c 0 _ rfl]
  try exact Idealize.SL.BI.Entails.refl _

/-- After the last point the invariant gives the class's back: the accumulators' contents are forgotten. -/
theorem fhout (c : Dev nD) : (datF V c).Φ (Fin.last cfg0.N) ⊢ Pipeline.ΦA spec0 c := by
  rw [show (datF V c).Φ (Fin.last cfg0.N) = PhiS V c (Fin.last cfg0.N).val (Nat.le_of_lt_succ (Fin.last cfg0.N).isLt) from rfl,
    PhiS_pos V c _ _ (by rw [Fin.val_last]; have : cfg0.N = 4 := N_0; omega), PhiA_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

end Cert.Kernel.Run

end
-- ==== Proof.BitsApplyRegion.lean ====
/-
  The second kernel region: one block of 2048 rows of the concatenated input per grid point, times W transposed, plus
  the bias row broadcast down the block. Each point stores its whole output block; nothing is kept between points.
  Stated at the contents V the region finds in the buffers.
-/
import proofs.«419977_j22127671509386_3_alg».proof.Proof.Gen.Kernel.Launch
import proofs.«419977_j22127671509386_3_alg».proof.Proof.Gen.Kernel.Skeleton
import proofs.«419977_j22127671509386_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def ablk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem abefore0_of {c : Dev nD} (dat : Dat τ (Elt F) Unit ℕ (UR sig nD τ) ℕ cfg1 c) (hA : dat.A 0 = V c (Pipeline.arrRef spec1 0))
    (hafter : ∀ t, dat.after 0 t = ablk V c 0 t) (t : Fin cfg1.N) (d) : dat.before 0 t d = ablk V c 0 t :=
  (dat.before_in_eq_fetched 0 rfl (fun _ => rfl) (fun _ _ _ => rfl) (fun t => by rw [hafter]; unfold Dat.blockOf ablk; rw [hA]; try rfl) t d).trans
    (by unfold Dat.fetched Dat.blockOf ablk; rw [hA]; try rfl)
theorem abefore1_of {c : Dev nD} (dat : Dat τ (Elt F) Unit ℕ (UR sig nD τ) ℕ cfg1 c) (hA : dat.A 1 = V c (Pipeline.arrRef spec1 1))
    (hafter : ∀ t, dat.after 1 t = ablk V c 1 t) (t : Fin cfg1.N) (d) : dat.before 1 t d = ablk V c 1 t :=
  (dat.before_in_eq_fetched 1 rfl (fun _ => rfl) (fun _ _ _ => rfl) (fun t => by rw [hafter]; unfold Dat.blockOf ablk; rw [hA]; try rfl) t d).trans
    (by unfold Dat.fetched Dat.blockOf ablk; rw [hA]; try rfl)
theorem abefore2_of {c : Dev nD} (dat : Dat τ (Elt F) Unit ℕ (UR sig nD τ) ℕ cfg1 c) (hA : dat.A 2 = V c (Pipeline.arrRef spec1 2))
    (hafter : ∀ t, dat.after 2 t = ablk V c 2 t) (t : Fin cfg1.N) (d) : dat.before 2 t d = ablk V c 2 t :=
  (dat.before_in_eq_fetched 2 rfl (fun _ => rfl) (fun _ _ _ => rfl) (fun t => by rw [hafter]; unfold Dat.blockOf ablk; rw [hA]; try rfl) t d).trans
    (by unfold Dat.fetched Dat.blockOf ablk; rw [hA]; try rfl)

abbrev rIn0 : Rect S2048x320 := Rect.unit (s := S2048x320) ![0, 0] S2048x320.size inb_S2048x320_S2048x320_0_0
abbrev rIn1 : Rect S256x320 := Rect.unit (s := S256x320) ![0, 0] S256x320.size inb_S256x320_S256x320_0_0
abbrev rIn2 : Rect S1x256 := Rect.unit (s := S1x256) ![0, 0] S1x256.size inb_S1x256_S1x256_0_0
abbrev rOut : Rect S2048x256 := Rect.unit (s := S2048x256) ![0, 0] S2048x256.size inb_S2048x256_S2048x256_0_0

/-- The output block after the body: its one store, of the product plus the broadcast bias. -/
def aout (x0 : Vec F S2048x320 .bf16) (x1 : Vec F S256x320 .bf16) (x2 : Vec F S1x256 .f32) : Vec F S2048x256 .f32 :=
  View.canon [⟨rOut, k1_pay1 (View.ld x0 rIn0) (View.ld x1 rIn1) (View.ld x2 rIn2)⟩]

theorem acover (p0 : Vec F S2048x256 .f32) (y : S2048x256.Idx) :
    ∃ pc ∈ ([⟨rOut, p0⟩] : List (View.Piece (Elt F) S2048x256 .f32)), y ∈ pc.1.set :=
  View.cover_of_tiled [⟨rOut, p0⟩] S2048x256.size (by rfl) y

set_option maxHeartbeats 4000000 in
/-- The body on whole staging memrefs: the inputs stay, the output ends at the stored block. -/
theorem sound_apply (c : Dev nD) (E : Set ℕ) (i : grid1.Coords) (arg1 : Memref sig .tc .vmem S2048x320 .bf16) (harg1 : arg1.IsWhole) (arg2 : Memref sig .tc .vmem S256x320 .bf16) (harg2 : arg2.IsWhole) (arg3 : Memref sig .tc .vmem S1x256 .f32) (harg3 : arg3.IsWhole) (arg4 : Memref sig .tc .vmem S2048x256 .f32) (harg4 : arg4.IsWhole)
    (x0 : Vec F S2048x320 .bf16) (x1 : Vec F S256x320 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (aout x0 x1 x2)) -∗ K ⟨⟩))
      ⊢ wp frame (wpE (defs₀ (F := F)) Variants.none c none) E (cc1__apply_kernel i arg1 harg1 arg2 harg2 arg3 harg3 arg4 harg4) K := by
  simp only [cc1__apply_kernel_eq_skeleton]; unfold cc1__apply_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (acover _)

/-- The region's proof data on core c. -/
def datA (c : Dev nD) : Dat τ (Elt F) Unit ℕ (UR sig nD τ) ℕ cfg1 c where
  A w := V c (Pipeline.arrRef spec1 w)
  after w t := match w with
    | ⟨0, _⟩ => ablk V c 0 t
    | ⟨1, _⟩ => ablk V c 1 t
    | ⟨2, _⟩ => ablk V c 2 t
    | ⟨3, _⟩ => aout (ablk V c 0 t) (ablk V c 1 t) (ablk V c 2 t)
  Φ _ := Pipeline.ΦA spec1 c
  q _ := fullShare
  owed _ := 0

theorem A_eqA (c : Dev nD) (w : Fin cfg1.W) : (datA V c).A w = V c (Pipeline.arrRef spec1 w) := by
  dsimp only [datA]

theorem afterA0 (c : Dev nD) (t : Fin cfg1.N) : (datA V c).after 0 t = ablk V c 0 t := by dsimp only [datA]
theorem afterA1 (c : Dev nD) (t : Fin cfg1.N) : (datA V c).after 1 t = ablk V c 1 t := by dsimp only [datA]
theorem afterA2 (c : Dev nD) (t : Fin cfg1.N) : (datA V c).after 2 t = ablk V c 2 t := by dsimp only [datA]
theorem afterA3 (c : Dev nD) (t : Fin cfg1.N) : (datA V c).after 3 t = aout (ablk V c 0 t) (ablk V c 1 t) (ablk V c 2 t) := by dsimp only [datA]

theorem beforeA0 (c : Dev nD) (t : Fin cfg1.N) (d) : (datA V c).before 0 t d = ablk V c 0 t :=
  abefore0_of V (datA V c) (A_eqA V c 0) (afterA0 V c) t d
theorem beforeA1 (c : Dev nD) (t : Fin cfg1.N) (d) : (datA V c).before 1 t d = ablk V c 1 t :=
  abefore1_of V (datA V c) (A_eqA V c 1) (afterA1 V c) t d
theorem beforeA2 (c : Dev nD) (t : Fin cfg1.N) (d) : (datA V c).before 2 t d = ablk V c 2 t :=
  abefore2_of V (datA V c) (A_eqA V c 2) (afterA2 V c) t d

def abodyPre (c : Dev nD) (t : Fin cfg1.N) : sProp 𝕄 :=
  iprop((datA V c).Φ t.castSucc ∗ (datA V c).owesAt () t.castSucc
    ∗ (∃ d, owns (c : Thread nD τ) (st1_0 t) fullShare ((datA V c).before 0 t d))
    ∗ (∃ d, owns (c : Thread nD τ) (st1_1 t) fullShare ((datA V c).before 1 t d))
    ∗ (∃ d, owns (c : Thread nD τ) (st1_2 t) fullShare ((datA V c).before 2 t d))
    ∗ (∃ d, owns (c : Thread nD τ) (st1_3 t) fullShare ((datA V c).before 3 t d)))

def abodyPost (c : Dev nD) (t : Fin cfg1.N) : sProp 𝕄 :=
  iprop((datA V c).Φ t.succ ∗ (datA V c).owesAt () t.succ
    ∗ owns (c : Thread nD τ) (st1_0 t) fullShare ((datA V c).after 0 t)
    ∗ owns (c : Thread nD τ) (st1_1 t) fullShare ((datA V c).after 1 t)
    ∗ owns (c : Thread nD τ) (st1_2 t) fullShare ((datA V c).after 2 t)
    ∗ owns (c : Thread nD τ) (st1_3 t) fullShare ((datA V c).after 3 t))

theorem sound_abody (c : Dev nD) (t : Fin cfg1.N) :
    abodyPre V c t ⊢ wp frame (wpE (defs₀ (F := F)) Variants.none c none) Set.univ (bodyAt1 t) (fun _ => abodyPost V c t) := by
  unfold abodyPre abodyPost bodyAt1
  simp only [beforeA0, beforeA1, beforeA2]
  rw [show (datA V c).Φ t.succ = (datA V c).Φ t.castSucc from rfl,
    show (datA V c).owesAt () t.succ = (datA V c).owesAt () t.castSucc from rfl,
    afterA0, afterA1, afterA2, afterA3]
  iintro ⟨HΦ, Ho, ⟨%d0, H0⟩, ⟨%d1, H1⟩, ⟨%d2, H2⟩, ⟨%d3, H3⟩⟩
  iapply (sound_apply c Set.univ _ _ _ _ _ _ _ _ _ (ablk V c 0 t) (ablk V c 1 t) (ablk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem abody_obligation (c : Dev nD) : BodyObligation (datA (F := F) V c) (defs₀ (F := F)) Variants.none () Set.univ := fun t => by
  rw [bigSep_W1, bigSep_W1]
  exact sound_abody V c t

end Cert.Kernel.Run

end
-- ==== Proof.BitsWholeRun.lean ====
/-
  The whole program as four items run in order — the first sixty host operations, the remaining five, the
  weight-fold region, the final-product region —: the buffers' contents at each boundary, each argument array read
  back through them to its launch contents, every region's proof data at its entry contents, and the run: every
  weakly fair execution terminates and ends with every unscoped buffer at the last boundary's contents.
-/
import proofs.«419977_j22127671509386_3_alg».proof.Proof.BitsBoundary
import proofs.«419977_j22127671509386_3_alg».proof.Proof.BitsFoldRegion
import proofs.«419977_j22127671509386_3_alg».proof.Proof.BitsApplyRegion

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the regions' boundaries -/

/-- What the weight-fold region finds, read at the TensorCore's references. -/
abbrev V2 : (c : Dev nD) → (b : Ref sig .tc) → Buf (Elt F) ((c : Thread nD τ).loc b) := fun c b => W2 m c b
/-- At that region's exit: its arrays at what its write-backs leave, every other buffer as entered. -/
def W3 (c : Dev nD) : Valuation τ sig (Elt F) :=
  Pipeline.withArrays spec0 c (W2 m c) fun w => (datF (V2 m) c).arrAt w cfg0.N
theorem W3_arr (c : Dev nD) (w : Fin cfg0.W) :
    W3 m c (Proc.devRef .tc (Pipeline.arrRef spec0 w)) = (datF (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev V3 : (c : Dev nD) → (b : Ref sig .tc) → Buf (Elt F) ((c : Thread nD τ).loc b) := fun c b => W3 m c b
theorem hF0 (c : Dev nD) (w : Fin cfg0.W) : (datF (V2 m) c).arrAt w cfg0.N = V3 m c (Pipeline.arrRef spec0 w) :=
  (W3_arr m c w).symm
theorem hrest0 (c : Dev nD) : ∀ b, b ∉ Finset.univ.image (Pipeline.arrRef spec0) → V3 m c b = V2 m c b :=
  fun b hb => W3_of_ne m c b fun w e => hb (Finset.mem_image.mpr ⟨w, Finset.mem_univ _, e⟩)

/-- At the final-product region's exit. -/
def W4 (c : Dev nD) : Valuation τ sig (Elt F) :=
  Pipeline.withArrays spec1 c (W3 m c) fun w => (datA (V3 m) c).arrAt w cfg1.N
theorem W4_arr (c : Dev nD) (w : Fin cfg1.W) :
    W4 m c (Proc.devRef .tc (Pipeline.arrRef spec1 w)) = (datA (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (datA (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## No item writes an argument -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := StableHlo.after_of_forall_not_mem (b := Proc.devRef .tc main_arg0) _ _ (List.forall_iff_forall_mem.mp (by
          simp only [main_part1_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := StableHlo.after_of_forall_not_mem (b := Proc.devRef .tc main_arg0) _ _ (List.forall_iff_forall_mem.mp (by
          simp only [main_part0_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := StableHlo.after_of_forall_not_mem (b := Proc.devRef .tc main_arg1) _ _ (List.forall_iff_forall_mem.mp (by
          simp only [main_part1_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := StableHlo.after_of_forall_not_mem (b := Proc.devRef .tc main_arg1) _ _ (List.forall_iff_forall_mem.mp (by
          simp only [main_part0_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := StableHlo.after_of_forall_not_mem (b := Proc.devRef .tc main_arg2) _ _ (List.forall_iff_forall_mem.mp (by
          simp only [main_part1_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg2) := StableHlo.after_of_forall_not_mem (b := Proc.devRef .tc main_arg2) _ _ (List.forall_iff_forall_mem.mp (by
          simp only [main_part0_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := StableHlo.after_of_forall_not_mem (b := Proc.devRef .tc main_arg3) _ _ (List.forall_iff_forall_mem.mp (by
          simp only [main_part1_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg3) := StableHlo.after_of_forall_not_mem (b := Proc.devRef .tc main_arg3) _ _ (List.forall_iff_forall_mem.mp (by
          simp only [main_part0_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := StableHlo.after_of_forall_not_mem (b := Proc.devRef .tc main_arg4) _ _ (List.forall_iff_forall_mem.mp (by
          simp only [main_part1_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg4) := StableHlo.after_of_forall_not_mem (b := Proc.devRef .tc main_arg4) _ _ (List.forall_iff_forall_mem.mp (by
          simp only [main_part0_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of_ne m c main_arg5 (by decide)
    _ = W1 m c (Proc.devRef .tc main_arg5) := StableHlo.after_of_forall_not_mem (b := Proc.devRef .tc main_arg5) _ _ (List.forall_iff_forall_mem.mp (by
          simp only [main_part1_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg5) := StableHlo.after_of_forall_not_mem (b := Proc.devRef .tc main_arg5) _ _ (List.forall_iff_forall_mem.mp (by
          simp only [main_part0_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => datF (V2 m) c
  | ⟨1, _⟩ => fun c => datA (V3 m) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem part0_fresh : (main_part0_ops0 : List (HloOp τ sig (Elt F))).Forall fun op => op.fresh = ∅ := by
  simp only [List.Forall]; repeat' constructor
theorem part1_fresh : (main_part1_ops0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (fbody_obligation (V2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from fhout (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V2 m c) (V3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (abody_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the run -/

abbrev segs : List (Pipeline.Seg (pcfgs (F := F)) adm (pdats m) () defs₀ 𝒱₀ L lv) :=
  [ .host (hseg main_part0_ops0 main_part0_ops0_sub part0_fresh (W0 m)),
    .host (hseg main_part1_ops0 main_part1_ops0_sub part1_fresh (W1 m)),
    .region (reg0 m),
    .region (reg1 m) ]

theorem main_run (c : Dev nD) : main (F := F) c = Pipeline.Seg.run (segs m) := (main_chain_windows c).trans (by chain_rfl)

set_option backward.isDefEq.respectTransparency.types false in
/-- From any memory with zero counters every weakly fair execution terminates, nothing faulting, and every final
    memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run_all m ρ)

/-- The run with the result named: the last region's output array at what its write-backs leave. -/
theorem run_result : θ_run defs (onTc (τ := τ) (main (F := F))) ⟨m, fun _ => 0, ρ⟩ (fun r => ∀ c : Dev nD,
      r.2.mem ((c.tc : Thread nD τ).loc main_v63) = (datA (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v63 (by decide))).trans (W4_arr m c 3),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run_all m ρ)

end Cert.Kernel.Run

end
-- ==== Proof.Boundary.lean ====
/-
  The unscoped buffers' contents at the boundaries between @main's items: at launch, after the first sixty host
  operations, and after the remaining five (where the first kernel region is entered).
-/
import proofs.«419977_j22127671509386_3_alg».proof.Proof.Gen.KernelIdeal.Launch
import Idealize.ShloMosaic.Lib.StableHlo.Run

noncomputable section

namespace Cert.KernelIdeal.Run

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- Core c's buffers at launch. -/
abbrev W0 (c : Dev nD) : Valuation τ sig (Elt F) := fun b => m (c, b)
/-- After the first sixty host operations. -/
abbrev W1 (c : Dev nD) : Valuation τ sig (Elt F) := StableHlo.after main_part0_ops0 (W0 m c)
/-- After all sixty-five: what the first region is entered from. -/
abbrev W2 (c : Dev nD) : Valuation τ sig (Elt F) := StableHlo.after main_part1_ops0 (W1 m c)

end Cert.KernelIdeal.Run

end
-- ==== Proof.FoldRuns.lean ====
/-
  The weight-fold kernel's body, case by case. The grid has four points, one per tile of 2048 state indices. At the
  first point the two accumulators (C·Beff, 256 × 320, and rec·Cᵀ, 1 × 256) are reset and the first tile's products
  added; at the two middle points a tile's products are added; at the last point they are added and the
  accumulators copied out (the first through a change of float format). Each case runs the printed body once; the
  pieces its stores leave in each buffer are what the run finds.
-/
import proofs.«419977_j22127671509386_3_alg».proof.Proof.Gen.KernelIdeal.Launch
import proofs.«419977_j22127671509386_3_alg».proof.Proof.Gen.KernelIdeal.Skeleton
import proofs.«419977_j22127671509386_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the four points -/

/-- "This is the first point": the condition of the reset. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val % 4 = 0 :=
  (by decide +kernel : ∀ t : Fin grid0.N, cond0 (grid0.coords t) ↔ t.val % 4 = 0)

/-- "This is the last point": the condition of the copy-out. -/
abbrev cond1 (i : grid0.Coords) : Prop := k0_cond2 i = 1#1
theorem hcond1 : ∀ t : Fin cfg0.N, cond1 (grid0.coords t) ↔ t.val % 4 = 3 :=
  (by decide +kernel : ∀ t : Fin grid0.N, cond1 (grid0.coords t) ↔ t.val % 4 = 3)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- Off the last point nothing is stored into the two outputs and neither is written back. -/
theorem idleAt3 : ∀ t : Fin cfg0.N, ¬cond1 (grid0.coords t) → cfg0.idle 3 (grid0.coords t) = true := by decide +kernel
theorem idleAt4 : ∀ t : Fin cfg0.N, ¬cond1 (grid0.coords t) → cfg0.idle 4 (grid0.coords t) = true := by decide +kernel
theorem noFlush3 : ∀ t : Fin cfg0.N, ¬cond1 (grid0.coords t) → (cfg0.win 3).flush t = false := by decide +kernel
theorem noFlush4 : ∀ t : Fin cfg0.N, ¬cond1 (grid0.coords t) → (cfg0.win 4).flush t = false := by decide +kernel
theorem liveAt3 : ∀ t : Fin cfg0.N, cond1 (grid0.coords t) → cfg0.idle 3 (grid0.coords t) = false := by decide +kernel
theorem liveAt4 : ∀ t : Fin cfg0.N, cond1 (grid0.coords t) → cfg0.idle 4 (grid0.coords t) = false := by decide +kernel

/-! ## The memrefs the body is called with -/

abbrev fm0 (t : Fin cfg0.N) : Memref sig .tc .vmem S2048x320 .bf16 := win0_0.stage (cfg0.slots t 0)
abbrev fh0 (t : Fin cfg0.N) : (fm0 t).IsWhole := hstage0_0 ((cfg0.slots t 0).cast nbuf0_0)
abbrev fm1 (t : Fin cfg0.N) : Memref sig .tc .vmem S256x2048 .bf16 := win0_1.stage (cfg0.slots t 1)
abbrev fh1 (t : Fin cfg0.N) : (fm1 t).IsWhole := hstage0_1 ((cfg0.slots t 1).cast nbuf0_1)
abbrev fm2 (t : Fin cfg0.N) : Memref sig .tc .vmem S1x2048 .bf16 := win0_2.stage (cfg0.slots t 2)
abbrev fh2 (t : Fin cfg0.N) : (fm2 t).IsWhole := hstage0_2 ((cfg0.slots t 2).cast nbuf0_2)
abbrev fm3 (t : Fin cfg0.N) : Memref sig .tc .vmem S256x320 .bf16 := win0_3.stage (cfg0.slots t 3)
abbrev fh3 (t : Fin cfg0.N) : (fm3 t).IsWhole := hstage0_3 ((cfg0.slots t 3).cast nbuf0_3)
abbrev fm4 (t : Fin cfg0.N) : Memref sig .tc .vmem S1x256 .f32 := win0_4.stage (cfg0.slots t 4)
abbrev fh4 (t : Fin cfg0.N) : (fm4 t).IsWhole := hstage0_4 ((cfg0.slots t 4).cast nbuf0_4)
/-- The two accumulators: whole scoped buffers of the kernel's own. -/
abbrev accM : Memref sig .tc .vmem S256x320 .f32 := Memref.whole cc0_scratch0
abbrev acbM : Memref sig .tc .vmem S1x256 .f32 := Memref.whole cc0_scratch1
abbrev VaccW : View sig .tc .vmem S256x320 .f32 := accM.view
abbrev VaccB : View sig .tc .vmem S1x256 .f32 := acbM.view
abbrev VoutW : View sig .tc .vmem S256x320 .bf16 := (Memref.whole cc0_stg3_0 : Memref sig .tc .vmem S256x320 .bf16).view
abbrev VoutB : View sig .tc .vmem S1x256 .f32 := (Memref.whole cc0_stg4_0 : Memref sig .tc .vmem S1x256 .f32).view

/-- The second region's staging buffers, which this region holds at anything. -/
def otherStaging (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the two accumulators named. -/
theorem PhiA_eq (c : Dev nD) :
    (Pipeline.ΦA spec0 c : sProp 𝕄)
      = iprop(iprop((∃ d, owns (c : Thread nD τ) accM fullShare d) ∗ (∃ d, owns (c : Thread nD τ) acbM fullShare d) ∗ otherStaging c) ∗ (∃ r, prngReg c r)) := by
  unfold Pipeline.ΦA otherStaging; rw [scopedRest0_eq]; simp only [accM, acbM, owns_whole]; try rfl

/-! ## The body's run, case by case -/

set_option maxHeartbeats 4000000 in
/-- First point: both accumulators reset, then the first tile added; the outputs untouched. -/
noncomputable def foldRunA (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : cond0 i) (hc1 : ¬cond1 i)
    (x0 : Vec F S2048x320 .bf16) (x1 : Vec F S256x2048 .bf16) (x2 : Vec F S1x2048 .bf16) :
    Σ' (LS0 : List (View.Piece (Elt F) S256x320 .f32)), { LS1 : List (View.Piece (Elt F) S1x256 .f32) //
      ∀ (xi3 : Vec F S256x320 .bf16) (xi4 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__fold_kernel i arg1 harg1 arg2 harg2 arg3 harg3 arg4 harg4 arg5 harg5 arg6 harg6 arg7 harg7) K } := by
  refine ⟨?_, ?_, fun xi3 xi4 E K => ?run⟩
  case run =>
    simp only [cc0__fold_kernel_eq_skeleton]; unfold cc0__fold_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

set_option maxHeartbeats 4000000 in
/-- A middle point: a tile added to each accumulator as the point before left it; the outputs untouched. -/
noncomputable def foldRunB (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : ¬cond1 i)
    (x0 : Vec F S2048x320 .bf16) (x1 : Vec F S256x2048 .bf16) (x2 : Vec F S1x2048 .bf16) (xs0 : Vec F S256x320 .f32) (xs1 : Vec F S1x256 .f32) :
    Σ' (LS0 : List (View.Piece (Elt F) S256x320 .f32)), { LS1 : List (View.Piece (Elt F) S1x256 .f32) //
      ∀ (xi3 : Vec F S256x320 .bf16) (xi4 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__fold_kernel i arg1 harg1 arg2 harg2 arg3 harg3 arg4 harg4 arg5 harg5 arg6 harg6 arg7 harg7) K } := by
  refine ⟨?_, ?_, fun xi3 xi4 E K => ?run⟩
  case run =>
    simp only [cc0__fold_kernel_eq_skeleton]; unfold cc0__fold_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

set_option maxHeartbeats 4000000 in
/-- Last point: the last tile added, then both accumulators copied into the outputs. -/
noncomputable def foldRunC (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : cond1 i)
    (x0 : Vec F S2048x320 .bf16) (x1 : Vec F S256x2048 .bf16) (x2 : Vec F S1x2048 .bf16) (xs0 : Vec F S256x320 .f32) (xs1 : Vec F S1x256 .f32) :
    Σ' (L3 : List (View.Piece (Elt F) S256x320 .bf16)), Σ' (L4 : List (View.Piece (Elt F) S1x256 .f32)), Σ' (LS0 : List (View.Piece (Elt F) S256x320 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__fold_kernel i arg1 harg1 arg2 harg2 arg3 harg3 arg4 harg4 arg5 harg5 arg6 harg6 arg7 harg7) K } := by
  refine ⟨?_, ?_, ?_, ?_, fun E K => ?run⟩
  case run =>
    simp only [cc0__fold_kernel_eq_skeleton]; unfold cc0__fold_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]; · iexists _; iexact HS0
    iexists _; iexact HS1

end Cert.KernelIdeal.Run

end
-- ==== Proof.FoldRegion.lean ====
/-
  The weight-fold region as a whole: what the two accumulators and the two outputs hold after each of the four
  points, by recursion on the point (the first resets and adds, the middle two add to what the point before left,
  the last adds and copies out), the invariant that carries the accumulators from point to point, the proof data,
  and the body obligation by cases on the point. Stated at the contents V the region finds in the buffers.
-/
import proofs.«419977_j22127671509386_3_alg».proof.Proof.FoldRuns

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def fblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem fbefore0_of {c : Dev nD} (dat : Dat τ (Elt F) Unit ℕ (UR sig nD τ) ℕ cfg0 c) (hA : dat.A 0 = V c (Pipeline.arrRef spec0 0))
    (hafter : ∀ t, dat.after 0 t = fblk V c 0 t) (t : Fin cfg0.N) (d) : dat.before 0 t d = fblk V c 0 t :=
  (dat.before_in_eq_fetched 0 rfl (fun _ => rfl) (fun _ _ _ => rfl) (fun t => by rw [hafter]; unfold Dat.blockOf fblk; rw [hA]; try rfl) t d).trans
    (by unfold Dat.fetched Dat.blockOf fblk; rw [hA]; try rfl)
theorem fbefore1_of {c : Dev nD} (dat : Dat τ (Elt F) Unit ℕ (UR sig nD τ) ℕ cfg0 c) (hA : dat.A 1 = V c (Pipeline.arrRef spec0 1))
    (hafter : ∀ t, dat.after 1 t = fblk V c 1 t) (t : Fin cfg0.N) (d) : dat.before 1 t d = fblk V c 1 t :=
  (dat.before_in_eq_fetched 1 rfl (fun _ => rfl) (fun _ _ _ => rfl) (fun t => by rw [hafter]; unfold Dat.blockOf fblk; rw [hA]; try rfl) t d).trans
    (by unfold Dat.fetched Dat.blockOf fblk; rw [hA]; try rfl)
theorem fbefore2_of {c : Dev nD} (dat : Dat τ (Elt F) Unit ℕ (UR sig nD τ) ℕ cfg0 c) (hA : dat.A 2 = V c (Pipeline.arrRef spec0 2))
    (hafter : ∀ t, dat.after 2 t = fblk V c 2 t) (t : Fin cfg0.N) (d) : dat.before 2 t d = fblk V c 2 t :=
  (dat.before_in_eq_fetched 2 rfl (fun _ => rfl) (fun _ _ _ => rfl) (fun t => by rw [hafter]; unfold Dat.blockOf fblk; rw [hA]; try rfl) t d).trans
    (by unfold Dat.fetched Dat.blockOf fblk; rw [hA]; try rfl)

/-- What case A leaves in the two accumulators: its pieces read back. -/
def accWA (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : cond0 i) (hc1 : ¬cond1 i)
    (x0 : Vec F S2048x320 .bf16) (x1 : Vec F S256x2048 .bf16) (x2 : Vec F S1x2048 .bf16) : Vec F S256x320 .f32 :=
  VaccW.read (Elt F) (VaccW.writes (Elt F) VaccW.junk (foldRunA c i arg1 harg1 arg2 harg2 arg3 harg3 arg4 harg4 arg5 harg5 arg6 harg6 arg7 harg7 hc0 hc1 x0 x1 x2).1)
def accBA (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : cond0 i) (hc1 : ¬cond1 i)
    (x0 : Vec F S2048x320 .bf16) (x1 : Vec F S256x2048 .bf16) (x2 : Vec F S1x2048 .bf16) : Vec F S1x256 .f32 :=
  VaccB.read (Elt F) (VaccB.writes (Elt F) VaccB.junk (foldRunA c i arg1 harg1 arg2 harg2 arg3 harg3 arg4 harg4 arg5 harg5 arg6 harg6 arg7 harg7 hc0 hc1 x0 x1 x2).2.1)
theorem coverWA (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : cond0 i) (hc1 : ¬cond1 i)
    (x0 : Vec F S2048x320 .bf16) (x1 : Vec F S256x2048 .bf16) (x2 : Vec F S1x2048 .bf16) (y : S256x320.Idx) :
    ∃ pc ∈ (foldRunA c i arg1 harg1 arg2 harg2 arg3 harg3 arg4 harg4 arg5 harg5 arg6 harg6 arg7 harg7 hc0 hc1 x0 x1 x2).1, y ∈ pc.1.set :=
  View.cover_of_tiledL (foldRunA c i arg1 harg1 arg2 harg2 arg3 harg3 arg4 harg4 arg5 harg5 arg6 harg6 arg7 harg7 hc0 hc1 x0 x1 x2).1 S256x320.size (by sl_kernel_rfl) y
theorem coverBA (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : cond0 i) (hc1 : ¬cond1 i)
    (x0 : Vec F S2048x320 .bf16) (x1 : Vec F S256x2048 .bf16) (x2 : Vec F S1x2048 .bf16) (y : S1x256.Idx) :
    ∃ pc ∈ (foldRunA c i arg1 harg1 arg2 harg2 arg3 harg3 arg4 harg4 arg5 harg5 arg6 harg6 arg7 harg7 hc0 hc1 x0 x1 x2).2.1, y ∈ pc.1.set :=
  View.cover_of_tiledL (foldRunA c i arg1 harg1 arg2 harg2 arg3 harg3 arg4 harg4 arg5 harg5 arg6 harg6 arg7 harg7 hc0 hc1 x0 x1 x2).2.1 S1x256.size (by sl_kernel_rfl) y

/-- What case B leaves in the two accumulators: its pieces read back. -/
def accWB (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : ¬cond1 i)
    (x0 : Vec F S2048x320 .bf16) (x1 : Vec F S256x2048 .bf16) (x2 : Vec F S1x2048 .bf16) (xs0 : Vec F S256x320 .f32) (xs1 : Vec F S1x256 .f32) : Vec F S256x320 .f32 :=
  VaccW.read (Elt F) (VaccW.writes (Elt F) VaccW.junk (foldRunB c i arg1 harg1 arg2 harg2 arg3 harg3 arg4 harg4 arg5 harg5 arg6 harg6 arg7 harg7 hc0 hc1 x0 x1 x2 xs0 xs1).1)
def accBB (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : ¬cond1 i)
    (x0 : Vec F S2048x320 .bf16) (x1 : Vec F S256x2048 .bf16) (x2 : Vec F S1x2048 .bf16) (xs0 : Vec F S256x320 .f32) (xs1 : Vec F S1x256 .f32) : Vec F S1x256 .f32 :=
  VaccB.read (Elt F) (VaccB.writes (Elt F) VaccB.junk (foldRunB c i arg1 harg1 arg2 harg2 arg3 harg3 arg4 harg4 arg5 harg5 arg6 harg6 arg7 harg7 hc0 hc1 x0 x1 x2 xs0 xs1).2.1)
theorem coverWB (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : ¬cond1 i)
    (x0 : Vec F S2048x320 .bf16) (x1 : Vec F S256x2048 .bf16) (x2 : Vec F S1x2048 .bf16) (xs0 : Vec F S256x320 .f32) (xs1 : Vec F S1x256 .f32) (y : S256x320.Idx) :
    ∃ pc ∈ (foldRunB c i arg1 harg1 arg2 harg2 arg3 harg3 arg4 harg4 arg5 harg5 arg6 harg6 arg7 harg7 hc0 hc1 x0 x1 x2 xs0 xs1).1, y ∈ pc.1.set :=
  View.cover_of_tiledL (foldRunB c i arg1 harg1 arg2 harg2 arg3 harg3 arg4 harg4 arg5 harg5 arg6 harg6 arg7 harg7 hc0 hc1 x0 x1 x2 xs0 xs1).1 S256x320.size (by sl_kernel_rfl) y
theorem coverBB (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : ¬cond1 i)
    (x0 : Vec F S2048x320 .bf16) (x1 : Vec F S256x2048 .bf16) (x2 : Vec F S1x2048 .bf16) (xs0 : Vec F S256x320 .f32) (xs1 : Vec F S1x256 .f32) (y : S1x256.Idx) :
    ∃ pc ∈ (foldRunB c i arg1 harg1 arg2 harg2 arg3 harg3 arg4 harg4 arg5 harg5 arg6 harg6 arg7 harg7 hc0 hc1 x0 x1 x2 xs0 xs1).2.1, y ∈ pc.1.set :=
  View.cover_of_tiledL (foldRunB c i arg1 harg1 arg2 harg2 arg3 harg3 arg4 harg4 arg5 harg5 arg6 harg6 arg7 harg7 hc0 hc1 x0 x1 x2 xs0 xs1).2.1 S1x256.size (by sl_kernel_rfl) y

/-- What case C leaves in the two accumulators: its pieces read back. -/
def accWC (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : cond1 i)
    (x0 : Vec F S2048x320 .bf16) (x1 : Vec F S256x2048 .bf16) (x2 : Vec F S1x2048 .bf16) (xs0 : Vec F S256x320 .f32) (xs1 : Vec F S1x256 .f32) : Vec F S256x320 .f32 :=
  VaccW.read (Elt F) (VaccW.writes (Elt F) VaccW.junk (foldRunC c i arg1 harg1 arg2 harg2 arg3 harg3 arg4 harg4 arg5 harg5 arg6 harg6 arg7 harg7 hc0 hc1 x0 x1 x2 xs0 xs1).2.2.1)
def accBC (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : cond1 i)
    (x0 : Vec F S2048x320 .bf16) (x1 : Vec F S256x2048 .bf16) (x2 : Vec F S1x2048 .bf16) (xs0 : Vec F S256x320 .f32) (xs1 : Vec F S1x256 .f32) : Vec F S1x256 .f32 :=
  VaccB.read (Elt F) (VaccB.writes (Elt F) VaccB.junk (foldRunC c i arg1 harg1 arg2 harg2 arg3 harg3 arg4 harg4 arg5 harg5 arg6 harg6 arg7 harg7 hc0 hc1 x0 x1 x2 xs0 xs1).2.2.2.1)
theorem coverWC (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : cond1 i)
    (x0 : Vec F S2048x320 .bf16) (x1 : Vec F S256x2048 .bf16) (x2 : Vec F S1x2048 .bf16) (xs0 : Vec F S256x320 .f32) (xs1 : Vec F S1x256 .f32) (y : S256x320.Idx) :
    ∃ pc ∈ (foldRunC c i arg1 harg1 arg2 harg2 arg3 harg3 arg4 harg4 arg5 harg5 arg6 harg6 arg7 harg7 hc0 hc1 x0 x1 x2 xs0 xs1).2.2.1, y ∈ pc.1.set :=
  View.cover_of_tiledL (foldRunC c i arg1 harg1 arg2 harg2 arg3 harg3 arg4 harg4 arg5 harg5 arg6 harg6 arg7 harg7 hc0 hc1 x0 x1 x2 xs0 xs1).2.2.1 S256x320.size (by sl_kernel_rfl) y
theorem coverBC (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : cond1 i)
    (x0 : Vec F S2048x320 .bf16) (x1 : Vec F S256x2048 .bf16) (x2 : Vec F S1x2048 .bf16) (xs0 : Vec F S256x320 .f32) (xs1 : Vec F S1x256 .f32) (y : S1x256.Idx) :
    ∃ pc ∈ (foldRunC c i arg1 harg1 arg2 harg2 arg3 harg3 arg4 harg4 arg5 harg5 arg6 harg6 arg7 harg7 hc0 hc1 x0 x1 x2 xs0 xs1).2.2.2.1, y ∈ pc.1.set :=
  View.cover_of_tiledL (foldRunC c i arg1 harg1 arg2 harg2 arg3 harg3 arg4 harg4 arg5 harg5 arg6 harg6 arg7 harg7 hc0 hc1 x0 x1 x2 xs0 xs1).2.2.2.1 S1x256.size (by sl_kernel_rfl) y

/-- What the last case leaves in the two outputs' staging buffers. -/
def outWC (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : cond1 i)
    (x0 : Vec F S2048x320 .bf16) (x1 : Vec F S256x2048 .bf16) (x2 : Vec F S1x2048 .bf16) (xs0 : Vec F S256x320 .f32) (xs1 : Vec F S1x256 .f32) : Vec F S256x320 .bf16 :=
  VoutW.read (Elt F) (VoutW.writes (Elt F) VoutW.junk (foldRunC c i arg1 harg1 arg2 harg2 arg3 harg3 arg4 harg4 arg5 harg5 arg6 harg6 arg7 harg7 hc0 hc1 x0 x1 x2 xs0 xs1).1)
def outBC (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : cond1 i)
    (x0 : Vec F S2048x320 .bf16) (x1 : Vec F S256x2048 .bf16) (x2 : Vec F S1x2048 .bf16) (xs0 : Vec F S256x320 .f32) (xs1 : Vec F S1x256 .f32) : Vec F S1x256 .f32 :=
  VoutB.read (Elt F) (VoutB.writes (Elt F) VoutB.junk (foldRunC c i arg1 harg1 arg2 harg2 arg3 harg3 arg4 harg4 arg5 harg5 arg6 harg6 arg7 harg7 hc0 hc1 x0 x1 x2 xs0 xs1).2.1)
theorem coverOutW (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : cond1 i)
    (x0 : Vec F S2048x320 .bf16) (x1 : Vec F S256x2048 .bf16) (x2 : Vec F S1x2048 .bf16) (xs0 : Vec F S256x320 .f32) (xs1 : Vec F S1x256 .f32) (y : S256x320.Idx) :
    ∃ pc ∈ (foldRunC c i arg1 harg1 arg2 harg2 arg3 harg3 arg4 harg4 arg5 harg5 arg6 harg6 arg7 harg7 hc0 hc1 x0 x1 x2 xs0 xs1).1, y ∈ pc.1.set :=
  View.cover_of_tiledL (foldRunC c i arg1 harg1 arg2 harg2 arg3 harg3 arg4 harg4 arg5 harg5 arg6 harg6 arg7 harg7 hc0 hc1 x0 x1 x2 xs0 xs1).1 S256x320.size (by sl_kernel_rfl) y
theorem coverOutB (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : cond1 i)
    (x0 : Vec F S2048x320 .bf16) (x1 : Vec F S256x2048 .bf16) (x2 : Vec F S1x2048 .bf16) (xs0 : Vec F S256x320 .f32) (xs1 : Vec F S1x256 .f32) (y : S1x256.Idx) :
    ∃ pc ∈ (foldRunC c i arg1 harg1 arg2 harg2 arg3 harg3 arg4 harg4 arg5 harg5 arg6 harg6 arg7 harg7 hc0 hc1 x0 x1 x2 xs0 xs1).2.1, y ∈ pc.1.set :=
  View.cover_of_tiledL (foldRunC c i arg1 harg1 arg2 harg2 arg3 harg3 arg4 harg4 arg5 harg5 arg6 harg6 arg7 harg7 hc0 hc1 x0 x1 x2 xs0 xs1).2.1 S1x256.size (by sl_kernel_rfl) y

/-- Placeholders for the outputs at the points that store nothing into them (never consulted: the windows are idle
    and not written back there). -/
def idleW : Vec F S256x320 .bf16 := VoutW.read (Elt F) VoutW.junk
def idleB : Vec F S1x256 .f32 := VoutB.read (Elt F) VoutB.junk

/-! ## What the buffers hold after each point -/

/-- After point n: the two outputs' staging buffers, then the two accumulators. -/
def outsAt (c : Dev nD) : (n : ℕ) → n < cfg0.N → Vec F S256x320 .bf16 × Vec F S1x256 .f32 × Vec F S256x320 .f32 × Vec F S1x256 .f32
  | 0, hn => (idleW, idleB,
      accWA c (grid0.coords ⟨0, hn⟩) (fm0 ⟨0, hn⟩) (fh0 ⟨0, hn⟩) (fm1 ⟨0, hn⟩) (fh1 ⟨0, hn⟩) (fm2 ⟨0, hn⟩) (fh2 ⟨0, hn⟩) (fm3 ⟨0, hn⟩) (fh3 ⟨0, hn⟩) (fm4 ⟨0, hn⟩) (fh4 ⟨0, hn⟩) accM (Memref.isWhole_whole _) acbM (Memref.isWhole_whole _) ((hcond0 ⟨0, hn⟩).mpr (Nat.zero_mod _)) (fun h => (fun h => by (try dsimp only at h); omega) ((hcond1 ⟨0, hn⟩).mp h)) (fblk V c 0 ⟨0, hn⟩) (fblk V c 1 ⟨0, hn⟩) (fblk V c 2 ⟨0, hn⟩),
      accBA c (grid0.coords ⟨0, hn⟩) (fm0 ⟨0, hn⟩) (fh0 ⟨0, hn⟩) (fm1 ⟨0, hn⟩) (fh1 ⟨0, hn⟩) (fm2 ⟨0, hn⟩) (fh2 ⟨0, hn⟩) (fm3 ⟨0, hn⟩) (fh3 ⟨0, hn⟩) (fm4 ⟨0, hn⟩) (fh4 ⟨0, hn⟩) accM (Memref.isWhole_whole _) acbM (Memref.isWhole_whole _) ((hcond0 ⟨0, hn⟩).mpr (Nat.zero_mod _)) (fun h => (fun h => by (try dsimp only at h); omega) ((hcond1 ⟨0, hn⟩).mp h)) (fblk V c 0 ⟨0, hn⟩) (fblk V c 1 ⟨0, hn⟩) (fblk V c 2 ⟨0, hn⟩))
  | n + 1, hn =>
    if h0 : (n + 1) % 4 = 0 then
      False.elim (by have hN : n + 1 < 4 := lt_of_lt_of_eq hn (show cfg0.N = 4 from N_0); omega)
    else
      if h1 : (n + 1) % 4 = 3 then
        (outWC c (grid0.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) (fm4 ⟨n + 1, hn⟩) (fh4 ⟨n + 1, hn⟩) accM (Memref.isWhole_whole _) acbM (Memref.isWhole_whole _) (fun h => h0 ((hcond0 ⟨n + 1, hn⟩).mp h)) ((hcond1 ⟨n + 1, hn⟩).mpr h1) (fblk V c 0 ⟨n + 1, hn⟩) (fblk V c 1 ⟨n + 1, hn⟩) (fblk V c 2 ⟨n + 1, hn⟩) (outsAt c n (Nat.lt_of_succ_lt hn)).2.2.1 (outsAt c n (Nat.lt_of_succ_lt hn)).2.2.2,
         outBC c (grid0.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) (fm4 ⟨n + 1, hn⟩) (fh4 ⟨n + 1, hn⟩) accM (Memref.isWhole_whole _) acbM (Memref.isWhole_whole _) (fun h => h0 ((hcond0 ⟨n + 1, hn⟩).mp h)) ((hcond1 ⟨n + 1, hn⟩).mpr h1) (fblk V c 0 ⟨n + 1, hn⟩) (fblk V c 1 ⟨n + 1, hn⟩) (fblk V c 2 ⟨n + 1, hn⟩) (outsAt c n (Nat.lt_of_succ_lt hn)).2.2.1 (outsAt c n (Nat.lt_of_succ_lt hn)).2.2.2,
         accWC c (grid0.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) (fm4 ⟨n + 1, hn⟩) (fh4 ⟨n + 1, hn⟩) accM (Memref.isWhole_whole _) acbM (Memref.isWhole_whole _) (fun h => h0 ((hcond0 ⟨n + 1, hn⟩).mp h)) ((hcond1 ⟨n + 1, hn⟩).mpr h1) (fblk V c 0 ⟨n + 1, hn⟩) (fblk V c 1 ⟨n + 1, hn⟩) (fblk V c 2 ⟨n + 1, hn⟩) (outsAt c n (Nat.lt_of_succ_lt hn)).2.2.1 (outsAt c n (Nat.lt_of_succ_lt hn)).2.2.2,
         accBC c (grid0.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) (fm4 ⟨n + 1, hn⟩) (fh4 ⟨n + 1, hn⟩) accM (Memref.isWhole_whole _) acbM (Memref.isWhole_whole _) (fun h => h0 ((hcond0 ⟨n + 1, hn⟩).mp h)) ((hcond1 ⟨n + 1, hn⟩).mpr h1) (fblk V c 0 ⟨n + 1, hn⟩) (fblk V c 1 ⟨n + 1, hn⟩) (fblk V c 2 ⟨n + 1, hn⟩) (outsAt c n (Nat.lt_of_succ_lt hn)).2.2.1 (outsAt c n (Nat.lt_of_succ_lt hn)).2.2.2)
      else
        (idleW, idleB,
         accWB c (grid0.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) (fm4 ⟨n + 1, hn⟩) (fh4 ⟨n + 1, hn⟩) accM (Memref.isWhole_whole _) acbM (Memref.isWhole_whole _) (fun h => h0 ((hcond0 ⟨n + 1, hn⟩).mp h)) (fun h => h1 ((hcond1 ⟨n + 1, hn⟩).mp h)) (fblk V c 0 ⟨n + 1, hn⟩) (fblk V c 1 ⟨n + 1, hn⟩) (fblk V c 2 ⟨n + 1, hn⟩) (outsAt c n (Nat.lt_of_succ_lt hn)).2.2.1 (outsAt c n (Nat.lt_of_succ_lt hn)).2.2.2,
         accBB c (grid0.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) (fm4 ⟨n + 1, hn⟩) (fh4 ⟨n + 1, hn⟩) accM (Memref.isWhole_whole _) acbM (Memref.isWhole_whole _) (fun h => h0 ((hcond0 ⟨n + 1, hn⟩).mp h)) (fun h => h1 ((hcond1 ⟨n + 1, hn⟩).mp h)) (fblk V c 0 ⟨n + 1, hn⟩) (fblk V c 1 ⟨n + 1, hn⟩) (fblk V c 2 ⟨n + 1, hn⟩) (outsAt c n (Nat.lt_of_succ_lt hn)).2.2.1 (outsAt c n (Nat.lt_of_succ_lt hn)).2.2.2)

/-- The previous point, for a point that is not the first. -/
abbrev prevLt (t : Fin cfg0.N) : t.val - 1 < cfg0.N := Nat.lt_of_le_of_lt (Nat.sub_le _ _) t.isLt

theorem outsAt_A (c : Dev nD) (t : Fin cfg0.N) (h0 : t.val % 4 = 0) (h1 : ¬t.val % 4 = 3) :
    outsAt V c t.val t.isLt = (idleW, idleB,
      accWA c (grid0.coords t) (fm0 t) (fh0 t) (fm1 t) (fh1 t) (fm2 t) (fh2 t) (fm3 t) (fh3 t) (fm4 t) (fh4 t) accM (Memref.isWhole_whole _) acbM (Memref.isWhole_whole _) ((hcond0 t).mpr h0) (fun h => h1 ((hcond1 t).mp h)) (fblk V c 0 t) (fblk V c 1 t) (fblk V c 2 t),
      accBA c (grid0.coords t) (fm0 t) (fh0 t) (fm1 t) (fh1 t) (fm2 t) (fh2 t) (fm3 t) (fh3 t) (fm4 t) (fh4 t) accM (Memref.isWhole_whole _) acbM (Memref.isWhole_whole _) ((hcond0 t).mpr h0) (fun h => h1 ((hcond1 t).mp h)) (fblk V c 0 t) (fblk V c 1 t) (fblk V c 2 t)) := by
  obtain ⟨n, hn⟩ := t
  cases n with
  | zero => exact rfl
  | succ n => exact (by exfalso; have hN : n + 1 < 4 := lt_of_lt_of_eq hn (show cfg0.N = 4 from N_0); (try dsimp only at h0); omega)

theorem outsAt_B (c : Dev nD) (t : Fin cfg0.N) (h0 : ¬t.val % 4 = 0) (h1 : ¬t.val % 4 = 3) :
    outsAt V c t.val t.isLt = (idleW, idleB,
      accWB c (grid0.coords t) (fm0 t) (fh0 t) (fm1 t) (fh1 t) (fm2 t) (fh2 t) (fm3 t) (fh3 t) (fm4 t) (fh4 t) accM (Memref.isWhole_whole _) acbM (Memref.isWhole_whole _) (fun h => h0 ((hcond0 t).mp h)) (fun h => h1 ((hcond1 t).mp h)) (fblk V c 0 t) (fblk V c 1 t) (fblk V c 2 t) (outsAt V c (t.val - 1) (prevLt t)).2.2.1 (outsAt V c (t.val - 1) (prevLt t)).2.2.2,
      accBB c (grid0.coords t) (fm0 t) (fh0 t) (fm1 t) (fh1 t) (fm2 t) (fh2 t) (fm3 t) (fh3 t) (fm4 t) (fh4 t) accM (Memref.isWhole_whole _) acbM (Memref.isWhole_whole _) (fun h => h0 ((hcond0 t).mp h)) (fun h => h1 ((hcond1 t).mp h)) (fblk V c 0 t) (fblk V c 1 t) (fblk V c 2 t) (outsAt V c (t.val - 1) (prevLt t)).2.2.1 (outsAt V c (t.val - 1) (prevLt t)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 4 = 0) (h1 : t.val % 4 = 3) :
    outsAt V c t.val t.isLt = (
      outWC c (grid0.coords t) (fm0 t) (fh0 t) (fm1 t) (fh1 t) (fm2 t) (fh2 t) (fm3 t) (fh3 t) (fm4 t) (fh4 t) accM (Memref.isWhole_whole _) acbM (Memref.isWhole_whole _) (fun h => h0 ((hcond0 t).mp h)) ((hcond1 t).mpr h1) (fblk V c 0 t) (fblk V c 1 t) (fblk V c 2 t) (outsAt V c (t.val - 1) (prevLt t)).2.2.1 (outsAt V c (t.val - 1) (prevLt t)).2.2.2,
      outBC c (grid0.coords t) (fm0 t) (fh0 t) (fm1 t) (fh1 t) (fm2 t) (fh2 t) (fm3 t) (fh3 t) (fm4 t) (fh4 t) accM (Memref.isWhole_whole _) acbM (Memref.isWhole_whole _) (fun h => h0 ((hcond0 t).mp h)) ((hcond1 t).mpr h1) (fblk V c 0 t) (fblk V c 1 t) (fblk V c 2 t) (outsAt V c (t.val - 1) (prevLt t)).2.2.1 (outsAt V c (t.val - 1) (prevLt t)).2.2.2,
      accWC c (grid0.coords t) (fm0 t) (fh0 t) (fm1 t) (fh1 t) (fm2 t) (fh2 t) (fm3 t) (fh3 t) (fm4 t) (fh4 t) accM (Memref.isWhole_whole _) acbM (Memref.isWhole_whole _) (fun h => h0 ((hcond0 t).mp h)) ((hcond1 t).mpr h1) (fblk V c 0 t) (fblk V c 1 t) (fblk V c 2 t) (outsAt V c (t.val - 1) (prevLt t)).2.2.1 (outsAt V c (t.val - 1) (prevLt t)).2.2.2,
      accBC c (grid0.coords t) (fm0 t) (fh0 t) (fm1 t) (fh1 t) (fm2 t) (fh2 t) (fm3 t) (fh3 t) (fm4 t) (fh4 t) accM (Memref.isWhole_whole _) acbM (Memref.isWhole_whole _) (fun h => h0 ((hcond0 t).mp h)) ((hcond1 t).mpr h1) (fblk V c 0 t) (fblk V c 1 t) (fblk V c 2 t) (outsAt V c (t.val - 1) (prevLt t)).2.2.1 (outsAt V c (t.val - 1) (prevLt t)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulators carried from point to point -/

def PhiS (c : Dev nD) : (n : ℕ) → n ≤ cfg0.N → sProp 𝕄
  | 0, _ => Pipeline.ΦA spec0 c
  | n + 1, hn => iprop(iprop(owns (c : Thread nD τ) accM fullShare ((outsAt V c n hn).2.2.1) ∗ owns (c : Thread nD τ) acbM fullShare ((outsAt V c n hn).2.2.2) ∗ otherStaging c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare ((outsAt V c n hn).2.2.1) ∗ owns (c : Thread nD τ) acbM fullShare ((outsAt V c n hn).2.2.2) ∗ otherStaging c) ∗ (∃ r, prngReg c r)) := rfl

theorem PhiS_pos (c : Dev nD) (n : ℕ) (h : n ≤ cfg0.N) (hz : n ≠ 0) :
    PhiS V c n h = iprop(iprop(owns (c : Thread nD τ) accM fullShare ((outsAt V c (n - 1) (by omega)).2.2.1) ∗ owns (c : Thread nD τ) acbM fullShare ((outsAt V c (n - 1) (by omega)).2.2.2) ∗ otherStaging c) ∗ (∃ r, prngReg c r)) := by
  cases n with
  | zero => exact absurd rfl hz
  | succ n => rfl

/-! ## The proof data -/

def datF (c : Dev nD) : Dat τ (Elt F) Unit ℕ (UR sig nD τ) ℕ cfg0 c where
  A w := V c (Pipeline.arrRef spec0 w)
  after w t := match w with
    | ⟨0, _⟩ => fblk V c 0 t
    | ⟨1, _⟩ => fblk V c 1 t
    | ⟨2, _⟩ => fblk V c 2 t
    | ⟨3, _⟩ => (outsAt V c t.val t.isLt).1
    | ⟨4, _⟩ => (outsAt V c t.val t.isLt).2.1
  Φ t := PhiS V c t.val (Nat.le_of_lt_succ t.isLt)
  q _ := fullShare
  owed _ := 0

theorem A_eqF (c : Dev nD) (w : Fin cfg0.W) : (datF V c).A w = V c (Pipeline.arrRef spec0 w) := by
  dsimp only [datF]

theorem PhiS_castSucc (c : Dev nD) (t : Fin cfg0.N) :
    (datF V c).Φ t.castSucc = PhiS V c t.val (Nat.le_of_lt t.isLt) := by
  dsimp only [datF]; simp only [Fin.coe_castSucc]

theorem afterF0 (c : Dev nD) (t : Fin cfg0.N) : (datF V c).after 0 t = fblk V c 0 t := by dsimp only [datF]
theorem afterF1 (c : Dev nD) (t : Fin cfg0.N) : (datF V c).after 1 t = fblk V c 1 t := by dsimp only [datF]
theorem afterF2 (c : Dev nD) (t : Fin cfg0.N) : (datF V c).after 2 t = fblk V c 2 t := by dsimp only [datF]
theorem afterF3 (c : Dev nD) (t : Fin cfg0.N) : (datF V c).after 3 t = (outsAt V c t.val t.isLt).1 := by dsimp only [datF]
theorem afterF4 (c : Dev nD) (t : Fin cfg0.N) : (datF V c).after 4 t = (outsAt V c t.val t.isLt).2.1 := by dsimp only [datF]

theorem beforeF0 (c : Dev nD) (t : Fin cfg0.N) (d) : (datF V c).before 0 t d = fblk V c 0 t :=
  fbefore0_of V (datF V c) (A_eqF V c 0) (afterF0 V c) t d
theorem beforeF1 (c : Dev nD) (t : Fin cfg0.N) (d) : (datF V c).before 1 t d = fblk V c 1 t :=
  fbefore1_of V (datF V c) (A_eqF V c 1) (afterF1 V c) t d
theorem beforeF2 (c : Dev nD) (t : Fin cfg0.N) (d) : (datF V c).before 2 t d = fblk V c 2 t :=
  fbefore2_of V (datF V c) (A_eqF V c 2) (afterF2 V c) t d

/-! ## The body obligation -/

def fbodyPre (c : Dev nD) (t : Fin cfg0.N) : sProp 𝕄 :=
  iprop((datF V c).Φ t.castSucc ∗ (datF V c).owesAt () t.castSucc
    ∗ (∃ d, owns (c : Thread nD τ) (fm0 t) fullShare ((datF V c).before 0 t d))
    ∗ (∃ d, owns (c : Thread nD τ) (fm1 t) fullShare ((datF V c).before 1 t d))
    ∗ (∃ d, owns (c : Thread nD τ) (fm2 t) fullShare ((datF V c).before 2 t d))
    ∗ (∃ d, owns (c : Thread nD τ) (fm3 t) fullShare ((datF V c).before 3 t d))
    ∗ (∃ d, owns (c : Thread nD τ) (fm4 t) fullShare ((datF V c).before 4 t d)))

def fbodyPost (c : Dev nD) (t : Fin cfg0.N) : sProp 𝕄 :=
  iprop((datF V c).Φ t.succ ∗ (datF V c).owesAt () t.succ
    ∗ (datF V c).leavesExact 0 t
    ∗ (datF V c).leavesExact 1 t
    ∗ (datF V c).leavesExact 2 t
    ∗ (datF V c).leavesExact 3 t
    ∗ (datF V c).leavesExact 4 t)

theorem leaves_in0 (c : Dev nD) (t : Fin cfg0.N) : (datF V c).leavesExact 0 t = owns (c : Thread nD τ) (fm0 t) fullShare (fblk V c 0 t) := by
  unfold Dat.leavesExact; rw [liveAt0 t, afterF0]
theorem leaves_in1 (c : Dev nD) (t : Fin cfg0.N) : (datF V c).leavesExact 1 t = owns (c : Thread nD τ) (fm1 t) fullShare (fblk V c 1 t) := by
  unfold Dat.leavesExact; rw [liveAt1 t, afterF1]
theorem leaves_in2 (c : Dev nD) (t : Fin cfg0.N) : (datF V c).leavesExact 2 t = owns (c : Thread nD τ) (fm2 t) fullShare (fblk V c 2 t) := by
  unfold Dat.leavesExact; rw [liveAt2 t, afterF2]

set_option maxHeartbeats 8000000 in
theorem sound_fbody (c : Dev nD) (t : Fin cfg0.N) :
    fbodyPre V c t ⊢ wp frame (wpE (defs₀ (F := F)) Variants.none c none) Set.univ (bodyAt0 t) (fun _ => fbodyPost V c t) := by
  unfold fbodyPre fbodyPost bodyAt0
  simp only [beforeF0, beforeF1, beforeF2]
  rw [show (datF V c).owesAt () t.succ = (datF V c).owesAt () t.castSucc from rfl]
  rw [show (datF V c).Φ t.succ = PhiS V c (t.val + 1) t.isLt from rfl, PhiS_succ]
  rw [leaves_in0, leaves_in1, leaves_in2]
  have hN : t.val < 4 := lt_of_lt_of_eq t.isLt (show cfg0.N = 4 from N_0)
  by_cases h0 : t.val % 4 = 0
  · have h1 : ¬t.val % 4 = 3 := by omega
    have hz : t.val = 0 := by omega
    rw [Dat.leavesExact_idle (datF V c) 3 t (idleAt3 t (fun h => h1 ((hcond1 t).mp h))) (noFlush3 t (fun h => h1 ((hcond1 t).mp h)))]
    rw [Dat.leavesExact_idle (datF V c) 4 t (idleAt4 t (fun h => h1 ((hcond1 t).mp h))) (noFlush4 t (fun h => h1 ((hcond1 t).mp h)))]
    rw [outsAt_A V c t h0 h1]
    unfold accWA accBA; (try dsimp only)
    rw [PhiS_castSucc V c t, PhiS_zero V c _ _ hz, PhiA_eq]
    iintro ⟨⟨⟨HS0, HS1, Hrest⟩, Hg⟩, Ho, ⟨%d0, H0⟩, ⟨%d1, H1⟩, ⟨%d2, H2⟩, ⟨%d3, H3⟩, ⟨%d4, H4⟩⟩
    iapply ((foldRunA c (grid0.coords t) _ _ _ _ _ _ _ _ _ _ _ _ _ _ ((hcond0 t).mpr h0) (fun h => h1 ((hcond1 t).mp h)) (fblk V c 0 t) (fblk V c 1 t) (fblk V c 2 t)).2.2 _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 Hrest Hg]
    · isplitl [HS0 HS1 Hrest]
      · isplitl [HS0]
        · unfold owns; iexists _; isplitr
          swap; · iexact HS0
          ipureintro; exact View.read_writes_of_cover _ _ _ _ _ (coverWA c _ _ _ _ _ _ _ _ _ _ _ _ _ _ _ _ _ _ _ _)
        isplitl [HS1]
        · unfold owns; iexists _; isplitr
          swap; · iexact HS1
          ipureintro; exact View.read_writes_of_cover _ _ _ _ _ (coverBA c _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := by omega
    by_cases h1 : t.val % 4 = 3
    · rw [show (datF V c).leavesExact 3 t = owns (c : Thread nD τ) (fm3 t) fullShare ((datF V c).after 3 t) from by
        unfold Dat.leavesExact; rw [liveAt3 t ((hcond1 t).mpr h1)], afterF3]
      rw [show (datF V c).leavesExact 4 t = owns (c : Thread nD τ) (fm4 t) fullShare ((datF V c).after 4 t) from by
        unfold Dat.leavesExact; rw [liveAt4 t ((hcond1 t).mpr h1)], afterF4]
      rw [outsAt_C V c t h0 h1]
      unfold outWC outBC accWC accBC; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩⟩
      iapply ((foldRunC c (grid0.coords t) _ _ _ _ _ _ _ _ _ _ _ _ _ _ (fun h => h0 ((hcond0 t).mp h)) ((hcond1 t).mpr h1) (fblk V c 0 t) (fblk V c 1 t) (fblk V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (coverWC c _ _ _ _ _ _ _ _ _ _ _ _ _ _ _ _ _ _ _ _ _ _)
          isplitl [HS1]
          · unfold owns; iexists _; isplitr
            swap; · iexact HS1
            ipureintro; exact View.read_writes_of_cover _ _ _ _ _ (coverBC c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverOutW c _ _ _ _ _ _ _ _ _ _ _ _ _ _ _ _ _ _ _ _ _ _)
      unfold owns; iexists _; isplitr
      swap; · iexact H4
      ipureintro; exact View.read_writes_of_cover _ _ _ _ _ (coverOutB c _ _ _ _ _ _ _ _ _ _ _ _ _ _ _ _ _ _ _ _ _ _)
    · rw [Dat.leavesExact_idle (datF V c) 3 t (idleAt3 t (fun h => h1 ((hcond1 t).mp h))) (noFlush3 t (fun h => h1 ((hcond1 t).mp h)))]
      rw [Dat.leavesExact_idle (datF V c) 4 t (idleAt4 t (fun h => h1 ((hcond1 t).mp h))) (noFlush4 t (fun h => h1 ((hcond1 t).mp h)))]
      rw [outsAt_B V c t h0 h1]
      unfold accWB accBB; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩⟩
      iapply ((foldRunB c (grid0.coords t) _ _ _ _ _ _ _ _ _ _ _ _ _ _ (fun h => h0 ((hcond0 t).mp h)) (fun h => h1 ((hcond1 t).mp h)) (fblk V c 0 t) (fblk V c 1 t) (fblk V c 2 t) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (coverWB c _ _ _ _ _ _ _ _ _ _ _ _ _ _ _ _ _ _ _ _ _ _)
          isplitl [HS1]
          · unfold owns; iexists _; isplitr
            swap; · iexact HS1
            ipureintro; exact View.read_writes_of_cover _ _ _ _ _ (coverBB c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexists _; iexact H3
      iexists _; iexact H4

theorem fbody_obligation (c : Dev nD) : BodyObligation (datF (F := F) V c) (defs₀ (F := F)) Variants.none () Set.univ := fun t => by
  rw [bigSep_W0, bigSep_W0]
  exact sound_fbody V c t

/-- What the launch hands the region is the invariant before the first point. -/
theorem fhin (c : Dev nD) : Pipeline.ΦA spec0 c ⊢ (datF V c).Φ 0 := by
  rw [show (datF V c).Φ 0 = PhiS V c 0 (Nat.zero_le _) from rfl, PhiS_zero V c 0 _ rfl]
  try exact Idealize.SL.BI.Entails.refl _

/-- After the last point the invariant gives the class's back: the accumulators' contents are forgotten. -/
theorem fhout (c : Dev nD) : (datF V c).Φ (Fin.last cfg0.N) ⊢ Pipeline.ΦA spec0 c := by
  rw [show (datF V c).Φ (Fin.last cfg0.N) = PhiS V c (Fin.last cfg0.N).val (Nat.le_of_lt_succ (Fin.last cfg0.N).isLt) from rfl,
    PhiS_pos V c _ _ (by rw [Fin.val_last]; have : cfg0.N = 4 := N_0; omega), PhiA_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

end Cert.KernelIdeal.Run

end
-- ==== Proof.ApplyRegion.lean ====
/-
  The second kernel region: one block of 2048 rows of the concatenated input per grid point, times W transposed, plus
  the bias row broadcast down the block. Each point stores its whole output block; nothing is kept between points.
  Stated at the contents V the region finds in the buffers.
-/
import proofs.«419977_j22127671509386_3_alg».proof.Proof.Gen.KernelIdeal.Launch
import proofs.«419977_j22127671509386_3_alg».proof.Proof.Gen.KernelIdeal.Skeleton
import proofs.«419977_j22127671509386_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def ablk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem abefore0_of {c : Dev nD} (dat : Dat τ (Elt F) Unit ℕ (UR sig nD τ) ℕ cfg1 c) (hA : dat.A 0 = V c (Pipeline.arrRef spec1 0))
    (hafter : ∀ t, dat.after 0 t = ablk V c 0 t) (t : Fin cfg1.N) (d) : dat.before 0 t d = ablk V c 0 t :=
  (dat.before_in_eq_fetched 0 rfl (fun _ => rfl) (fun _ _ _ => rfl) (fun t => by rw [hafter]; unfold Dat.blockOf ablk; rw [hA]; try rfl) t d).trans
    (by unfold Dat.fetched Dat.blockOf ablk; rw [hA]; try rfl)
theorem abefore1_of {c : Dev nD} (dat : Dat τ (Elt F) Unit ℕ (UR sig nD τ) ℕ cfg1 c) (hA : dat.A 1 = V c (Pipeline.arrRef spec1 1))
    (hafter : ∀ t, dat.after 1 t = ablk V c 1 t) (t : Fin cfg1.N) (d) : dat.before 1 t d = ablk V c 1 t :=
  (dat.before_in_eq_fetched 1 rfl (fun _ => rfl) (fun _ _ _ => rfl) (fun t => by rw [hafter]; unfold Dat.blockOf ablk; rw [hA]; try rfl) t d).trans
    (by unfold Dat.fetched Dat.blockOf ablk; rw [hA]; try rfl)
theorem abefore2_of {c : Dev nD} (dat : Dat τ (Elt F) Unit ℕ (UR sig nD τ) ℕ cfg1 c) (hA : dat.A 2 = V c (Pipeline.arrRef spec1 2))
    (hafter : ∀ t, dat.after 2 t = ablk V c 2 t) (t : Fin cfg1.N) (d) : dat.before 2 t d = ablk V c 2 t :=
  (dat.before_in_eq_fetched 2 rfl (fun _ => rfl) (fun _ _ _ => rfl) (fun t => by rw [hafter]; unfold Dat.blockOf ablk; rw [hA]; try rfl) t d).trans
    (by unfold Dat.fetched Dat.blockOf ablk; rw [hA]; try rfl)

abbrev rIn0 : Rect S2048x320 := Rect.unit (s := S2048x320) ![0, 0] S2048x320.size inb_S2048x320_S2048x320_0_0
abbrev rIn1 : Rect S256x320 := Rect.unit (s := S256x320) ![0, 0] S256x320.size inb_S256x320_S256x320_0_0
abbrev rIn2 : Rect S1x256 := Rect.unit (s := S1x256) ![0, 0] S1x256.size inb_S1x256_S1x256_0_0
abbrev rOut : Rect S2048x256 := Rect.unit (s := S2048x256) ![0, 0] S2048x256.size inb_S2048x256_S2048x256_0_0

/-- The output block after the body: its one store, of the product plus the broadcast bias. -/
def aout (x0 : Vec F S2048x320 .bf16) (x1 : Vec F S256x320 .bf16) (x2 : Vec F S1x256 .f32) : Vec F S2048x256 .f32 :=
  View.canon [⟨rOut, k1_pay1 (View.ld x0 rIn0) (View.ld x1 rIn1) (View.ld x2 rIn2)⟩]

theorem acover (p0 : Vec F S2048x256 .f32) (y : S2048x256.Idx) :
    ∃ pc ∈ ([⟨rOut, p0⟩] : List (View.Piece (Elt F) S2048x256 .f32)), y ∈ pc.1.set :=
  View.cover_of_tiled [⟨rOut, p0⟩] S2048x256.size (by rfl) y

set_option maxHeartbeats 4000000 in
/-- The body on whole staging memrefs: the inputs stay, the output ends at the stored block. -/
theorem sound_apply (c : Dev nD) (E : Set ℕ) (i : grid1.Coords) (arg1 : Memref sig .tc .vmem S2048x320 .bf16) (harg1 : arg1.IsWhole) (arg2 : Memref sig .tc .vmem S256x320 .bf16) (harg2 : arg2.IsWhole) (arg3 : Memref sig .tc .vmem S1x256 .f32) (harg3 : arg3.IsWhole) (arg4 : Memref sig .tc .vmem S2048x256 .f32) (harg4 : arg4.IsWhole)
    (x0 : Vec F S2048x320 .bf16) (x1 : Vec F S256x320 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (aout x0 x1 x2)) -∗ K ⟨⟩))
      ⊢ wp frame (wpE (defs₀ (F := F)) Variants.none c none) E (cc1__apply_kernel i arg1 harg1 arg2 harg2 arg3 harg3 arg4 harg4) K := by
  simp only [cc1__apply_kernel_eq_skeleton]; unfold cc1__apply_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (acover _)

/-- The region's proof data on core c. -/
def datA (c : Dev nD) : Dat τ (Elt F) Unit ℕ (UR sig nD τ) ℕ cfg1 c where
  A w := V c (Pipeline.arrRef spec1 w)
  after w t := match w with
    | ⟨0, _⟩ => ablk V c 0 t
    | ⟨1, _⟩ => ablk V c 1 t
    | ⟨2, _⟩ => ablk V c 2 t
    | ⟨3, _⟩ => aout (ablk V c 0 t) (ablk V c 1 t) (ablk V c 2 t)
  Φ _ := Pipeline.ΦA spec1 c
  q _ := fullShare
  owed _ := 0

theorem A_eqA (c : Dev nD) (w : Fin cfg1.W) : (datA V c).A w = V c (Pipeline.arrRef spec1 w) := by
  dsimp only [datA]

theorem afterA0 (c : Dev nD) (t : Fin cfg1.N) : (datA V c).after 0 t = ablk V c 0 t := by dsimp only [datA]
theorem afterA1 (c : Dev nD) (t : Fin cfg1.N) : (datA V c).after 1 t = ablk V c 1 t := by dsimp only [datA]
theorem afterA2 (c : Dev nD) (t : Fin cfg1.N) : (datA V c).after 2 t = ablk V c 2 t := by dsimp only [datA]
theorem afterA3 (c : Dev nD) (t : Fin cfg1.N) : (datA V c).after 3 t = aout (ablk V c 0 t) (ablk V c 1 t) (ablk V c 2 t) := by dsimp only [datA]

theorem beforeA0 (c : Dev nD) (t : Fin cfg1.N) (d) : (datA V c).before 0 t d = ablk V c 0 t :=
  abefore0_of V (datA V c) (A_eqA V c 0) (afterA0 V c) t d
theorem beforeA1 (c : Dev nD) (t : Fin cfg1.N) (d) : (datA V c).before 1 t d = ablk V c 1 t :=
  abefore1_of V (datA V c) (A_eqA V c 1) (afterA1 V c) t d
theorem beforeA2 (c : Dev nD) (t : Fin cfg1.N) (d) : (datA V c).before 2 t d = ablk V c 2 t :=
  abefore2_of V (datA V c) (A_eqA V c 2) (afterA2 V c) t d

def abodyPre (c : Dev nD) (t : Fin cfg1.N) : sProp 𝕄 :=
  iprop((datA V c).Φ t.castSucc ∗ (datA V c).owesAt () t.castSucc
    ∗ (∃ d, owns (c : Thread nD τ) (st1_0 t) fullShare ((datA V c).before 0 t d))
    ∗ (∃ d, owns (c : Thread nD τ) (st1_1 t) fullShare ((datA V c).before 1 t d))
    ∗ (∃ d, owns (c : Thread nD τ) (st1_2 t) fullShare ((datA V c).before 2 t d))
    ∗ (∃ d, owns (c : Thread nD τ) (st1_3 t) fullShare ((datA V c).before 3 t d)))

def abodyPost (c : Dev nD) (t : Fin cfg1.N) : sProp 𝕄 :=
  iprop((datA V c).Φ t.succ ∗ (datA V c).owesAt () t.succ
    ∗ owns (c : Thread nD τ) (st1_0 t) fullShare ((datA V c).after 0 t)
    ∗ owns (c : Thread nD τ) (st1_1 t) fullShare ((datA V c).after 1 t)
    ∗ owns (c : Thread nD τ) (st1_2 t) fullShare ((datA V c).after 2 t)
    ∗ owns (c : Thread nD τ) (st1_3 t) fullShare ((datA V c).after 3 t))

theorem sound_abody (c : Dev nD) (t : Fin cfg1.N) :
    abodyPre V c t ⊢ wp frame (wpE (defs₀ (F := F)) Variants.none c none) Set.univ (bodyAt1 t) (fun _ => abodyPost V c t) := by
  unfold abodyPre abodyPost bodyAt1
  simp only [beforeA0, beforeA1, beforeA2]
  rw [show (datA V c).Φ t.succ = (datA V c).Φ t.castSucc from rfl,
    show (datA V c).owesAt () t.succ = (datA V c).owesAt () t.castSucc from rfl,
    afterA0, afterA1, afterA2, afterA3]
  iintro ⟨HΦ, Ho, ⟨%d0, H0⟩, ⟨%d1, H1⟩, ⟨%d2, H2⟩, ⟨%d3, H3⟩⟩
  iapply (sound_apply c Set.univ _ _ _ _ _ _ _ _ _ (ablk V c 0 t) (ablk V c 1 t) (ablk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem abody_obligation (c : Dev nD) : BodyObligation (datA (F := F) V c) (defs₀ (F := F)) Variants.none () Set.univ := fun t => by
  rw [bigSep_W1, bigSep_W1]
  exact sound_abody V c t

end Cert.KernelIdeal.Run

end
-- ==== Proof.WholeRun.lean ====
/-
  The whole program as four items run in order — the first sixty host operations, the remaining five, the
  weight-fold region, the final-product region —: the buffers' contents at each boundary, each argument array read
  back through them to its launch contents, every region's proof data at its entry contents, and the run: every
  weakly fair execution terminates and ends with every unscoped buffer at the last boundary's contents.
-/
import proofs.«419977_j22127671509386_3_alg».proof.Proof.Boundary
import proofs.«419977_j22127671509386_3_alg».proof.Proof.FoldRegion
import proofs.«419977_j22127671509386_3_alg».proof.Proof.ApplyRegion

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the regions' boundaries -/

/-- What the weight-fold region finds, read at the TensorCore's references. -/
abbrev V2 : (c : Dev nD) → (b : Ref sig .tc) → Buf (Elt F) ((c : Thread nD τ).loc b) := fun c b => W2 m c b
/-- At that region's exit: its arrays at what its write-backs leave, every other buffer as entered. -/
def W3 (c : Dev nD) : Valuation τ sig (Elt F) :=
  Pipeline.withArrays spec0 c (W2 m c) fun w => (datF (V2 m) c).arrAt w cfg0.N
theorem W3_arr (c : Dev nD) (w : Fin cfg0.W) :
    W3 m c (Proc.devRef .tc (Pipeline.arrRef spec0 w)) = (datF (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev V3 : (c : Dev nD) → (b : Ref sig .tc) → Buf (Elt F) ((c : Thread nD τ).loc b) := fun c b => W3 m c b
theorem hF0 (c : Dev nD) (w : Fin cfg0.W) : (datF (V2 m) c).arrAt w cfg0.N = V3 m c (Pipeline.arrRef spec0 w) :=
  (W3_arr m c w).symm
theorem hrest0 (c : Dev nD) : ∀ b, b ∉ Finset.univ.image (Pipeline.arrRef spec0) → V3 m c b = V2 m c b :=
  fun b hb => W3_of_ne m c b fun w e => hb (Finset.mem_image.mpr ⟨w, Finset.mem_univ _, e⟩)

/-- At the final-product region's exit. -/
def W4 (c : Dev nD) : Valuation τ sig (Elt F) :=
  Pipeline.withArrays spec1 c (W3 m c) fun w => (datA (V3 m) c).arrAt w cfg1.N
theorem W4_arr (c : Dev nD) (w : Fin cfg1.W) :
    W4 m c (Proc.devRef .tc (Pipeline.arrRef spec1 w)) = (datA (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (datA (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## No item writes an argument -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := StableHlo.after_of_forall_not_mem (b := Proc.devRef .tc main_arg0) _ _ (List.forall_iff_forall_mem.mp (by
          simp only [main_part1_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := StableHlo.after_of_forall_not_mem (b := Proc.devRef .tc main_arg0) _ _ (List.forall_iff_forall_mem.mp (by
          simp only [main_part0_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := StableHlo.after_of_forall_not_mem (b := Proc.devRef .tc main_arg1) _ _ (List.forall_iff_forall_mem.mp (by
          simp only [main_part1_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := StableHlo.after_of_forall_not_mem (b := Proc.devRef .tc main_arg1) _ _ (List.forall_iff_forall_mem.mp (by
          simp only [main_part0_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := StableHlo.after_of_forall_not_mem (b := Proc.devRef .tc main_arg2) _ _ (List.forall_iff_forall_mem.mp (by
          simp only [main_part1_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg2) := StableHlo.after_of_forall_not_mem (b := Proc.devRef .tc main_arg2) _ _ (List.forall_iff_forall_mem.mp (by
          simp only [main_part0_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := StableHlo.after_of_forall_not_mem (b := Proc.devRef .tc main_arg3) _ _ (List.forall_iff_forall_mem.mp (by
          simp only [main_part1_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg3) := StableHlo.after_of_forall_not_mem (b := Proc.devRef .tc main_arg3) _ _ (List.forall_iff_forall_mem.mp (by
          simp only [main_part0_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := StableHlo.after_of_forall_not_mem (b := Proc.devRef .tc main_arg4) _ _ (List.forall_iff_forall_mem.mp (by
          simp only [main_part1_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg4) := StableHlo.after_of_forall_not_mem (b := Proc.devRef .tc main_arg4) _ _ (List.forall_iff_forall_mem.mp (by
          simp only [main_part0_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of_ne m c main_arg5 (by decide)
    _ = W1 m c (Proc.devRef .tc main_arg5) := StableHlo.after_of_forall_not_mem (b := Proc.devRef .tc main_arg5) _ _ (List.forall_iff_forall_mem.mp (by
          simp only [main_part1_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg5) := StableHlo.after_of_forall_not_mem (b := Proc.devRef .tc main_arg5) _ _ (List.forall_iff_forall_mem.mp (by
          simp only [main_part0_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => datF (V2 m) c
  | ⟨1, _⟩ => fun c => datA (V3 m) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem part0_fresh : (main_part0_ops0 : List (HloOp τ sig (Elt F))).Forall fun op => op.fresh = ∅ := by
  simp only [List.Forall]; repeat' constructor
theorem part1_fresh : (main_part1_ops0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (fbody_obligation (V2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from fhout (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V2 m c) (V3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (abody_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the run -/

abbrev segs : List (Pipeline.Seg (pcfgs (F := F)) adm (pdats m) () defs₀ 𝒱₀ L lv) :=
  [ .host (hseg main_part0_ops0 main_part0_ops0_sub part0_fresh (W0 m)),
    .host (hseg main_part1_ops0 main_part1_ops0_sub part1_fresh (W1 m)),
    .region (reg0 m),
    .region (reg1 m) ]

theorem main_run (c : Dev nD) : main (F := F) c = Pipeline.Seg.run (segs m) := (main_chain_windows c).trans (by chain_rfl)

set_option backward.isDefEq.respectTransparency.types false in
/-- From any memory with zero counters every weakly fair execution terminates, nothing faulting, and every final
    memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run_all m ρ)

/-- The run with the result named: the last region's output array at what its write-backs leave. -/
theorem run_result : θ_run defs (onTc (τ := τ) (main (F := F))) ⟨m, fun _ => 0, ρ⟩ (fun r => ∀ c : Dev nD,
      r.2.mem ((c.tc : Thread nD τ).loc main_v63) = (datA (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v63 (by decide))).trans (W4_arr m c 3),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run_all m ρ)

end Cert.KernelIdeal.Run

end
-- ==== Proof.Spec.lean ====
/-
  The two programs as functions of the six argument arrays, index by index, on the extended reals.

  Both rotate the state pairs (h[2i], h[2i+1]) by the angle ω_i · δ and read the result out through C:
    y[b, o] = Σ_q (rec[q] + inp[b, q]) · C[o, q],
  where rec is the rotated state and inp[b, ·] the per-pair image of û[b, ·] = Σ_k udu[b, k] · B[·, k] under the
  2×2 matrix ((s, -(c-1)), (c-1, s)) / ω_i.  The kernel folds that matrix into B first (Beff), contracts Beff
  with C over the state axis in four tiles of 2048 (W), contracts rec with C likewise (bias), and then takes
    y[b, o] = Σ_k udu[b, k] · W[o, k] + bias[o].
-/
import Idealize.ShloMosaic.PureOps.Ideal
import Idealize.ShloMosaic.Lib.ValueIdx

noncomputable section

namespace Cert.Rot

open Idealize.ShloMosaic Idealize.ShloMosaic.ValueIdx

/-- A rank-2 array of extended reals of extents n × m; a rank-1 array of extent n. -/
abbrev A2 (n m : Nat) : Type := (⟨2, ![n, m]⟩ : Shape).Idx → EReal
abbrev A1 (n : Nat) : Type := (⟨1, ![n]⟩ : Shape).Idx → EReal

/-- The step δ as both programs carry it (one f32 word), and the word of 1. -/
abbrev δ : EReal := Ideal.ofBits .f32 0x3DCCCCCD#32
abbrev one : EReal := Ideal.ofBits .f32 0x3F800000#32

/-- The even and the odd member of pair i, and the pair and parity of a state index. -/
def ev (i : Fin 4096) : Fin 8192 := ⟨2 * i.val, by omega⟩
def od (i : Fin 4096) : Fin 8192 := ⟨2 * i.val + 1, by omega⟩
def pr (q : Fin 8192) : Fin 4096 := ⟨q.val / 2, by omega⟩
/-- State index 2048·t + j of tile t. -/
def tl (t : Fin 4) (j : Fin 2048) : Fin 8192 := ⟨2048 * t.val + j.val, by omega⟩

section
variable (u : A2 4096 256) (du : A2 4096 64) (h : A2 1 8192) (ω : A1 4096) (Bw : A2 8192 320) (Cw : A2 256 8192)

/-- cos and sin of the pair's angle ω_i · δ. -/
def cs (i : Fin 4096) : EReal := Ideal.cos (ω (ix1 i) * δ)
def sn (i : Fin 4096) : EReal := Ideal.sin (ω (ix1 i) * δ)

/-- The rotated state: pair i's even member c·h₀ + s·h₁, its odd member (-s)·h₀ + c·h₁. -/
def rec (q : Fin 8192) : EReal :=
  if q.val % 2 = 0 then cs ω (pr q) * h (ix2 0 (ev (pr q))) + sn ω (pr q) * h (ix2 0 (od (pr q)))
  else (-(sn ω (pr q))) * h (ix2 0 (ev (pr q))) + cs ω (pr q) * h (ix2 0 (od (pr q)))

/-- The concatenated input row [du, u]. -/
def udu (b : Fin 4096) (k : Fin 320) : EReal :=
  if hk : k.val < 64 then du (ix2 b ⟨k.val, hk⟩) else u (ix2 b ⟨k.val - 64, by omega⟩)

/-! ### The kernel's side -/

/-- a = s / ω and b = (c − 1) / ω, pair by pair. -/
def av (i : Fin 4096) : EReal := Ideal.div (sn ω i) (ω (ix1 i))
def bv (i : Fin 4096) : EReal := Ideal.div (cs ω i - one) (ω (ix1 i))

/-- B with the pair matrix folded in: row 2i is a·B[2i] − b·B[2i+1], row 2i+1 is b·B[2i] + a·B[2i+1]. -/
def beff (q : Fin 8192) (k : Fin 320) : EReal :=
  if q.val % 2 = 0 then av ω (pr q) * Bw (ix2 (ev (pr q)) k) - bv ω (pr q) * Bw (ix2 (od (pr q)) k)
  else bv ω (pr q) * Bw (ix2 (ev (pr q)) k) + av ω (pr q) * Bw (ix2 (od (pr q)) k)

/-- Tile t's share of C · Beff and of rec · Cᵀ. -/
def tileW (t : Fin 4) (o : Fin 256) (k : Fin 320) : EReal :=
  ∑ j : Fin 2048, Cw (ix2 o (tl t j)) * beff ω Bw (tl t j) k
def tileB (t : Fin 4) (o : Fin 256) : EReal :=
  ∑ j : Fin 2048, rec h ω (tl t j) * Cw (ix2 o (tl t j))

/-- The four tiles accumulated in the kernel's order. -/
def wt (o : Fin 256) (k : Fin 320) : EReal :=
  tileW ω Bw Cw 0 o k + tileW ω Bw Cw 1 o k + tileW ω Bw Cw 2 o k + tileW ω Bw Cw 3 o k
def bias (o : Fin 256) : EReal :=
  tileB h ω Cw 0 o + tileB h ω Cw 1 o + tileB h ω Cw 2 o + tileB h ω Cw 3 o

/-- What the kernel returns at (b, o). -/
def kerY (b : Fin 4096) (o : Fin 256) : EReal :=
  (∑ k : Fin 320, udu u du b k * wt ω Bw Cw o k) + bias h ω Cw o

/-! ### The reference's side -/

/-- û = udu · Bᵀ. -/
def uhat (b : Fin 4096) (q : Fin 8192) : EReal := ∑ k : Fin 320, udu u du b k * Bw (ix2 q k)

/-- The pair matrix applied to û and divided by ω. -/
def inp (b : Fin 4096) (q : Fin 8192) : EReal :=
  if q.val % 2 = 0 then
    Ideal.div (sn ω (pr q) * uhat u du Bw b (ev (pr q)) - (cs ω (pr q) - one) * uhat u du Bw b (od (pr q))) (ω (ix1 (pr q)))
  else
    Ideal.div ((cs ω (pr q) - one) * uhat u du Bw b (ev (pr q)) + sn ω (pr q) * uhat u du Bw b (od (pr q))) (ω (ix1 (pr q)))

/-- What the reference returns at (b, o). -/
def refY (b : Fin 4096) (o : Fin 256) : EReal :=
  ∑ q : Fin 8192, (rec h ω q + inp u du ω Bw b q) * Cw (ix2 o q)

end

end Cert.Rot

end
-- ==== Proof.RefRead.lean ====
/-
  The reference's stages read against the specification: cos, sin, the rotated state, the concatenated input, and
  the result.
-/
import proofs.«419977_j22127671509386_3_alg».proof.Proof.Gen.ReferenceIdeal.Read
import proofs.«419977_j22127671509386_3_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Rot

theorem cos_read (x3 : (⟨S4096, .f32⟩ : BufTy).Contents (Elt Ideal)) :
    val_main_v2 (F := Ideal) x3 = fun j => cs x3 (j 0) := by
  funext j
  obtain ⟨p, rfl⟩ : ∃ p : Fin 4096, j = ix1 p := ⟨j 0, eq_ix1 j⟩
  rw [val_main_v2_apply, val_main_v1_apply, val_main_v0_apply, val_main_cst_apply]
  simp only [Ideal.hostUnary_cos_def, Ideal.mulf_def, Ideal.ofBits_def]
  rfl

theorem sin_read (x3 : (⟨S4096, .f32⟩ : BufTy).Contents (Elt Ideal)) :
    val_main_v5 (F := Ideal) x3 = fun j => sn x3 (j 0) := by
  funext j
  obtain ⟨p, rfl⟩ : ∃ p : Fin 4096, j = ix1 p := ⟨j 0, eq_ix1 j⟩
  rw [val_main_v5_apply, val_main_v4_apply, val_main_v3_apply, val_main_cst_0_apply]
  simp only [Ideal.hostUnary_sin_def, Ideal.mulf_def, Ideal.ofBits_def]
  rfl

/-- cos and sin read at one index. -/
private theorem cos_at (x3 : (⟨S4096, .f32⟩ : BufTy).Contents (Elt Ideal)) (j : S4096.Idx) :
    val_main_v2 (F := Ideal) x3 j = cs x3 (j 0) := congrFun (cos_read x3) j
private theorem sin_at (x3 : (⟨S4096, .f32⟩ : BufTy).Contents (Elt Ideal)) (j : S4096.Idx) :
    val_main_v5 (F := Ideal) x3 j = sn x3 (j 0) := congrFun (sin_read x3) j

/-! ### The rotated state -/

/-- The even member of pair p, reached through the reshape [1,8192] → [1,4096,2], the slice at 0 and the reshape back. -/
private theorem idx_ev7 (p : Fin 4096) :
    idx_main_v6 (idx_main_v7 (idx_main_v8 (ix2 (0 : Fin 1) p))) = ix2 (0 : Fin 1) (ev p) := by
  funext a; refine Fin.ext ?_
  match a with
  | ⟨0, _⟩ => rfl
  | ⟨1, _⟩ => show ((0 * 4096 + (0 * 4096 + p.val) / 1 % 4096) * 2 + 0) % 8192 = 2 * p.val; omega
/-- The odd member of pair p, through the slice at 1. -/
private theorem idx_od11 (p : Fin 4096) :
    idx_main_v6 (idx_main_v11 (idx_main_v12 (ix2 (0 : Fin 1) p))) = ix2 (0 : Fin 1) (od p) := by
  funext a; refine Fin.ext ?_
  match a with
  | ⟨0, _⟩ => rfl
  | ⟨1, _⟩ => show ((0 * 4096 + (0 * 4096 + p.val) / 1 % 4096) * 2 + (1 + 0)) % 8192 = 2 * p.val + 1; omega
private theorem idx_ev17 (p : Fin 4096) :
    idx_main_v6 (idx_main_v17 (idx_main_v18 (ix2 (0 : Fin 1) p))) = ix2 (0 : Fin 1) (ev p) := by
  funext a; refine Fin.ext ?_
  match a with
  | ⟨0, _⟩ => rfl
  | ⟨1, _⟩ => show ((0 * 4096 + (0 * 4096 + p.val) / 1 % 4096) * 2 + 0) % 8192 = 2 * p.val; omega
private theorem idx_od21 (p : Fin 4096) :
    idx_main_v6 (idx_main_v21 (idx_main_v22 (ix2 (0 : Fin 1) p))) = ix2 (0 : Fin 1) (od p) := by
  funext a; refine Fin.ext ?_
  match a with
  | ⟨0, _⟩ => rfl
  | ⟨1, _⟩ => show ((0 * 4096 + (0 * 4096 + p.val) / 1 % 4096) * 2 + (1 + 0)) % 8192 = 2 * p.val + 1; omega

/-- The even output of pair p: c·h₀ + s·h₁. -/
private theorem even_at (x2 : (⟨S1x8192, .f32⟩ : BufTy).Contents (Elt Ideal)) (x3 : (⟨S4096, .f32⟩ : BufTy).Contents (Elt Ideal)) (p : Fin 4096) :
    val_main_v15 (F := Ideal) x2 x3 (ix2 (0 : Fin 1) p)
      = cs x3 p * x2 (ix2 0 (ev p)) + sn x3 p * x2 (ix2 0 (od p)) := by
  rw [val_main_v15_apply, val_main_v10_apply, val_main_v14_apply, val_main_v9_apply, val_main_v8_apply, val_main_v7_apply,
    val_main_v6_apply, val_main_v13_apply, val_main_v12_apply, val_main_v11_apply, val_main_v6_apply, cos_at, sin_at,
    idx_ev7, idx_od11]
  simp only [Ideal.addf_def, Ideal.mulf_def]
  rfl

/-- The odd output of pair p: (−s)·h₀ + c·h₁. -/
private theorem odd_at (x2 : (⟨S1x8192, .f32⟩ : BufTy).Contents (Elt Ideal)) (x3 : (⟨S4096, .f32⟩ : BufTy).Contents (Elt Ideal)) (p : Fin 4096) :
    val_main_v25 (F := Ideal) x2 x3 (ix2 (0 : Fin 1) p)
      = (-(sn x3 p)) * x2 (ix2 0 (ev p)) + cs x3 p * x2 (ix2 0 (od p)) := by
  rw [val_main_v25_apply, val_main_v20_apply, val_main_v24_apply, val_main_v19_apply, val_main_v16_apply, val_main_v18_apply,
    val_main_v17_apply, val_main_v6_apply, val_main_v23_apply, val_main_v22_apply, val_main_v21_apply, val_main_v6_apply,
    cos_at, sin_at, idx_ev17, idx_od21]
  simp only [Ideal.addf_def, Ideal.mulf_def, Ideal.hostNegf_def, Ideal.negf_def]
  rfl

private theorem idx26 (p : Fin 4096) :
    idx_main_v26 (ix3 (0 : Fin 1) p (0 : Fin 1)) = ix2 (0 : Fin 1) p := by
  funext a; refine Fin.ext ?_
  match a with
  | ⟨0, _⟩ => rfl
  | ⟨1, _⟩ => rfl
private theorem idx27 (p : Fin 4096) :
    idx_main_v27 (ix3 (0 : Fin 1) p (0 : Fin 1)) = ix2 (0 : Fin 1) p := by
  funext a; refine Fin.ext ?_
  match a with
  | ⟨0, _⟩ => rfl
  | ⟨1, _⟩ => rfl

theorem rec_read (x2 : (⟨S1x8192, .f32⟩ : BufTy).Contents (Elt Ideal)) (x3 : (⟨S4096, .f32⟩ : BufTy).Contents (Elt Ideal)) :
    val_main_v29 (F := Ideal) x2 x3 = fun j => Cert.Rot.rec x2 x3 (j 1) := by
  funext j
  obtain ⟨z, q, rfl⟩ : ∃ (z : Fin 1) (q : Fin 8192), j = ix2 z q := ⟨j 0, j 1, eq_ix2 j⟩
  obtain rfl : z = 0 := Subsingleton.elim _ _
  show val_main_v29 (F := Ideal) x2 x3 (ix2 0 q) = Cert.Rot.rec x2 x3 q
  rw [val_main_v29_apply]
  unfold val_main_v28 Cert.Rot.rec
  by_cases hq : q.val % 2 = 0
  · rw [if_pos hq]
    refine (concatenate_pair_apply_left 2 _ _ concatenates_S1x4096x1_S1x4096x1_S1x4096x2_d2
      (idx_main_v29 (ix2 0 q)) rfl (ix3 (0 : Fin 1) (pr q) (0 : Fin 1)) (fun b => ?_)).trans ?_
    · match b with
      | ⟨0, _⟩ => rfl
      | ⟨1, _⟩ => show q.val / 2 = (0 * 8192 + q.val) / 2 % 4096; omega
      | ⟨2, _⟩ => show 0 = (0 * 8192 + q.val) % 2; omega
    · rw [val_main_v26_apply, idx26, even_at]
  · rw [if_neg hq]
    refine (concatenate_pair_apply_right 2 _ _ concatenates_S1x4096x1_S1x4096x1_S1x4096x2_d2
      (idx_main_v29 (ix2 0 q)) rfl rfl (ix3 (0 : Fin 1) (pr q) (0 : Fin 1)) (fun b hb => ?_) ?_).trans ?_
    · match b with
      | ⟨0, _⟩ => rfl
      | ⟨1, _⟩ => show q.val / 2 = (0 * 8192 + q.val) / 2 % 4096; omega
      | ⟨2, _⟩ => exact absurd rfl hb
    · show 0 + 1 = (0 * 8192 + q.val) % 2; omega
    · rw [val_main_v27_apply, idx27, odd_at]

/-! ### The concatenated input -/

theorem udu_read (x0 : (⟨S4096x256, .f32⟩ : BufTy).Contents (Elt Ideal)) (x1 : (⟨S4096x64, .f32⟩ : BufTy).Contents (Elt Ideal)) :
    val_main_v30 (F := Ideal) x0 x1 = fun j => udu x0 x1 (j 0) (j 1) := by
  funext j
  obtain ⟨p, q, rfl⟩ : ∃ (p : Fin 4096) (q : Fin 320), j = ix2 p q := ⟨j 0, j 1, eq_ix2 j⟩
  show val_main_v30 (F := Ideal) x0 x1 (ix2 p q) = udu x0 x1 p q
  unfold val_main_v30 udu
  by_cases hk : q.val < 64
  · rw [dif_pos hk]
    exact concatenate_pair_apply_left 1 x1 x0 concatenates_S4096x64_S4096x256_S4096x320_d1 (ix2 p q) rfl
      (ix2 p ⟨q.val, hk⟩) (fun b => by match b with | ⟨0, _⟩ => rfl | ⟨1, _⟩ => rfl)
  · rw [dif_neg hk]
    exact concatenate_pair_apply_right 1 x1 x0 concatenates_S4096x64_S4096x256_S4096x320_d1 (ix2 p q) rfl rfl
      (ix2 p ⟨q.val - 64, by omega⟩)
      (fun b hb => by match b with | ⟨0, _⟩ => rfl | ⟨1, _⟩ => exact absurd rfl hb)
      (by show (q.val - 64) + 64 = q.val; omega)

/-! ### û = udu · Bᵀ and its two members per pair -/

private theorem idx31 (b : Fin 4096) (q : Fin 8192) (k : Fin 320) :
    idx_main_v31 (ridx_main_v32 (ix2 b q) k) = ix2 q k := by
  funext a; refine Fin.ext ?_
  match a with
  | ⟨0, _⟩ => rfl
  | ⟨1, _⟩ => rfl

/-- The first contraction at (b, q). -/
private theorem uhat_at (x0 : (⟨S4096x256, .f32⟩ : BufTy).Contents (Elt Ideal)) (x1 : (⟨S4096x64, .f32⟩ : BufTy).Contents (Elt Ideal))
    (x4 : (⟨S8192x320, .f32⟩ : BufTy).Contents (Elt Ideal)) (b : Fin 4096) (q : Fin 8192) :
    val_main_v32 (F := Ideal) x0 x1 x4 (ix2 b q) = uhat x0 x1 x4 b q := by
  rw [val_main_v32_apply]
  unfold uhat
  refine Finset.sum_congr rfl fun k _ => ?_
  rw [val_main_v31_apply, idx31, udu_read]
  rfl

/-- The even member of pair p in row b, through the reshape [4096,8192] → [4096,4096,2], the slice at 0 and the reshape back. -/
private theorem idx_ev37 (b p : Fin 4096) :
    idx_main_v33 (idx_main_v36 (idx_main_v37 (ix2 b p))) = ix2 b (ev p) := by
  funext a; refine Fin.ext ?_
  match a with
  | ⟨0, _⟩ => show (((b.val * 4096 + p.val) / 4096 * 4096 + (b.val * 4096 + p.val) / 1 % 4096) * 2 + 0) / 8192 = b.val; omega
  | ⟨1, _⟩ => show (((b.val * 4096 + p.val) / 4096 * 4096 + (b.val * 4096 + p.val) / 1 % 4096) * 2 + 0) % 8192 = 2 * p.val; omega
private theorem idx_od42 (b p : Fin 4096) :
    idx_main_v33 (idx_main_v41 (idx_main_v42 (ix2 b p))) = ix2 b (od p) := by
  funext a; refine Fin.ext ?_
  match a with
  | ⟨0, _⟩ => show (((b.val * 4096 + p.val) / 4096 * 4096 + (b.val * 4096 + p.val) / 1 % 4096) * 2 + (1 + 0)) / 8192 = b.val; omega
  | ⟨1, _⟩ => show (((b.val * 4096 + p.val) / 4096 * 4096 + (b.val * 4096 + p.val) / 1 % 4096) * 2 + (1 + 0)) % 8192 = 2 * p.val + 1; omega
private theorem idx_ev51 (b p : Fin 4096) :
    idx_main_v33 (idx_main_v50 (idx_main_v51 (ix2 b p))) = ix2 b (ev p) := by
  funext a; refine Fin.ext ?_
  match a with
  | ⟨0, _⟩ => show (((b.val * 4096 + p.val) / 4096 * 4096 + (b.val * 4096 + p.val) / 1 % 4096) * 2 + 0) / 8192 = b.val; omega
  | ⟨1, _⟩ => show (((b.val * 4096 + p.val) / 4096 * 4096 + (b.val * 4096 + p.val) / 1 % 4096) * 2 + 0) % 8192 = 2 * p.val; omega
private theorem idx_od56 (b p : Fin 4096) :
    idx_main_v33 (idx_main_v55 (idx_main_v56 (ix2 b p))) = ix2 b (od p) := by
  funext a; refine Fin.ext ?_
  match a with
  | ⟨0, _⟩ => show (((b.val * 4096 + p.val) / 4096 * 4096 + (b.val * 4096 + p.val) / 1 % 4096) * 2 + (1 + 0)) / 8192 = b.val; omega
  | ⟨1, _⟩ => show (((b.val * 4096 + p.val) / 4096 * 4096 + (b.val * 4096 + p.val) / 1 % 4096) * 2 + (1 + 0)) % 8192 = 2 * p.val + 1; omega

section
variable (x0 : (⟨S4096x256, .f32⟩ : BufTy).Contents (Elt Ideal)) (x1 : (⟨S4096x64, .f32⟩ : BufTy).Contents (Elt Ideal))
  (x3 : (⟨S4096, .f32⟩ : BufTy).Contents (Elt Ideal)) (x4 : (⟨S8192x320, .f32⟩ : BufTy).Contents (Elt Ideal))

private theorem uhat_ev37 (b p : Fin 4096) :
    val_main_v37 (F := Ideal) x0 x1 x4 (ix2 b p) = uhat x0 x1 x4 b (ev p) := by
  rw [val_main_v37_apply, val_main_v36_apply, val_main_v33_apply, idx_ev37, uhat_at]
private theorem uhat_od42 (b p : Fin 4096) :
    val_main_v42 (F := Ideal) x0 x1 x4 (ix2 b p) = uhat x0 x1 x4 b (od p) := by
  rw [val_main_v42_apply, val_main_v41_apply, val_main_v33_apply, idx_od42, uhat_at]
private theorem uhat_ev51 (b p : Fin 4096) :
    val_main_v51 (F := Ideal) x0 x1 x4 (ix2 b p) = uhat x0 x1 x4 b (ev p) := by
  rw [val_main_v51_apply, val_main_v50_apply, val_main_v33_apply, idx_ev51, uhat_at]
private theorem uhat_od56 (b p : Fin 4096) :
    val_main_v56 (F := Ideal) x0 x1 x4 (ix2 b p) = uhat x0 x1 x4 b (od p) := by
  rw [val_main_v56_apply, val_main_v55_apply, val_main_v33_apply, idx_od56, uhat_at]

/-! ### The broadcast coefficients: s, c − 1 and ω along the rows -/

private theorem sin_row39 (b p : Fin 4096) : val_main_v39 (F := Ideal) x3 (ix2 b p) = sn x3 p := by
  rw [val_main_v39_apply, val_main_v38_apply, sin_at]
  rfl
private theorem sin_row58 (b p : Fin 4096) : val_main_v58 (F := Ideal) x3 (ix2 b p) = sn x3 p := by
  rw [val_main_v58_apply, val_main_v57_apply, sin_at]
  rfl
private theorem cm1_at (j : S4096.Idx) : val_main_v35 (F := Ideal) x3 j = cs x3 (j 0) - one := by
  rw [val_main_v35_apply, val_main_v34_apply, val_main_cst_1_apply, cos_at]
  simp only [Ideal.subf_def, Ideal.ofBits_def]
private theorem cm1_row44 (b p : Fin 4096) : val_main_v44 (F := Ideal) x3 (ix2 b p) = cs x3 p - one := by
  rw [val_main_v44_apply, val_main_v43_apply, cm1_at]
  rfl
private theorem cm1_row53 (b p : Fin 4096) : val_main_v53 (F := Ideal) x3 (ix2 b p) = cs x3 p - one := by
  rw [val_main_v53_apply, val_main_v52_apply, cm1_at]
  rfl
private theorem idx_om48 (b p : Fin 4096) : idx_main_v47 (idx_main_v48 (ix2 b p)) = ix1 p := by
  funext a; refine Fin.ext ?_
  match a with
  | ⟨0, _⟩ => rfl
private theorem idx_om62 (b p : Fin 4096) : idx_main_v61 (idx_main_v62 (ix2 b p)) = ix1 p := by
  funext a; refine Fin.ext ?_
  match a with
  | ⟨0, _⟩ => rfl
private theorem om_row48 (b p : Fin 4096) : val_main_v48 (F := Ideal) x3 (ix2 b p) = x3 (ix1 p) := by
  rw [val_main_v48_apply, val_main_v47_apply, idx_om48]
private theorem om_row62 (b p : Fin 4096) : val_main_v62 (F := Ideal) x3 (ix2 b p) = x3 (ix1 p) := by
  rw [val_main_v62_apply, val_main_v61_apply, idx_om62]

/-! ### The two quotient stages -/

private theorem quot_ev (b p : Fin 4096) :
    val_main_v49 (F := Ideal) x0 x1 x3 x4 (ix2 b p)
      = Ideal.div (sn x3 p * uhat x0 x1 x4 b (ev p) - (cs x3 p - one) * uhat x0 x1 x4 b (od p)) (x3 (ix1 p)) := by
  rw [val_main_v49_apply, val_main_v46_apply, val_main_v40_apply, val_main_v45_apply, sin_row39, uhat_ev37, cm1_row44,
    uhat_od42, om_row48]
  simp only [Ideal.hostDivf_def, Ideal.subf_def, Ideal.mulf_def]

private theorem quot_od (b p : Fin 4096) :
    val_main_v63 (F := Ideal) x0 x1 x3 x4 (ix2 b p)
      = Ideal.div ((cs x3 p - one) * uhat x0 x1 x4 b (ev p) + sn x3 p * uhat x0 x1 x4 b (od p)) (x3 (ix1 p)) := by
  rw [val_main_v63_apply, val_main_v60_apply, val_main_v54_apply, val_main_v59_apply, cm1_row53, uhat_ev51, sin_row58,
    uhat_od56, om_row62]
  simp only [Ideal.hostDivf_def, Ideal.addf_def, Ideal.mulf_def]

end

/-! ### The interleaving of the two quotients, and the result -/

section
variable (x0 : (⟨S4096x256, .f32⟩ : BufTy).Contents (Elt Ideal)) (x1 : (⟨S4096x64, .f32⟩ : BufTy).Contents (Elt Ideal))
  (x2 : (⟨S1x8192, .f32⟩ : BufTy).Contents (Elt Ideal)) (x3 : (⟨S4096, .f32⟩ : BufTy).Contents (Elt Ideal))
  (x4 : (⟨S8192x320, .f32⟩ : BufTy).Contents (Elt Ideal)) (x5 : (⟨S256x8192, .f32⟩ : BufTy).Contents (Elt Ideal))

private theorem idx64 (b p : Fin 4096) : idx_main_v64 (ix3 b p (0 : Fin 1)) = ix2 b p := by
  funext a; refine Fin.ext ?_
  match a with
  | ⟨0, _⟩ => rfl
  | ⟨1, _⟩ => rfl
private theorem idx65 (b p : Fin 4096) : idx_main_v65 (ix3 b p (0 : Fin 1)) = ix2 b p := by
  funext a; refine Fin.ext ?_
  match a with
  | ⟨0, _⟩ => rfl
  | ⟨1, _⟩ => rfl

/-- The per-pair image of û, read at (b, q). -/
private theorem inp_at (b : Fin 4096) (q : Fin 8192) :
    val_main_v67 (F := Ideal) x0 x1 x3 x4 (ix2 b q) = inp x0 x1 x3 x4 b q := by
  rw [val_main_v67_apply]
  unfold val_main_v66 inp
  by_cases hq : q.val % 2 = 0
  · rw [if_pos hq]
    refine (concatenate_pair_apply_left 2 _ _ concatenates_S4096x4096x1_S4096x4096x1_S4096x4096x2_d2
      (idx_main_v67 (ix2 b q)) rfl (ix3 b (pr q) (0 : Fin 1)) (fun a => ?_)).trans ?_
    · match a with
      | ⟨0, _⟩ => show b.val = (b.val * 8192 + q.val) / 8192; omega
      | ⟨1, _⟩ => show q.val / 2 = (b.val * 8192 + q.val) / 2 % 4096; omega
      | ⟨2, _⟩ => show 0 = (b.val * 8192 + q.val) % 2; omega
    · rw [val_main_v64_apply, idx64, quot_ev]
  · rw [if_neg hq]
    refine (concatenate_pair_apply_right 2 _ _ concatenates_S4096x4096x1_S4096x4096x1_S4096x4096x2_d2
      (idx_main_v67 (ix2 b q)) rfl rfl (ix3 b (pr q) (0 : Fin 1)) (fun a ha => ?_) ?_).trans ?_
    · match a with
      | ⟨0, _⟩ => show b.val = (b.val * 8192 + q.val) / 8192; omega
      | ⟨1, _⟩ => show q.val / 2 = (b.val * 8192 + q.val) / 2 % 4096; omega
      | ⟨2, _⟩ => exact absurd rfl ha
    · show 0 + 1 = (b.val * 8192 + q.val) % 2; omega
    · rw [val_main_v65_apply, idx65, quot_od]

private theorem idx68 (b : Fin 4096) (q : Fin 8192) : idx_main_v68 (ix2 b q) = ix2 (0 : Fin 1) q := by
  funext a; refine Fin.ext ?_
  match a with
  | ⟨0, _⟩ => rfl
  | ⟨1, _⟩ => rfl
private theorem idx70 (b : Fin 4096) (o : Fin 256) (k : Fin 8192) :
    idx_main_v70 (ridx_main_v71 (ix2 b o) k) = ix2 o k := by
  funext a; refine Fin.ext ?_
  match a with
  | ⟨0, _⟩ => rfl
  | ⟨1, _⟩ => rfl
private theorem lidx71 (b : Fin 4096) (o : Fin 256) (k : Fin 8192) :
    lidx_main_v71 (ix2 b o) k = ix2 b k := by
  funext a; refine Fin.ext ?_
  match a with
  | ⟨0, _⟩ => rfl
  | ⟨1, _⟩ => rfl

/-- The state plus the input image, read at (b, q). -/
private theorem sum_at (b : Fin 4096) (q : Fin 8192) :
    val_main_v69 (F := Ideal) x0 x1 x2 x3 x4 (ix2 b q) = Cert.Rot.rec x2 x3 q + inp x0 x1 x3 x4 b q := by
  rw [val_main_v69_apply, val_main_v68_apply, idx68, rec_read, inp_at]
  simp only [Ideal.addf_def]

/-- The last contraction at (b, o) is the specification's result. -/
private theorem res_at (b : Fin 4096) (o : Fin 256) :
    val_main_v71 (F := Ideal) x0 x1 x2 x3 x4 x5 (ix2 b o) = refY x0 x1 x2 x3 x4 x5 b o := by
  rw [val_main_v71_apply]
  unfold refY
  refine Finset.sum_congr rfl fun k _ => ?_
  rw [lidx71, sum_at, val_main_v70_apply, idx70]

end

open Idealize.ShloMosaic.TcCoe Idealize.SL.Sem in
theorem res_eq_refY (m : (ℓ : Loc nD τ sig) → Buf (Elt Ideal) ℓ) (c : Dev nD) :
    (Cert.ReferenceIdeal.Value.res_main_v71 (F := Ideal) m c : S4096x256.Idx → EReal)
      = fun j => refY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (j 0) (j 1) := by
  rw [val_main_v71_eq]
  funext j
  obtain ⟨b, o, rfl⟩ : ∃ (b : Fin 4096) (o : Fin 256), j = ix2 b o := ⟨j 0, j 1, eq_ix2 j⟩
  exact res_at _ _ _ _ _ _ b o

end Cert.ReferenceIdeal.RefValue

end
-- ==== Proof.KernelHost.lean ====
/-
  What the kernel program's host operations leave in the four arrays its regions read: B with the pair matrix folded
  in, C, the rotated state, and the concatenated input (the changes of float format are the identity).
-/
import proofs.«419977_j22127671509386_3_alg».proof.Proof.Boundary
import proofs.«419977_j22127671509386_3_alg».proof.Proof.RefRead
import proofs.«419977_j22127671509386_3_alg».proof.Proof.Spec
import Idealize.ShloMosaic.Lib.StableHlo.Run
import Idealize.ShloMosaic.Lib.Pipeline.Frame
import Idealize.ShloMosaic.Lib.Pipeline.Value
import Idealize.ShloMosaic.Lib.ValueIdx
import Idealize.ShloMosaic.Lib.ValueLayout

noncomputable section

namespace Cert.KernelIdeal.Run

open Cert.KernelIdeal Cert.KernelIdeal.Gen Idealize.ShloMosaic Idealize.ShloMosaic.TcCoe Idealize.SL.Sem Idealize.ShloMosaic.ValueIdx Cert.Rot

variable (m : (ℓ : Loc nD τ sig) → Buf (Elt Ideal) ℓ) (c : Dev nD)

/-! ### The last five operations, from any contents: each read array is a change of format of an earlier one -/

section LastFive
variable (V : Valuation τ sig (Elt Ideal))

private theorem p1_v58 : (StableHlo.after main_part1_ops0 V (Proc.devRef .tc main_v58) : S8192x320.Idx → EReal)
    = V (Proc.devRef .tc main_v56) := by
  after_results; rfl
private theorem p1_v59 : (StableHlo.after main_part1_ops0 V (Proc.devRef .tc main_v59) : S256x8192.Idx → EReal)
    = V (Proc.devRef .tc main_arg5) := by
  after_results; rfl
private theorem p1_v60 : (StableHlo.after main_part1_ops0 V (Proc.devRef .tc main_v60) : S1x8192.Idx → EReal)
    = V (Proc.devRef .tc main_v33) := by
  after_results; rfl
private theorem p1_v61 : (StableHlo.after main_part1_ops0 V (Proc.devRef .tc main_v61) : S4096x320.Idx → EReal)
    = Cert.ReferenceIdeal.Read.val_main_v30 (F := Ideal) (V (Proc.devRef .tc main_arg0)) (V (Proc.devRef .tc main_arg1)) := by
  after_results; rfl

end LastFive

/-! ### The first sixty keep u, du and C -/

private theorem w1_arg0 : W1 m c (Proc.devRef .tc main_arg0) = m ((c : Thread nD τ).loc main_arg0) := by
  dsimp only [W1, W0]; after_results
private theorem w1_arg1 : W1 m c (Proc.devRef .tc main_arg1) = m ((c : Thread nD τ).loc main_arg1) := by
  dsimp only [W1, W0]; after_results
private theorem w1_arg5 : W1 m c (Proc.devRef .tc main_arg5) = m ((c : Thread nD τ).loc main_arg5) := by
  dsimp only [W1, W0]; after_results

/-! ### The sixty operations in three stretches -/

private abbrev opsAB : List (HloOp τ sig (Elt Ideal)) := List.take 13 main_part0_ops0
private abbrev opsC : List (HloOp τ sig (Elt Ideal)) := List.take 24 (List.drop 13 main_part0_ops0)
private abbrev opsD : List (HloOp τ sig (Elt Ideal)) := List.drop 37 main_part0_ops0

private theorem ops_split : (main_part0_ops0 : List (HloOp τ sig (Elt Ideal))) = opsAB ++ (opsC ++ opsD) := rfl

private theorem after_split (V : Valuation τ sig (Elt Ideal)) :
    StableHlo.after main_part0_ops0 V = StableHlo.after opsD (StableHlo.after opsC (StableHlo.after opsAB V)) := by
  rw [ops_split, StableHlo.after_append, StableHlo.after_append]

/-! ### The folded matrix, stage by stage, at one index -/

section Stages
variable {α : Type}

/-- B viewed as pairs of rows: entry (p, r, k) of the [4096, 2, 320] view is row 2p + r. -/
private theorem pairs_apply (X : S8192x320.Idx → α) (p : Fin 4096) (r : Fin 2) (k : Fin 320) :
    shapeCast S4096x2x320 X shapeCasts_S8192x320_S4096x2x320 (ix3 p r k)
      = X (ix2 (⟨2 * p.val + r.val, by omega⟩ : Fin 8192) k) := by
  refine shapeCast_apply X shapeCasts_S8192x320_S4096x2x320 (ix3 p r k) (ix2 (⟨2 * p.val + r.val, by omega⟩ : Fin 8192) k) ?_
  rw [Shape.rowMajor_val_two, Shape.rowMajor_val_three]
  show (2 * p.val + r.val) * 320 + k.val = (p.val * 2 + r.val) * 320 + k.val
  omega

/-- The pairs back as rows: row q of the [8192, 320] view is entry (q / 2, q % 2, k). -/
private theorem rows_apply (Y : S4096x2x320.Idx → α) (q : Fin 8192) (k : Fin 320) :
    shapeCast S8192x320 Y shapeCasts_S4096x2x320_S8192x320 (ix2 q k)
      = Y (ix3 (⟨q.val / 2, by omega⟩ : Fin 4096) (⟨q.val % 2, by omega⟩ : Fin 2) k) := by
  refine shapeCast_apply Y shapeCasts_S4096x2x320_S8192x320 (ix2 q k)
    (ix3 (⟨q.val / 2, by omega⟩ : Fin 4096) (⟨q.val % 2, by omega⟩ : Fin 2) k) ?_
  rw [Shape.rowMajor_val_two, Shape.rowMajor_val_three]
  show (q.val / 2 * 2 + q.val % 2) * 320 + k.val = q.val * 320 + k.val
  omega

/-- The unit middle axis dropped: entry (p, k) of the [4096, 320] view is entry (p, 0, k). -/
private theorem squeeze_apply (Z : S4096x1x320.Idx → α) (p : Fin 4096) (k : Fin 320) :
    shapeCast S4096x320 Z shapeCasts_S4096x1x320_S4096x320 (ix2 p k) = Z (ix3 p (0 : Fin 1) k) := by
  refine shapeCast_apply Z shapeCasts_S4096x1x320_S4096x320 (ix2 p k) (ix3 p (0 : Fin 1) k) ?_
  rw [Shape.rowMajor_val_two, Shape.rowMajor_val_three]
  show (p.val * 1 + 0) * 320 + k.val = p.val * 320 + k.val
  omega

/-- The even rows and the odd rows of the pair view. -/
private theorem even_apply (Y : S4096x2x320.Idx → α) (p : Fin 4096) (k : Fin 320) :
    extractStridedSlice S4096x1x320 ![0, 0, 0] Y slices_S4096x2x320_S4096x1x320_0_0_0 (ix3 p (0 : Fin 1) k)
      = Y (ix3 p (0 : Fin 2) k) :=
  slice3_axis1_apply 0 Y slices_S4096x2x320_S4096x1x320_0_0_0 p (0 : Fin 1) k (0 : Fin 2) rfl
private theorem odd_apply (Y : S4096x2x320.Idx → α) (p : Fin 4096) (k : Fin 320) :
    extractStridedSlice S4096x1x320 ![0, 1, 0] Y slices_S4096x2x320_S4096x1x320_0_1_0 (ix3 p (0 : Fin 1) k)
      = Y (ix3 p (1 : Fin 2) k) :=
  slice3_axis1_apply 1 Y slices_S4096x2x320_S4096x1x320_0_1_0 p (0 : Fin 1) k (1 : Fin 2) rfl

/-- A vector over the pairs spread along the rows: entry (p, k) is the vector's entry p. -/
private theorem spread_apply (v : S4096.Idx → α) (p : Fin 4096) (k : Fin 320) :
    broadcastInDim S4096x320 ![0, 1] bcast_S4096x1_S4096x320_0_1
      (broadcastInDim S4096x1 ![0] bcast_S4096_S4096x1_0 v) (ix2 p k) = v (ix1 p) := by
  refine (broadcastInDim_apply ![0, 1] bcast_S4096x1_S4096x320_0_1 _ (ix2 p k) (ix2 p (0 : Fin 1)) (fun a => ?_)).trans ?_
  · match a with
    | ⟨0, _⟩ => rfl
    | ⟨1, _⟩ => rfl
  · exact broadcastInDim_apply ![0] bcast_S4096_S4096x1_0 v (ix2 p (0 : Fin 1)) (ix1 p) (fun a => by
      match a with
      | ⟨0, _⟩ => rfl)

/-- A unit middle axis put in: entry (p, 0, k) of the [4096, 1, 320] view is entry (p, k). -/
private theorem unsqueeze_apply (X : S4096x320.Idx → α) (p : Fin 4096) (k : Fin 320) :
    broadcastInDim S4096x1x320 ![0, 2] bcast_S4096x320_S4096x1x320_0_2 X (ix3 p (0 : Fin 1) k) = X (ix2 p k) :=
  broadcastInDim_apply ![0, 2] bcast_S4096x320_S4096x1x320_0_2 X (ix3 p (0 : Fin 1) k) (ix2 p k) (fun a => by
    match a with
    | ⟨0, _⟩ => rfl
    | ⟨1, _⟩ => rfl)

/-- The two halves joined along the middle axis: entry (p, 0, k) is the first's, entry (p, 1, k) the second's. -/
private theorem join_zero_apply (X₁ X₂ : S4096x1x320.Idx → α) (p : Fin 4096) (k : Fin 320) :
    concatenate S4096x2x320 1 [⟨S4096x1x320, X₁⟩, ⟨S4096x1x320, X₂⟩] concatenates_S4096x1x320_S4096x1x320_S4096x2x320_d1
      (ix3 p (0 : Fin 2) k) = X₁ (ix3 p (0 : Fin 1) k) :=
  concatenate_pair_apply_left 1 X₁ X₂ concatenates_S4096x1x320_S4096x1x320_S4096x2x320_d1 (ix3 p (0 : Fin 2) k) rfl
    (ix3 p (0 : Fin 1) k) (fun b => by
      match b with
      | ⟨0, _⟩ => rfl
      | ⟨1, _⟩ => rfl
      | ⟨2, _⟩ => rfl)
private theorem join_one_apply (X₁ X₂ : S4096x1x320.Idx → α) (p : Fin 4096) (k : Fin 320) :
    concatenate S4096x2x320 1 [⟨S4096x1x320, X₁⟩, ⟨S4096x1x320, X₂⟩] concatenates_S4096x1x320_S4096x1x320_S4096x2x320_d1
      (ix3 p (1 : Fin 2) k) = X₂ (ix3 p (0 : Fin 1) k) :=
  concatenate_pair_apply_right 1 X₁ X₂ concatenates_S4096x1x320_S4096x1x320_S4096x2x320_d1 (ix3 p (1 : Fin 2) k) rfl rfl
    (ix3 p (0 : Fin 1) k) (fun b hb => by
      match b, hb with
      | ⟨0, _⟩, _ => rfl
      | ⟨1, _⟩, hb => exact absurd (Fin.ext rfl) hb
      | ⟨2, _⟩, _ => rfl) rfl

end Stages

/-! The kernel's folding of a and b into B, as arrays: a vector over the pairs spread along the rows, the even and
    the odd rows of B, the two combinations, and the two joined pair by pair. -/

private def spread (v : (⟨S4096, .f32⟩ : BufTy).Contents (Elt Ideal)) : (⟨S4096x320, .f32⟩ : BufTy).Contents (Elt Ideal) :=
  broadcastInDim S4096x320 ![0, 1] bcast_S4096x1_S4096x320_0_1 (broadcastInDim S4096x1 ![0] bcast_S4096_S4096x1_0 v)
private def evenRows (B : (⟨S8192x320, .f32⟩ : BufTy).Contents (Elt Ideal)) : (⟨S4096x320, .f32⟩ : BufTy).Contents (Elt Ideal) :=
  shapeCast S4096x320 (extractStridedSlice S4096x1x320 ![0, 0, 0]
    (shapeCast S4096x2x320 B shapeCasts_S8192x320_S4096x2x320) slices_S4096x2x320_S4096x1x320_0_0_0) shapeCasts_S4096x1x320_S4096x320
private def oddRows (B : (⟨S8192x320, .f32⟩ : BufTy).Contents (Elt Ideal)) : (⟨S4096x320, .f32⟩ : BufTy).Contents (Elt Ideal) :=
  shapeCast S4096x320 (extractStridedSlice S4096x1x320 ![0, 1, 0]
    (shapeCast S4096x2x320 B shapeCasts_S8192x320_S4096x2x320) slices_S4096x2x320_S4096x1x320_0_1_0) shapeCasts_S4096x1x320_S4096x320
private def evenComb (a b : (⟨S4096, .f32⟩ : BufTy).Contents (Elt Ideal)) (B : (⟨S8192x320, .f32⟩ : BufTy).Contents (Elt Ideal)) :
    (⟨S4096x320, .f32⟩ : BufTy).Contents (Elt Ideal) :=
  subf (F := Ideal) (s := S4096x320) (φ := .f32)
    (mulf (F := Ideal) (s := S4096x320) (φ := .f32) (spread a) (evenRows B))
    (mulf (F := Ideal) (s := S4096x320) (φ := .f32) (spread b) (oddRows B))
private def oddComb (a b : (⟨S4096, .f32⟩ : BufTy).Contents (Elt Ideal)) (B : (⟨S8192x320, .f32⟩ : BufTy).Contents (Elt Ideal)) :
    (⟨S4096x320, .f32⟩ : BufTy).Contents (Elt Ideal) :=
  addf (F := Ideal) (s := S4096x320) (φ := .f32)
    (mulf (F := Ideal) (s := S4096x320) (φ := .f32) (spread b) (evenRows B))
    (mulf (F := Ideal) (s := S4096x320) (φ := .f32) (spread a) (oddRows B))
private def folded (a b : (⟨S4096, .f32⟩ : BufTy).Contents (Elt Ideal)) (B : (⟨S8192x320, .f32⟩ : BufTy).Contents (Elt Ideal)) :
    (⟨S8192x320, .f32⟩ : BufTy).Contents (Elt Ideal) :=
  shapeCast S8192x320
    (concatenate S4096x2x320 1
      [⟨S4096x1x320, broadcastInDim S4096x1x320 ![0, 2] bcast_S4096x320_S4096x1x320_0_2 (evenComb a b B)⟩,
       ⟨S4096x1x320, broadcastInDim S4096x1x320 ![0, 2] bcast_S4096x320_S4096x1x320_0_2 (oddComb a b B)⟩]
      concatenates_S4096x1x320_S4096x1x320_S4096x2x320_d1)
    shapeCasts_S4096x2x320_S8192x320

private theorem evenRows_apply (B : (⟨S8192x320, .f32⟩ : BufTy).Contents (Elt Ideal)) (p : Fin 4096) (k : Fin 320) :
    evenRows B (ix2 p k) = B (ix2 (ev p) k) := by
  unfold evenRows
  rw [squeeze_apply, even_apply, pairs_apply]
  rfl
private theorem oddRows_apply (B : (⟨S8192x320, .f32⟩ : BufTy).Contents (Elt Ideal)) (p : Fin 4096) (k : Fin 320) :
    oddRows B (ix2 p k) = B (ix2 (od p) k) := by
  unfold oddRows
  rw [squeeze_apply, odd_apply, pairs_apply]
  rfl
private theorem evenComb_apply (a b : (⟨S4096, .f32⟩ : BufTy).Contents (Elt Ideal)) (B : (⟨S8192x320, .f32⟩ : BufTy).Contents (Elt Ideal))
    (p : Fin 4096) (k : Fin 320) :
    evenComb a b B (ix2 p k) = a (ix1 p) * B (ix2 (ev p) k) - b (ix1 p) * B (ix2 (od p) k) := by
  unfold evenComb spread
  rw [subf_apply, mulf_apply, mulf_apply, spread_apply, spread_apply, evenRows_apply, oddRows_apply]
private theorem oddComb_apply (a b : (⟨S4096, .f32⟩ : BufTy).Contents (Elt Ideal)) (B : (⟨S8192x320, .f32⟩ : BufTy).Contents (Elt Ideal))
    (p : Fin 4096) (k : Fin 320) :
    oddComb a b B (ix2 p k) = b (ix1 p) * B (ix2 (ev p) k) + a (ix1 p) * B (ix2 (od p) k) := by
  unfold oddComb spread
  rw [addf_apply, mulf_apply, mulf_apply, spread_apply, spread_apply, evenRows_apply, oddRows_apply]

/-- The folded array at row q: by q's parity, the pair's even or odd combination. -/
private theorem folded_apply (a b : (⟨S4096, .f32⟩ : BufTy).Contents (Elt Ideal)) (B : (⟨S8192x320, .f32⟩ : BufTy).Contents (Elt Ideal))
    (q : Fin 8192) (k : Fin 320) :
    folded a b B (ix2 q k)
      = if q.val % 2 = 0 then a (ix1 (pr q)) * B (ix2 (ev (pr q)) k) - b (ix1 (pr q)) * B (ix2 (od (pr q)) k)
        else b (ix1 (pr q)) * B (ix2 (ev (pr q)) k) + a (ix1 (pr q)) * B (ix2 (od (pr q)) k) := by
  unfold folded
  rw [rows_apply]
  by_cases h : q.val % 2 = 0
  · have e : (⟨q.val % 2, by omega⟩ : Fin 2) = 0 := Fin.ext h
    rw [if_pos h, e, join_zero_apply, unsqueeze_apply, evenComb_apply]
    rfl
  · have e : (⟨q.val % 2, by omega⟩ : Fin 2) = 1 := Fin.ext (by show q.val % 2 = 1; omega)
    rw [if_neg h, e, join_one_apply, unsqueeze_apply, oddComb_apply]
    rfl

section Stretches
variable (V : Valuation τ sig (Elt Ideal))

/-! The first thirteen: cos, sin, a = s / ω and b = (c − 1) / ω; the state, ω and B are kept. -/

private theorem ab_v2 : (StableHlo.after opsAB V (Proc.devRef .tc main_v2) : S4096.Idx → EReal)
    = Cert.ReferenceIdeal.Read.val_main_v2 (F := Ideal) (V (Proc.devRef .tc main_arg3)) := by
  simp only [opsAB, main_part0_ops0, List.take_succ_cons, List.take_zero]
  after_results; rfl
private theorem ab_v5 : (StableHlo.after opsAB V (Proc.devRef .tc main_v5) : S4096.Idx → EReal)
    = Cert.ReferenceIdeal.Read.val_main_v5 (F := Ideal) (V (Proc.devRef .tc main_arg3)) := by
  simp only [opsAB, main_part0_ops0, List.take_succ_cons, List.take_zero]
  after_results; rfl
private theorem ab_v8 : (StableHlo.after opsAB V (Proc.devRef .tc main_v8) : S4096.Idx → EReal)
    = Host.divf (F := Ideal) (s := S4096) (φ := .f32) (Cert.ReferenceIdeal.Read.val_main_v5 (F := Ideal) (V (Proc.devRef .tc main_arg3))) (V (Proc.devRef .tc main_arg3)) := by
  simp only [opsAB, main_part0_ops0, List.take_succ_cons, List.take_zero]
  after_results; rfl
private theorem ab_v9 : (StableHlo.after opsAB V (Proc.devRef .tc main_v9) : S4096.Idx → EReal)
    = Host.divf (F := Ideal) (s := S4096) (φ := .f32)
        (subf (F := Ideal) (s := S4096) (φ := .f32) (Cert.ReferenceIdeal.Read.val_main_v2 (F := Ideal) (V (Proc.devRef .tc main_arg3)))
          (broadcastInDim S4096 ![] bcast_S_S4096 (constant (F := Ideal) S_ .f32 0x3F800000#32)))
        (V (Proc.devRef .tc main_arg3)) := by
  simp only [opsAB, main_part0_ops0, List.take_succ_cons, List.take_zero]
  after_results; rfl
private theorem ab_arg2 : StableHlo.after opsAB V (Proc.devRef .tc main_arg2) = V (Proc.devRef .tc main_arg2) := by
  simp only [opsAB, main_part0_ops0, List.take_succ_cons, List.take_zero]
  after_results
private theorem ab_arg4 : StableHlo.after opsAB V (Proc.devRef .tc main_arg4) = V (Proc.devRef .tc main_arg4) := by
  simp only [opsAB, main_part0_ops0, List.take_succ_cons, List.take_zero]
  after_results

/-! The next twenty-four: the rotated state from the state, cos and sin; a, b and B are kept. -/

set_option maxHeartbeats 4000000 in
private theorem c_v33 (x2 : (⟨S1x8192, .f32⟩ : BufTy).Contents (Elt Ideal)) (x3 : (⟨S4096, .f32⟩ : BufTy).Contents (Elt Ideal))
    (h2 : (V (Proc.devRef .tc main_arg2) : S1x8192.Idx → EReal) = x2)
    (hc : (V (Proc.devRef .tc main_v2) : S4096.Idx → EReal) = Cert.ReferenceIdeal.Read.val_main_v2 (F := Ideal) x3)
    (hs : (V (Proc.devRef .tc main_v5) : S4096.Idx → EReal) = Cert.ReferenceIdeal.Read.val_main_v5 (F := Ideal) x3) :
    (StableHlo.after opsC V (Proc.devRef .tc main_v33) : S1x8192.Idx → EReal)
      = Cert.ReferenceIdeal.Read.val_main_v29 (F := Ideal) x2 x3 := by
  simp only [opsC, main_part0_ops0, List.take_succ_cons, List.take_zero, List.drop_succ_cons, List.drop_zero]
  after_results
  rw [h2, hc, hs]; rfl
private theorem c_v8 : StableHlo.after opsC V (Proc.devRef .tc main_v8) = V (Proc.devRef .tc main_v8) := by
  simp only [opsC, main_part0_ops0, List.take_succ_cons, List.take_zero, List.drop_succ_cons, List.drop_zero]
  after_results
private theorem c_v9 : StableHlo.after opsC V (Proc.devRef .tc main_v9) = V (Proc.devRef .tc main_v9) := by
  simp only [opsC, main_part0_ops0, List.take_succ_cons, List.take_zero, List.drop_succ_cons, List.drop_zero]
  after_results
private theorem c_arg4 : StableHlo.after opsC V (Proc.devRef .tc main_arg4) = V (Proc.devRef .tc main_arg4) := by
  simp only [opsC, main_part0_ops0, List.take_succ_cons, List.take_zero, List.drop_succ_cons, List.drop_zero]
  after_results

/-! The last twenty-three: a and b folded into B; the rotated state is kept. -/

set_option maxHeartbeats 4000000 in
private theorem d_v56 : (StableHlo.after opsD V (Proc.devRef .tc main_v56) : S8192x320.Idx → EReal)
    = folded (V (Proc.devRef .tc main_v8)) (V (Proc.devRef .tc main_v9)) (V (Proc.devRef .tc main_arg4)) := by
  simp only [opsD, main_part0_ops0, List.drop_succ_cons, List.drop_zero]
  after_results; rfl
private theorem d_v33 : StableHlo.after opsD V (Proc.devRef .tc main_v33) = V (Proc.devRef .tc main_v33) := by
  simp only [opsD, main_part0_ops0, List.drop_succ_cons, List.drop_zero]
  after_results

end Stretches

/-! ### a and b against the specification, and the folded array as Beff -/

private theorem folded_eq (ω : (⟨S4096, .f32⟩ : BufTy).Contents (Elt Ideal)) (Bw : (⟨S8192x320, .f32⟩ : BufTy).Contents (Elt Ideal)) :
    folded
      (Host.divf (F := Ideal) (s := S4096) (φ := .f32) (Cert.ReferenceIdeal.Read.val_main_v5 (F := Ideal) ω) ω)
      (Host.divf (F := Ideal) (s := S4096) (φ := .f32)
        (subf (F := Ideal) (s := S4096) (φ := .f32) (Cert.ReferenceIdeal.Read.val_main_v2 (F := Ideal) ω)
          (broadcastInDim S4096 ![] bcast_S_S4096 (constant (F := Ideal) S_ .f32 0x3F800000#32))) ω)
      Bw
    = fun j => beff ω Bw (j 0) (j 1) := by
  funext j
  obtain ⟨q, k, rfl⟩ : ∃ (q : Fin 8192) (k : Fin 320), j = ix2 q k := ⟨j 0, j 1, eq_ix2 j⟩
  rw [folded_apply, Cert.ReferenceIdeal.RefValue.sin_read, Cert.ReferenceIdeal.RefValue.cos_read]
  rfl

/-! ### The four arrays -/

theorem beff_read : (W2 m c (Proc.devRef .tc main_v58) : S8192x320.Idx → EReal)
    = fun j => beff (m ((c : Thread nD τ).loc main_arg3)) (m ((c : Thread nD τ).loc main_arg4)) (j 0) (j 1) := by
  refine Eq.trans ?_ (folded_eq (m ((c : Thread nD τ).loc main_arg3)) (m ((c : Thread nD τ).loc main_arg4)))
  dsimp only [W2]
  rw [p1_v58]
  dsimp only [W1, W0]
  rw [after_split, d_v56, c_v8, c_v9, c_arg4, ab_v8, ab_v9, ab_arg4]

theorem cw_read : (W2 m c (Proc.devRef .tc main_v59) : S256x8192.Idx → EReal) = m ((c : Thread nD τ).loc main_arg5) := by
  dsimp only [W2]
  rw [p1_v59, w1_arg5]

theorem rec_read : (W2 m c (Proc.devRef .tc main_v60) : S1x8192.Idx → EReal)
    = fun j => Cert.Rot.rec (m ((c : Thread nD τ).loc main_arg2)) (m ((c : Thread nD τ).loc main_arg3)) (j 1) := by
  refine Eq.trans ?_ (Cert.ReferenceIdeal.RefValue.rec_read (m ((c : Thread nD τ).loc main_arg2)) (m ((c : Thread nD τ).loc main_arg3)))
  dsimp only [W2]
  rw [p1_v60]
  dsimp only [W1, W0]
  rw [after_split, d_v33]
  exact c_v33 _ _ _ (ab_arg2 _) (ab_v2 _) (ab_v5 _)

theorem udu_read : (W2 m c (Proc.devRef .tc main_v61) : S4096x320.Idx → EReal)
    = fun j => udu (m ((c : Thread nD τ).loc main_arg0)) (m ((c : Thread nD τ).loc main_arg1)) (j 0) (j 1) := by
  refine Eq.trans ?_ (Cert.ReferenceIdeal.RefValue.udu_read (m ((c : Thread nD τ).loc main_arg0)) (m ((c : Thread nD τ).loc main_arg1)))
  dsimp only [W2]
  rw [p1_v61, w1_arg0, w1_arg1]

end Cert.KernelIdeal.Run

end
-- ==== Proof.FoldValue.lean ====
/-
  What the weight-fold region leaves in its two output arrays, at the extended reals: the four tiles' products of C
  with the folded B summed in the accumulator's order (0 + tile 0, + tile 1, + tile 2, + tile 3), and likewise the
  rotated state against C; both written once, at the last point, each block being its whole array.
-/
import proofs.«419977_j22127671509386_3_alg».proof.Proof.FoldRegion
import proofs.«419977_j22127671509386_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Run

open Cert.KernelIdeal Cert.KernelIdeal.Gen Cert.Rot Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- A middle point leaves the accumulator it found plus the tile's product. -/
theorem accWB_eq (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : ¬cond1 i) (x0 : Vec F S2048x320 .bf16) (x1 : Vec F S256x2048 .bf16) (x2 : Vec F S1x2048 .bf16) (xs0 : Vec F S256x320 .f32) (xs1 : Vec F S1x256 .f32) :
    accWB c i arg1 harg1 arg2 harg2 arg3 harg3 arg4 harg4 arg5 harg5 arg6 harg6 arg7 harg7 hc0 hc1 x0 x1 x2 xs0 xs1 = k0_pay4 x0 x1 xs0 := by
  unfold accWB
  rw [View.read_writes_eq_canon _ _ _ (coverWB c i arg1 harg1 arg2 harg2 arg3 harg3 arg4 harg4 arg5 harg5 arg6 harg6 arg7 harg7 hc0 hc1 x0 x1 x2 xs0 xs1)]
  unfold foldRunB
  dsimp only
  sl_unfold_words
  rw [View.canon_unit_zero hz2]
  simp only [View.readAt_eq_ld, harg1.read_unread, harg2.read_unread, harg6.read_unread, View.ld_unit_zero (S := S2048x320) hz2, View.ld_unit_zero (S := S256x2048) hz2, View.ld_unit_zero (S := S256x320) hz2]

theorem accBB_eq (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : ¬cond1 i) (x0 : Vec F S2048x320 .bf16) (x1 : Vec F S256x2048 .bf16) (x2 : Vec F S1x2048 .bf16) (xs0 : Vec F S256x320 .f32) (xs1 : Vec F S1x256 .f32) :
    accBB c i arg1 harg1 arg2 harg2 arg3 harg3 arg4 harg4 arg5 harg5 arg6 harg6 arg7 harg7 hc0 hc1 x0 x1 x2 xs0 xs1 = k0_pay5 x1 x2 xs1 := by
  unfold accBB
  rw [View.read_writes_eq_canon _ _ _ (coverBB c i arg1 harg1 arg2 harg2 arg3 harg3 arg4 harg4 arg5 harg5 arg6 harg6 arg7 harg7 hc0 hc1 x0 x1 x2 xs0 xs1)]
  unfold foldRunB
  dsimp only
  sl_unfold_words
  rw [View.canon_unit_zero hz2]
  simp only [View.readAt_eq_ld, harg2.read_unread, harg3.read_unread, harg7.read_unread, View.ld_unit_zero (S := S1x2048) hz2, View.ld_unit_zero (S := S256x2048) hz2, View.ld_unit_zero (S := S1x256) hz2]

/-- The first point stores the zero and then the zero plus the first tile's product. -/
theorem accWA_eq (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : cond0 i) (hc1 : ¬cond1 i) (x0 : Vec F S2048x320 .bf16) (x1 : Vec F S256x2048 .bf16) (x2 : Vec F S1x2048 .bf16) :
    accWA c i arg1 harg1 arg2 harg2 arg3 harg3 arg4 harg4 arg5 harg5 arg6 harg6 arg7 harg7 hc0 hc1 x0 x1 x2 = k0_pay4 x0 x1 (k0_pay1 (F := F)) := by
  unfold accWA
  rw [View.read_writes_eq_canon _ _ _ (coverWA c i arg1 harg1 arg2 harg2 arg3 harg3 arg4 harg4 arg5 harg5 arg6 harg6 arg7 harg7 hc0 hc1 x0 x1 x2)]
  unfold foldRunA
  dsimp only
  sl_unfold_words
  rw [View.canon_cons_unit_zero (S := S256x320) hz2]
  simp only [View.readAt_eq_ld, harg1.read_unread, harg2.read_unread, View.readCov_unit_zero (S := S256x320) _ hz2, View.ld_unit_zero (S := S2048x320) hz2, View.ld_unit_zero (S := S256x2048) hz2, View.ld_unit_zero (S := S256x320) hz2]

theorem accBA_eq (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : cond0 i) (hc1 : ¬cond1 i) (x0 : Vec F S2048x320 .bf16) (x1 : Vec F S256x2048 .bf16) (x2 : Vec F S1x2048 .bf16) :
    accBA c i arg1 harg1 arg2 harg2 arg3 harg3 arg4 harg4 arg5 harg5 arg6 harg6 arg7 harg7 hc0 hc1 x0 x1 x2 = k0_pay5 x1 x2 (k0_pay2 (F := F)) := by
  unfold accBA
  rw [View.read_writes_eq_canon _ _ _ (coverBA c i arg1 harg1 arg2 harg2 arg3 harg3 arg4 harg4 arg5 harg5 arg6 harg6 arg7 harg7 hc0 hc1 x0 x1 x2)]
  unfold foldRunA
  dsimp only
  sl_unfold_words
  rw [View.canon_cons_unit_zero (S := S1x256) hz2]
  simp only [View.readAt_eq_ld, harg2.read_unread, harg3.read_unread, View.readCov_unit_zero (S := S1x256) _ hz2, View.ld_unit_zero (S := S1x2048) hz2, View.ld_unit_zero (S := S256x2048) hz2, View.ld_unit_zero (S := S1x256) hz2]

/-- The last point adds its tile's product likewise, and copies both accumulators out. -/
theorem accWC_eq (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : cond1 i) (x0 : Vec F S2048x320 .bf16) (x1 : Vec F S256x2048 .bf16) (x2 : Vec F S1x2048 .bf16) (xs0 : Vec F S256x320 .f32) (xs1 : Vec F S1x256 .f32) :
    accWC c i arg1 harg1 arg2 harg2 arg3 harg3 arg4 harg4 arg5 harg5 arg6 harg6 arg7 harg7 hc0 hc1 x0 x1 x2 xs0 xs1 = k0_pay4 x0 x1 xs0 := by
  unfold accWC
  rw [View.read_writes_eq_canon _ _ _ (coverWC c i arg1 harg1 arg2 harg2 arg3 harg3 arg4 harg4 arg5 harg5 arg6 harg6 arg7 harg7 hc0 hc1 x0 x1 x2 xs0 xs1)]
  unfold foldRunC
  dsimp only
  sl_unfold_words
  rw [View.canon_unit_zero hz2]
  simp only [View.readAt_eq_ld, harg1.read_unread, harg2.read_unread, harg6.read_unread, View.ld_unit_zero (S := S2048x320) hz2, View.ld_unit_zero (S := S256x2048) hz2, View.ld_unit_zero (S := S256x320) hz2]

theorem accBC_eq (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : cond1 i) (x0 : Vec F S2048x320 .bf16) (x1 : Vec F S256x2048 .bf16) (x2 : Vec F S1x2048 .bf16) (xs0 : Vec F S256x320 .f32) (xs1 : Vec F S1x256 .f32) :
    accBC c i arg1 harg1 arg2 harg2 arg3 harg3 arg4 harg4 arg5 harg5 arg6 harg6 arg7 harg7 hc0 hc1 x0 x1 x2 xs0 xs1 = k0_pay5 x1 x2 xs1 := by
  unfold accBC
  rw [View.read_writes_eq_canon _ _ _ (coverBC c i arg1 harg1 arg2 harg2 arg3 harg3 arg4 harg4 arg5 harg5 arg6 harg6 arg7 harg7 hc0 hc1 x0 x1 x2 xs0 xs1)]
  unfold foldRunC
  dsimp only
  sl_unfold_words
  rw [View.canon_unit_zero hz2]
  simp only [View.readAt_eq_ld, harg2.read_unread, harg3.read_unread, harg7.read_unread, View.ld_unit_zero (S := S1x2048) hz2, View.ld_unit_zero (S := S256x2048) hz2, View.ld_unit_zero (S := S1x256) hz2]

theorem outWC_eq (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : cond1 i) (x0 : Vec F S2048x320 .bf16) (x1 : Vec F S256x2048 .bf16) (x2 : Vec F S1x2048 .bf16) (xs0 : Vec F S256x320 .f32) (xs1 : Vec F S1x256 .f32) :
    outWC c i arg1 harg1 arg2 harg2 arg3 harg3 arg4 harg4 arg5 harg5 arg6 harg6 arg7 harg7 hc0 hc1 x0 x1 x2 xs0 xs1 = k0_pay6 (k0_pay4 x0 x1 xs0) := by
  unfold outWC
  rw [View.read_writes_eq_canon _ _ _ (coverOutW c i arg1 harg1 arg2 harg2 arg3 harg3 arg4 harg4 arg5 harg5 arg6 harg6 arg7 harg7 hc0 hc1 x0 x1 x2 xs0 xs1)]
  unfold foldRunC
  dsimp only
  sl_unfold_words
  rw [View.canon_unit_zero hz2]
  simp only [View.readAt_eq_ld, harg1.read_unread, harg2.read_unread, harg6.read_unread, View.readCov_unit_zero (S := S256x320) _ hz2, View.ld_unit_zero (S := S2048x320) hz2, View.ld_unit_zero (S := S256x2048) hz2, View.ld_unit_zero (S := S256x320) hz2]

theorem outBC_eq (c : Dev nD) (i : grid0.Coords) (arg1 : Memref sig .tc .vmem S2048x320 .bf16) (harg1 : arg1.IsWhole) (arg2 : Memref sig .tc .vmem S256x2048 .bf16) (harg2 : arg2.IsWhole) (arg3 : Memref sig .tc .vmem S1x2048 .bf16) (harg3 : arg3.IsWhole) (arg4 : Memref sig .tc .vmem S256x320 .bf16) (harg4 : arg4.IsWhole) (arg5 : Memref sig .tc .vmem S1x256 .f32) (harg5 : arg5.IsWhole) (arg6 : Memref sig .tc .vmem S256x320 .f32) (harg6 : arg6.IsWhole) (arg7 : Memref sig .tc .vmem S1x256 .f32) (harg7 : arg7.IsWhole) (hc0 : ¬cond0 i) (hc1 : cond1 i) (x0 : Vec F S2048x320 .bf16) (x1 : Vec F S256x2048 .bf16) (x2 : Vec F S1x2048 .bf16) (xs0 : Vec F S256x320 .f32) (xs1 : Vec F S1x256 .f32) :
    outBC c i arg1 harg1 arg2 harg2 arg3 harg3 arg4 harg4 arg5 harg5 arg6 harg6 arg7 harg7 hc0 hc1 x0 x1 x2 xs0 xs1 = k0_pay5 x1 x2 xs1 := by
  unfold outBC
  rw [View.read_writes_eq_canon _ _ _ (coverOutB c i arg1 harg1 arg2 harg2 arg3 harg3 arg4 harg4 arg5 harg5 arg6 harg6 arg7 harg7 hc0 hc1 x0 x1 x2 xs0 xs1)]
  unfold foldRunC
  dsimp only
  sl_unfold_words
  rw [View.canon_unit_zero hz2]
  simp only [View.readAt_eq_ld, harg2.read_unread, harg3.read_unread, harg7.read_unread, View.readCov_unit_zero (S := S1x256) _ hz2, View.ld_unit_zero (S := S1x2048) hz2, View.ld_unit_zero (S := S256x2048) hz2, View.ld_unit_zero (S := S1x256) hz2]

/-! ### The two products' operand indices -/

theorem lhsW_0 (j : S256x320.Idx) (q : dot_S256x2048_S2048x320_S256x320_1_0_0_1_n_n.contr.Idx) : (dot_S256x2048_S2048x320_S256x320_1_0_0_1_n_n.lhsIdx j q 0).val = (j 0).val := by
  unfold DotDims.lhsIdx
  rw [dif_neg (show ¬(0 : Fin S256x2048.rank) ∈ dot_S256x2048_S2048x320_S256x320_1_0_0_1_n_n.lhsBatch by decide), dif_pos (show (0 : Fin S256x2048.rank) ∈ dot_S256x2048_S2048x320_S256x320_1_0_0_1_n_n.lhsNonContracting by decide)]
  rfl
theorem lhsW_1 (j : S256x320.Idx) (q : dot_S256x2048_S2048x320_S256x320_1_0_0_1_n_n.contr.Idx) : (dot_S256x2048_S2048x320_S256x320_1_0_0_1_n_n.lhsIdx j q 1).val = (q ⟨0, by decide⟩).val :=
  dot_S256x2048_S2048x320_S256x320_1_0_0_1_n_n.lhsIdx_val_of_single rfl j q
theorem rhsW_0 (j : S256x320.Idx) (q : dot_S256x2048_S2048x320_S256x320_1_0_0_1_n_n.contr.Idx) : (dot_S256x2048_S2048x320_S256x320_1_0_0_1_n_n.rhsIdx j q 0).val = (q ⟨0, by decide⟩).val :=
  dot_S256x2048_S2048x320_S256x320_1_0_0_1_n_n.rhsIdx_val_of_single rfl j q
theorem rhsW_1 (j : S256x320.Idx) (q : dot_S256x2048_S2048x320_S256x320_1_0_0_1_n_n.contr.Idx) : (dot_S256x2048_S2048x320_S256x320_1_0_0_1_n_n.rhsIdx j q 1).val = (j 1).val := by
  unfold DotDims.rhsIdx
  rw [dif_neg (show ¬(1 : Fin S2048x320.rank) ∈ dot_S256x2048_S2048x320_S256x320_1_0_0_1_n_n.rhsBatch by decide), dif_pos (show (1 : Fin S2048x320.rank) ∈ dot_S256x2048_S2048x320_S256x320_1_0_0_1_n_n.rhsNonContracting by decide)]
  rfl

theorem lhsB_0 (j : S1x256.Idx) (q : dot_S1x2048_S256x2048_S1x256_1_1_0_0_n_n.contr.Idx) : (dot_S1x2048_S256x2048_S1x256_1_1_0_0_n_n.lhsIdx j q 0).val = (j 0).val := by
  unfold DotDims.lhsIdx
  rw [dif_neg (show ¬(0 : Fin S1x2048.rank) ∈ dot_S1x2048_S256x2048_S1x256_1_1_0_0_n_n.lhsBatch by decide), dif_pos (show (0 : Fin S1x2048.rank) ∈ dot_S1x2048_S256x2048_S1x256_1_1_0_0_n_n.lhsNonContracting by decide)]
  rfl
theorem lhsB_1 (j : S1x256.Idx) (q : dot_S1x2048_S256x2048_S1x256_1_1_0_0_n_n.contr.Idx) : (dot_S1x2048_S256x2048_S1x256_1_1_0_0_n_n.lhsIdx j q 1).val = (q ⟨0, by decide⟩).val :=
  dot_S1x2048_S256x2048_S1x256_1_1_0_0_n_n.lhsIdx_val_of_single rfl j q
theorem rhsB_0 (j : S1x256.Idx) (q : dot_S1x2048_S256x2048_S1x256_1_1_0_0_n_n.contr.Idx) : (dot_S1x2048_S256x2048_S1x256_1_1_0_0_n_n.rhsIdx j q 0).val = (j 1).val := by
  unfold DotDims.rhsIdx
  rw [dif_neg (show ¬(0 : Fin S256x2048.rank) ∈ dot_S1x2048_S256x2048_S1x256_1_1_0_0_n_n.rhsBatch by decide), dif_pos (show (0 : Fin S256x2048.rank) ∈ dot_S1x2048_S256x2048_S1x256_1_1_0_0_n_n.rhsNonContracting by decide)]
  rfl
theorem rhsB_1 (j : S1x256.Idx) (q : dot_S1x2048_S256x2048_S1x256_1_1_0_0_n_n.contr.Idx) : (dot_S1x2048_S256x2048_S1x256_1_1_0_0_n_n.rhsIdx j q 1).val = (q ⟨0, by decide⟩).val :=
  dot_S1x2048_S256x2048_S1x256_1_1_0_0_n_n.rhsIdx_val_of_single rfl j q

/-! ### The payloads read at an index, on the extended reals -/

/-- The reset stores zeros. -/
theorem pay1_apply (j : S256x320.Idx) : (k0_pay1 (F := Ideal) j : EReal) = 0 := by
  unfold k0_pay1
  simp only [shapeCast_self]
  exact Ideal.ofBits_zero_f32
theorem pay2_apply (j : S1x256.Idx) : (k0_pay2 (F := Ideal) j : EReal) = 0 := by
  unfold k0_pay2
  simp only [shapeCast_self]
  exact Ideal.ofBits_zero_f32

/-- The accumulator plus the tile's product of C with the folded B. -/
theorem pay4_apply (x0 : S2048x320.Idx → EReal) (x1 : S256x2048.Idx → EReal) (acc : S256x320.Idx → EReal) (o : Fin 256) (k : Fin 320) :
    (k0_pay4 (F := Ideal) x0 x1 acc (ix2 o k) : EReal) = acc (ix2 o k) + ∑ jj : Fin 2048, x1 (ix2 o jj) * x0 (ix2 jj k) := by
  have e : k0_pay4 (F := Ideal) x0 x1 acc
      = addf (F := Ideal) (φ := .f32) acc (matmul (F := Ideal) (φ₁ := .bf16) (φ₂ := .bf16) dot_S256x2048_S2048x320_S256x320_1_0_0_1_n_n none x1 x0 (constant S256x320 .f32 0x00000000#32)) := by
    unfold k0_pay4 k0_pay3
    simp only [shapeCast_self]
  rw [e]
  show acc (ix2 o k) + FloatOps.matmul (F := Ideal) (φ₁ := .bf16) (φ₂ := .bf16) dot_S256x2048_S2048x320_S256x320_1_0_0_1_n_n none x1 x0 (constant S256x320 .f32 0x00000000#32) (ix2 o k) = _
  rw [Ideal.matmul_constant_zero_apply, ← Equiv.sum_comp (ValueIdx.contrEquiv1 dot_S256x2048_S2048x320_S256x320_1_0_0_1_n_n 2048 rfl rfl).symm]
  congr 1
  refine Finset.sum_congr rfl fun jj _ => ?_
  have hk := ValueIdx.contrEquiv1_symm_val dot_S256x2048_S2048x320_S256x320_1_0_0_1_n_n 2048 rfl rfl jj
  have el : dot_S256x2048_S2048x320_S256x320_1_0_0_1_n_n.lhsIdx (ix2 o k) ((ValueIdx.contrEquiv1 dot_S256x2048_S2048x320_S256x320_1_0_0_1_n_n 2048 rfl rfl).symm jj) = ix2 o jj := funext fun a => Fin.ext (by
    match a with
    | ⟨0, _⟩ => exact lhsW_0 _ _
    | ⟨1, _⟩ => exact (lhsW_1 _ _).trans hk)
  have er : dot_S256x2048_S2048x320_S256x320_1_0_0_1_n_n.rhsIdx (ix2 o k) ((ValueIdx.contrEquiv1 dot_S256x2048_S2048x320_S256x320_1_0_0_1_n_n 2048 rfl rfl).symm jj) = ix2 jj k := funext fun a => Fin.ext (by
    match a with
    | ⟨0, _⟩ => exact (rhsW_0 _ _).trans hk
    | ⟨1, _⟩ => exact rhsW_1 _ _)
  rw [el, er]

/-- The accumulator plus the tile's product of the rotated state with C. -/
theorem pay5_apply (x1 : S256x2048.Idx → EReal) (x2 : S1x2048.Idx → EReal) (acc : S1x256.Idx → EReal) (o : Fin 256) :
    (k0_pay5 (F := Ideal) x1 x2 acc (ix2 0 o) : EReal) = acc (ix2 0 o) + ∑ jj : Fin 2048, x2 (ix2 0 jj) * x1 (ix2 o jj) := by
  have e : k0_pay5 (F := Ideal) x1 x2 acc
      = addf (F := Ideal) (φ := .f32) acc (matmul (F := Ideal) (φ₁ := .bf16) (φ₂ := .bf16) dot_S1x2048_S256x2048_S1x256_1_1_0_0_n_n none x2 x1 (constant S1x256 .f32 0x00000000#32)) := by
    unfold k0_pay5 k0_pay3
    simp only [shapeCast_self]
  rw [e]
  show acc (ix2 0 o) + FloatOps.matmul (F := Ideal) (φ₁ := .bf16) (φ₂ := .bf16) dot_S1x2048_S256x2048_S1x256_1_1_0_0_n_n none x2 x1 (constant S1x256 .f32 0x00000000#32) (ix2 0 o) = _
  rw [Ideal.matmul_constant_zero_apply, ← Equiv.sum_comp (ValueIdx.contrEquiv1 dot_S1x2048_S256x2048_S1x256_1_1_0_0_n_n 2048 rfl rfl).symm]
  congr 1
  refine Finset.sum_congr rfl fun jj _ => ?_
  have hk := ValueIdx.contrEquiv1_symm_val dot_S1x2048_S256x2048_S1x256_1_1_0_0_n_n 2048 rfl rfl jj
  have el : dot_S1x2048_S256x2048_S1x256_1_1_0_0_n_n.lhsIdx (ix2 0 o) ((ValueIdx.contrEquiv1 dot_S1x2048_S256x2048_S1x256_1_1_0_0_n_n 2048 rfl rfl).symm jj) = ix2 0 jj := funext fun a => Fin.ext (by
    match a with
    | ⟨0, _⟩ => exact lhsB_0 _ _
    | ⟨1, _⟩ => exact (lhsB_1 _ _).trans hk)
  have er : dot_S1x2048_S256x2048_S1x256_1_1_0_0_n_n.rhsIdx (ix2 0 o) ((ValueIdx.contrEquiv1 dot_S1x2048_S256x2048_S1x256_1_1_0_0_n_n 2048 rfl rfl).symm jj) = ix2 o jj := funext fun a => Fin.ext (by
    match a with
    | ⟨0, _⟩ => exact rhsB_0 _ _
    | ⟨1, _⟩ => exact (rhsB_1 _ _).trans hk)
  rw [el, er]

/-- The change of float format is the identity on the extended reals. -/
theorem pay6_apply (v : S256x320.Idx → EReal) (j : S256x320.Idx) : (k0_pay6 (F := Ideal) v j : EReal) = v j := rfl

/-! ### The input blocks, read at their array indices -/

/-- The folded B's block at point t holds rows 2048·t + jj. -/
theorem blk0_apply (V : (c : Dev nD) → (b : Ref sig .tc) → Buf (Elt Ideal) ((c : Thread nD τ).loc b)) (c : Dev nD) (t : Fin cfg0.N) (q : Fin 4) (hq : q.val = t.val) (jj : Fin 2048) (k : Fin 320) :
    (fblk V c 0 t : S2048x320.Idx → EReal) (ix2 jj k) = (V c main_v58 : S8192x320.Idx → EReal) (ix2 (tl q jj) k) := by
  have hi : win0_0.index t 0 = t.val ∧ win0_0.index t 1 = 0 := by
    rcases fin_N0 t with rfl | rfl | rfl | rfl <;> decide
  unfold fblk
  rw [View.read_apply]
  show V c main_v58 _ = V c main_v58 _
  congr 1
  funext a
  apply Fin.ext
  match a with
  | ⟨0, _⟩ => show win0_0.index t 0 * 2048 + 1 * jj.val = 2048 * q.val + jj.val; rw [hi.1, hq]; omega
  | ⟨1, _⟩ => show win0_0.index t 1 * 320 + 1 * k.val = k.val; rw [hi.2]; omega

/-- C's block at point t holds columns 2048·t + jj. -/
theorem blk1_apply (V : (c : Dev nD) → (b : Ref sig .tc) → Buf (Elt Ideal) ((c : Thread nD τ).loc b)) (c : Dev nD) (t : Fin cfg0.N) (q : Fin 4) (hq : q.val = t.val) (o : Fin 256) (jj : Fin 2048) :
    (fblk V c 1 t : S256x2048.Idx → EReal) (ix2 o jj) = (V c main_v59 : S256x8192.Idx → EReal) (ix2 o (tl q jj)) := by
  have hi : win0_1.index t 0 = 0 ∧ win0_1.index t 1 = t.val := by
    rcases fin_N0 t with rfl | rfl | rfl | rfl <;> decide
  unfold fblk
  rw [View.read_apply]
  show V c main_v59 _ = V c main_v59 _
  congr 1
  funext a
  apply Fin.ext
  match a with
  | ⟨0, _⟩ => show win0_1.index t 0 * 256 + 1 * o.val = o.val; rw [hi.1]; omega
  | ⟨1, _⟩ => show win0_1.index t 1 * 2048 + 1 * jj.val = 2048 * q.val + jj.val; rw [hi.2, hq]; omega

/-- The rotated state's block at point t likewise. -/
theorem blk2_apply (V : (c : Dev nD) → (b : Ref sig .tc) → Buf (Elt Ideal) ((c : Thread nD τ).loc b)) (c : Dev nD) (t : Fin cfg0.N) (q : Fin 4) (hq : q.val = t.val) (jj : Fin 2048) :
    (fblk V c 2 t : S1x2048.Idx → EReal) (ix2 0 jj) = (V c main_v60 : S1x8192.Idx → EReal) (ix2 0 (tl q jj)) := by
  have hi : win0_2.index t 0 = 0 ∧ win0_2.index t 1 = t.val := by
    rcases fin_N0 t with rfl | rfl | rfl | rfl <;> decide
  unfold fblk
  rw [View.read_apply]
  show V c main_v60 _ = V c main_v60 _
  congr 1
  funext a
  apply Fin.ext
  match a with
  | ⟨0, _⟩ => show win0_2.index t 0 * 1 + 1 * 0 = 0; rw [hi.1]
  | ⟨1, _⟩ => show win0_2.index t 1 * 2048 + 1 * jj.val = 2048 * q.val + jj.val; rw [hi.2, hq]; omega

/-! ### The accumulators after each point -/

/-- The two accumulators after point n, as arrays of extended reals; and their being the same at equal points. -/
def accWat (V : (c : Dev nD) → (b : Ref sig .tc) → Buf (Elt Ideal) ((c : Thread nD τ).loc b)) (c : Dev nD) (n : ℕ) (hn : n < cfg0.N) : S256x320.Idx → EReal := (outsAt V c n hn).2.2.1
def accBat (V : (c : Dev nD) → (b : Ref sig .tc) → Buf (Elt Ideal) ((c : Thread nD τ).loc b)) (c : Dev nD) (n : ℕ) (hn : n < cfg0.N) : S1x256.Idx → EReal := (outsAt V c n hn).2.2.2
/-- The two outputs' staging buffers after point n. -/
def outWat (V : (c : Dev nD) → (b : Ref sig .tc) → Buf (Elt Ideal) ((c : Thread nD τ).loc b)) (c : Dev nD) (n : ℕ) (hn : n < cfg0.N) : S256x320.Idx → EReal := (outsAt V c n hn).1
def outBat (V : (c : Dev nD) → (b : Ref sig .tc) → Buf (Elt Ideal) ((c : Thread nD τ).loc b)) (c : Dev nD) (n : ℕ) (hn : n < cfg0.N) : S1x256.Idx → EReal := (outsAt V c n hn).2.1

theorem accWat_congr (V : (c : Dev nD) → (b : Ref sig .tc) → Buf (Elt Ideal) ((c : Thread nD τ).loc b)) (c : Dev nD) (n m : ℕ) (hn : n < cfg0.N) (hm : m < cfg0.N) (e : n = m) :
    accWat V c n hn = accWat V c m hm := by subst e; rfl
theorem accBat_congr (V : (c : Dev nD) → (b : Ref sig .tc) → Buf (Elt Ideal) ((c : Thread nD τ).loc b)) (c : Dev nD) (n m : ℕ) (hn : n < cfg0.N) (hm : m < cfg0.N) (e : n = m) :
    accBat V c n hn = accBat V c m hm := by subst e; rfl

theorem outWat_congr (V : (c : Dev nD) → (b : Ref sig .tc) → Buf (Elt Ideal) ((c : Thread nD τ).loc b)) (c : Dev nD) (n m : ℕ) (hn : n < cfg0.N) (hm : m < cfg0.N) (e : n = m) :
    outWat V c n hn = outWat V c m hm := by subst e; rfl
theorem outBat_congr (V : (c : Dev nD) → (b : Ref sig .tc) → Buf (Elt Ideal) ((c : Thread nD τ).loc b)) (c : Dev nD) (n m : ℕ) (hn : n < cfg0.N) (hm : m < cfg0.N) (e : n = m) :
    outBat V c n hn = outBat V c m hm := by subst e; rfl

theorem accW_first (V : (c : Dev nD) → (b : Ref sig .tc) → Buf (Elt Ideal) ((c : Thread nD τ).loc b)) (c : Dev nD) (t : Fin cfg0.N) (h0 : t.val % 4 = 0) (h1 : ¬t.val % 4 = 3) :
    accWat V c t.val t.isLt = k0_pay4 (F := Ideal) (fblk V c 0 t) (fblk V c 1 t) (k0_pay1 (F := Ideal)) := by
  unfold accWat
  rw [outsAt_A V c t h0 h1]
  dsimp only
  exact accWA_eq (F := Ideal) c (grid0.coords t) (fm0 t) (fh0 t) (fm1 t) (fh1 t) (fm2 t) (fh2 t) (fm3 t) (fh3 t) (fm4 t) (fh4 t) accM (Memref.isWhole_whole _) acbM (Memref.isWhole_whole _) ((hcond0 t).mpr h0) (fun h => h1 ((hcond1 t).mp h)) (fblk V c 0 t) (fblk V c 1 t) (fblk V c 2 t)

theorem accB_first (V : (c : Dev nD) → (b : Ref sig .tc) → Buf (Elt Ideal) ((c : Thread nD τ).loc b)) (c : Dev nD) (t : Fin cfg0.N) (h0 : t.val % 4 = 0) (h1 : ¬t.val % 4 = 3) :
    accBat V c t.val t.isLt = k0_pay5 (F := Ideal) (fblk V c 1 t) (fblk V c 2 t) (k0_pay2 (F := Ideal)) := by
  unfold accBat
  rw [outsAt_A V c t h0 h1]
  dsimp only
  exact accBA_eq (F := Ideal) c (grid0.coords t) (fm0 t) (fh0 t) (fm1 t) (fh1 t) (fm2 t) (fh2 t) (fm3 t) (fh3 t) (fm4 t) (fh4 t) accM (Memref.isWhole_whole _) acbM (Memref.isWhole_whole _) ((hcond0 t).mpr h0) (fun h => h1 ((hcond1 t).mp h)) (fblk V c 0 t) (fblk V c 1 t) (fblk V c 2 t)

theorem accW_mid (V : (c : Dev nD) → (b : Ref sig .tc) → Buf (Elt Ideal) ((c : Thread nD τ).loc b)) (c : Dev nD) (t : Fin cfg0.N) (h0 : ¬t.val % 4 = 0) (h1 : ¬t.val % 4 = 3) :
    accWat V c t.val t.isLt = k0_pay4 (F := Ideal) (fblk V c 0 t) (fblk V c 1 t) (accWat V c (t.val - 1) (prevLt t)) := by
  unfold accWat
  rw [outsAt_B V c t h0 h1]
  dsimp only
  exact accWB_eq (F := Ideal) c (grid0.coords t) (fm0 t) (fh0 t) (fm1 t) (fh1 t) (fm2 t) (fh2 t) (fm3 t) (fh3 t) (fm4 t) (fh4 t) accM (Memref.isWhole_whole _) acbM (Memref.isWhole_whole _) (fun h => h0 ((hcond0 t).mp h)) (fun h => h1 ((hcond1 t).mp h)) (fblk V c 0 t) (fblk V c 1 t) (fblk V c 2 t) (outsAt V c (t.val - 1) (prevLt t)).2.2.1 (outsAt V c (t.val - 1) (prevLt t)).2.2.2

theorem accB_mid (V : (c : Dev nD) → (b : Ref sig .tc) → Buf (Elt Ideal) ((c : Thread nD τ).loc b)) (c : Dev nD) (t : Fin cfg0.N) (h0 : ¬t.val % 4 = 0) (h1 : ¬t.val % 4 = 3) :
    accBat V c t.val t.isLt = k0_pay5 (F := Ideal) (fblk V c 1 t) (fblk V c 2 t) (accBat V c (t.val - 1) (prevLt t)) := by
  unfold accBat
  rw [outsAt_B V c t h0 h1]
  dsimp only
  exact accBB_eq (F := Ideal) c (grid0.coords t) (fm0 t) (fh0 t) (fm1 t) (fh1 t) (fm2 t) (fh2 t) (fm3 t) (fh3 t) (fm4 t) (fh4 t) accM (Memref.isWhole_whole _) acbM (Memref.isWhole_whole _) (fun h => h0 ((hcond0 t).mp h)) (fun h => h1 ((hcond1 t).mp h)) (fblk V c 0 t) (fblk V c 1 t) (fblk V c 2 t) (outsAt V c (t.val - 1) (prevLt t)).2.2.1 (outsAt V c (t.val - 1) (prevLt t)).2.2.2

/-- What the last point copies out. -/
theorem outW_last (V : (c : Dev nD) → (b : Ref sig .tc) → Buf (Elt Ideal) ((c : Thread nD τ).loc b)) (c : Dev nD) (t : Fin cfg0.N) (h0 : ¬t.val % 4 = 0) (h1 : t.val % 4 = 3) :
    outWat V c t.val t.isLt
      = k0_pay6 (F := Ideal) (k0_pay4 (F := Ideal) (fblk V c 0 t) (fblk V c 1 t) (accWat V c (t.val - 1) (prevLt t))) := by
  unfold accWat outWat
  rw [outsAt_C V c t h0 h1]
  dsimp only
  exact outWC_eq (F := Ideal) c (grid0.coords t) (fm0 t) (fh0 t) (fm1 t) (fh1 t) (fm2 t) (fh2 t) (fm3 t) (fh3 t) (fm4 t) (fh4 t) accM (Memref.isWhole_whole _) acbM (Memref.isWhole_whole _) (fun h => h0 ((hcond0 t).mp h)) ((hcond1 t).mpr h1) (fblk V c 0 t) (fblk V c 1 t) (fblk V c 2 t) (outsAt V c (t.val - 1) (prevLt t)).2.2.1 (outsAt V c (t.val - 1) (prevLt t)).2.2.2

theorem outB_last (V : (c : Dev nD) → (b : Ref sig .tc) → Buf (Elt Ideal) ((c : Thread nD τ).loc b)) (c : Dev nD) (t : Fin cfg0.N) (h0 : ¬t.val % 4 = 0) (h1 : t.val % 4 = 3) :
    outBat V c t.val t.isLt
      = k0_pay5 (F := Ideal) (fblk V c 1 t) (fblk V c 2 t) (accBat V c (t.val - 1) (prevLt t)) := by
  unfold accBat outBat
  rw [outsAt_C V c t h0 h1]
  dsimp only
  exact outBC_eq (F := Ideal) c (grid0.coords t) (fm0 t) (fh0 t) (fm1 t) (fh1 t) (fm2 t) (fh2 t) (fm3 t) (fh3 t) (fm4 t) (fh4 t) accM (Memref.isWhole_whole _) acbM (Memref.isWhole_whole _) (fun h => h0 ((hcond0 t).mp h)) ((hcond1 t).mpr h1) (fblk V c 0 t) (fblk V c 1 t) (fblk V c 2 t) (outsAt V c (t.val - 1) (prevLt t)).2.2.1 (outsAt V c (t.val - 1) (prevLt t)).2.2.2

/-! ### One point's step, and the four points in order -/

/-- A point's update of the first accumulator at an index: what it held plus the tile's sum. -/
theorem stepW (V : (c : Dev nD) → (b : Ref sig .tc) → Buf (Elt Ideal) ((c : Thread nD τ).loc b)) (c : Dev nD) (Be : A2 8192 320) (Cw : A2 256 8192) (Rc : A2 1 8192)
    (hBe : (V c main_v58 : S8192x320.Idx → EReal) = Be) (hC : (V c main_v59 : S256x8192.Idx → EReal) = Cw)
    (hR : (V c main_v60 : S1x8192.Idx → EReal) = Rc) (t : Fin cfg0.N) (q : Fin 4) (hq : q.val = t.val)
    (acc : S256x320.Idx → EReal) (o : Fin 256) (k : Fin 320) :
    (k0_pay4 (F := Ideal) (fblk V c 0 t) (fblk V c 1 t) acc (ix2 o k) : EReal) = acc (ix2 o k) + (∑ jj : Fin 2048, Cw (ix2 o (tl q jj)) * Be (ix2 (tl q jj) k)) := by
  refine (pay4_apply (fblk V c 0 t) (fblk V c 1 t) acc o k).trans ?_
  congr 1
  refine Finset.sum_congr rfl fun jj _ => ?_
  rw [blk1_apply V c t q hq o jj, blk0_apply V c t q hq jj k, hBe, hC]

/-- A point's update of the second accumulator at an index. -/
theorem stepB (V : (c : Dev nD) → (b : Ref sig .tc) → Buf (Elt Ideal) ((c : Thread nD τ).loc b)) (c : Dev nD) (Be : A2 8192 320) (Cw : A2 256 8192) (Rc : A2 1 8192)
    (hBe : (V c main_v58 : S8192x320.Idx → EReal) = Be) (hC : (V c main_v59 : S256x8192.Idx → EReal) = Cw)
    (hR : (V c main_v60 : S1x8192.Idx → EReal) = Rc) (t : Fin cfg0.N) (q : Fin 4) (hq : q.val = t.val)
    (acc : S1x256.Idx → EReal) (o : Fin 256) :
    (k0_pay5 (F := Ideal) (fblk V c 1 t) (fblk V c 2 t) acc (ix2 0 o) : EReal) = acc (ix2 0 o) + (∑ jj : Fin 2048, Rc (ix2 0 (tl q jj)) * Cw (ix2 o (tl q jj))) := by
  refine (pay5_apply (fblk V c 1 t) (fblk V c 2 t) acc o).trans ?_
  congr 1
  refine Finset.sum_congr rfl fun jj _ => ?_
  rw [blk2_apply V c t q hq jj, blk1_apply V c t q hq o jj, hR, hC]

theorem accW_at0 (V : (c : Dev nD) → (b : Ref sig .tc) → Buf (Elt Ideal) ((c : Thread nD τ).loc b)) (c : Dev nD) (Be : A2 8192 320) (Cw : A2 256 8192) (Rc : A2 1 8192)
    (hBe : (V c main_v58 : S8192x320.Idx → EReal) = Be) (hC : (V c main_v59 : S256x8192.Idx → EReal) = Cw)
    (hR : (V c main_v60 : S1x8192.Idx → EReal) = Rc) (h : 0 < cfg0.N) (o : Fin 256) (k : Fin 320) :
    accWat V c 0 h (ix2 o k) = (∑ jj : Fin 2048, Cw (ix2 o (tl 0 jj)) * Be (ix2 (tl 0 jj) k)) := by
  rw [accWat_congr V c 0 t0_0.val h t0_0.isLt rfl, accW_first V c t0_0 (by decide) (by decide),
    stepW V c Be Cw Rc hBe hC hR t0_0 0 rfl, pay1_apply, zero_add]

theorem accW_at1 (V : (c : Dev nD) → (b : Ref sig .tc) → Buf (Elt Ideal) ((c : Thread nD τ).loc b)) (c : Dev nD) (Be : A2 8192 320) (Cw : A2 256 8192) (Rc : A2 1 8192)
    (hBe : (V c main_v58 : S8192x320.Idx → EReal) = Be) (hC : (V c main_v59 : S256x8192.Idx → EReal) = Cw)
    (hR : (V c main_v60 : S1x8192.Idx → EReal) = Rc) (h : 1 < cfg0.N) (o : Fin 256) (k : Fin 320) :
    accWat V c 1 h (ix2 o k) = (∑ jj : Fin 2048, Cw (ix2 o (tl 0 jj)) * Be (ix2 (tl 0 jj) k)) + (∑ jj : Fin 2048, Cw (ix2 o (tl 1 jj)) * Be (ix2 (tl 1 jj) k)) := by
  rw [accWat_congr V c 1 t0_1.val h t0_1.isLt rfl, accW_mid V c t0_1 (by decide) (by decide),
    stepW V c Be Cw Rc hBe hC hR t0_1 1 rfl, accWat_congr V c (t0_1.val - 1) 0 (prevLt t0_1) (Nat.lt_of_succ_lt h) rfl,
    accW_at0 V c Be Cw Rc hBe hC hR]

theorem accW_at2 (V : (c : Dev nD) → (b : Ref sig .tc) → Buf (Elt Ideal) ((c : Thread nD τ).loc b)) (c : Dev nD) (Be : A2 8192 320) (Cw : A2 256 8192) (Rc : A2 1 8192)
    (hBe : (V c main_v58 : S8192x320.Idx → EReal) = Be) (hC : (V c main_v59 : S256x8192.Idx → EReal) = Cw)
    (hR : (V c main_v60 : S1x8192.Idx → EReal) = Rc) (h : 2 < cfg0.N) (o : Fin 256) (k : Fin 320) :
    accWat V c 2 h (ix2 o k) = (∑ jj : Fin 2048, Cw (ix2 o (tl 0 jj)) * Be (ix2 (tl 0 jj) k)) + (∑ jj : Fin 2048, Cw (ix2 o (tl 1 jj)) * Be (ix2 (tl 1 jj) k)) + (∑ jj : Fin 2048, Cw (ix2 o (tl 2 jj)) * Be (ix2 (tl 2 jj) k)) := by
  rw [accWat_congr V c 2 t0_2.val h t0_2.isLt rfl, accW_mid V c t0_2 (by decide) (by decide),
    stepW V c Be Cw Rc hBe hC hR t0_2 2 rfl, accWat_congr V c (t0_2.val - 1) 1 (prevLt t0_2) (Nat.lt_of_succ_lt h) rfl,
    accW_at1 V c Be Cw Rc hBe hC hR]

theorem outW_at3 (V : (c : Dev nD) → (b : Ref sig .tc) → Buf (Elt Ideal) ((c : Thread nD τ).loc b)) (c : Dev nD) (Be : A2 8192 320) (Cw : A2 256 8192) (Rc : A2 1 8192)
    (hBe : (V c main_v58 : S8192x320.Idx → EReal) = Be) (hC : (V c main_v59 : S256x8192.Idx → EReal) = Cw)
    (hR : (V c main_v60 : S1x8192.Idx → EReal) = Rc) (h : 3 < cfg0.N) (o : Fin 256) (k : Fin 320) :
    outWat V c 3 h (ix2 o k) = (∑ jj : Fin 2048, Cw (ix2 o (tl 0 jj)) * Be (ix2 (tl 0 jj) k)) + (∑ jj : Fin 2048, Cw (ix2 o (tl 1 jj)) * Be (ix2 (tl 1 jj) k)) + (∑ jj : Fin 2048, Cw (ix2 o (tl 2 jj)) * Be (ix2 (tl 2 jj) k)) + (∑ jj : Fin 2048, Cw (ix2 o (tl 3 jj)) * Be (ix2 (tl 3 jj) k)) := by
  rw [outWat_congr V c 3 t0_3.val h t0_3.isLt rfl, outW_last V c t0_3 (by decide) (by decide), pay6_apply,
    stepW V c Be Cw Rc hBe hC hR t0_3 3 rfl, accWat_congr V c (t0_3.val - 1) 2 (prevLt t0_3) (Nat.lt_of_succ_lt h) rfl,
    accW_at2 V c Be Cw Rc hBe hC hR]

theorem accB_at0 (V : (c : Dev nD) → (b : Ref sig .tc) → Buf (Elt Ideal) ((c : Thread nD τ).loc b)) (c : Dev nD) (Be : A2 8192 320) (Cw : A2 256 8192) (Rc : A2 1 8192)
    (hBe : (V c main_v58 : S8192x320.Idx → EReal) = Be) (hC : (V c main_v59 : S256x8192.Idx → EReal) = Cw)
    (hR : (V c main_v60 : S1x8192.Idx → EReal) = Rc) (h : 0 < cfg0.N) (o : Fin 256) :
    accBat V c 0 h (ix2 0 o) = (∑ jj : Fin 2048, Rc (ix2 0 (tl 0 jj)) * Cw (ix2 o (tl 0 jj))) := by
  rw [accBat_congr V c 0 t0_0.val h t0_0.isLt rfl, accB_first V c t0_0 (by decide) (by decide),
    stepB V c Be Cw Rc hBe hC hR t0_0 0 rfl, pay2_apply, zero_add]

theorem accB_at1 (V : (c : Dev nD) → (b : Ref sig .tc) → Buf (Elt Ideal) ((c : Thread nD τ).loc b)) (c : Dev nD) (Be : A2 8192 320) (Cw : A2 256 8192) (Rc : A2 1 8192)
    (hBe : (V c main_v58 : S8192x320.Idx → EReal) = Be) (hC : (V c main_v59 : S256x8192.Idx → EReal) = Cw)
    (hR : (V c main_v60 : S1x8192.Idx → EReal) = Rc) (h : 1 < cfg0.N) (o : Fin 256) :
    accBat V c 1 h (ix2 0 o) = (∑ jj : Fin 2048, Rc (ix2 0 (tl 0 jj)) * Cw (ix2 o (tl 0 jj))) + (∑ jj : Fin 2048, Rc (ix2 0 (tl 1 jj)) * Cw (ix2 o (tl 1 jj))) := by
  rw [accBat_congr V c 1 t0_1.val h t0_1.isLt rfl, accB_mid V c t0_1 (by decide) (by decide),
    stepB V c Be Cw Rc hBe hC hR t0_1 1 rfl, accBat_congr V c (t0_1.val - 1) 0 (prevLt t0_1) (Nat.lt_of_succ_lt h) rfl,
    accB_at0 V c Be Cw Rc hBe hC hR]

theorem accB_at2 (V : (c : Dev nD) → (b : Ref sig .tc) → Buf (Elt Ideal) ((c : Thread nD τ).loc b)) (c : Dev nD) (Be : A2 8192 320) (Cw : A2 256 8192) (Rc : A2 1 8192)
    (hBe : (V c main_v58 : S8192x320.Idx → EReal) = Be) (hC : (V c main_v59 : S256x8192.Idx → EReal) = Cw)
    (hR : (V c main_v60 : S1x8192.Idx → EReal) = Rc) (h : 2 < cfg0.N) (o : Fin 256) :
    accBat V c 2 h (ix2 0 o) = (∑ jj : Fin 2048, Rc (ix2 0 (tl 0 jj)) * Cw (ix2 o (tl 0 jj))) + (∑ jj : Fin 2048, Rc (ix2 0 (tl 1 jj)) * Cw (ix2 o (tl 1 jj))) + (∑ jj : Fin 2048, Rc (ix2 0 (tl 2 jj)) * Cw (ix2 o (tl 2 jj))) := by
  rw [accBat_congr V c 2 t0_2.val h t0_2.isLt rfl, accB_mid V c t0_2 (by decide) (by decide),
    stepB V c Be Cw Rc hBe hC hR t0_2 2 rfl, accBat_congr V c (t0_2.val - 1) 1 (prevLt t0_2) (Nat.lt_of_succ_lt h) rfl,
    accB_at1 V c Be Cw Rc hBe hC hR]

theorem outB_at3 (V : (c : Dev nD) → (b : Ref sig .tc) → Buf (Elt Ideal) ((c : Thread nD τ).loc b)) (c : Dev nD) (Be : A2 8192 320) (Cw : A2 256 8192) (Rc : A2 1 8192)
    (hBe : (V c main_v58 : S8192x320.Idx → EReal) = Be) (hC : (V c main_v59 : S256x8192.Idx → EReal) = Cw)
    (hR : (V c main_v60 : S1x8192.Idx → EReal) = Rc) (h : 3 < cfg0.N) (o : Fin 256) :
    outBat V c 3 h (ix2 0 o) = (∑ jj : Fin 2048, Rc (ix2 0 (tl 0 jj)) * Cw (ix2 o (tl 0 jj))) + (∑ jj : Fin 2048, Rc (ix2 0 (tl 1 jj)) * Cw (ix2 o (tl 1 jj))) + (∑ jj : Fin 2048, Rc (ix2 0 (tl 2 jj)) * Cw (ix2 o (tl 2 jj))) + (∑ jj : Fin 2048, Rc (ix2 0 (tl 3 jj)) * Cw (ix2 o (tl 3 jj))) := by
  rw [outBat_congr V c 3 t0_3.val h t0_3.isLt rfl, outB_last V c t0_3 (by decide) (by decide),
    stepB V c Be Cw Rc hBe hC hR t0_3 3 rfl, accBat_congr V c (t0_3.val - 1) 2 (prevLt t0_3) (Nat.lt_of_succ_lt h) rfl,
    accB_at2 V c Be Cw Rc hBe hC hR]

/-! ### The one write-back, and the arrays -/

/-- The last point writes the first output's staging buffer back; its block is the whole array. -/
theorem flushedW_eq (V : (c : Dev nD) → (b : Ref sig .tc) → Buf (Elt Ideal) ((c : Thread nD τ).loc b)) (c : Dev nD) (G : Buf (Elt Ideal) ((c : Thread nD τ).loc main_v62_0))
    (hG : ∀ h : 3 < cfg0.N, outWat V c 3 h = G) (t : Fin cfg0.N) (hf : (cfg0.win 3).flush t = true) :
    (datF V c).flushed 3 t = ((cfg0.win 3).blk t).view.read (Elt Ideal) G := by
  have hN : cfg0.N = 4 := N_0
  have h3 : t.val = 3 := by have := (flush0_3 t).mp hf; have := t.isLt; omega
  obtain rfl : t = t0_3 := Fin.ext h3
  show (cfg0.win 3).cut (grid0.coords t0_3) ((datF V c).after 3 t0_3) = _
  rw [afterF3]
  rw [show (outsAt V c t0_3.val t0_3.isLt).1 = G from (outWat_congr V c t0_3.val 3 t0_3.isLt t0_3.isLt rfl).trans (hG t0_3.isLt)]
  have hz' : (fun a => win0_3.index t0_3 a * main_v62_0.ty.shape.size a) = fun _ => 0 := funext fun a => by fin_cases a <;> decide
  exact (Memref.read_access_unit_zero (Elt Ideal) main_v62_0 hz' (fun a => by rw [congrFun hz' a]; simp) G).symm

theorem flushedB_eq (V : (c : Dev nD) → (b : Ref sig .tc) → Buf (Elt Ideal) ((c : Thread nD τ).loc b)) (c : Dev nD) (G : Buf (Elt Ideal) ((c : Thread nD τ).loc main_v62_1))
    (hG : ∀ h : 3 < cfg0.N, outBat V c 3 h = G) (t : Fin cfg0.N) (hf : (cfg0.win 4).flush t = true) :
    (datF V c).flushed 4 t = ((cfg0.win 4).blk t).view.read (Elt Ideal) G := by
  have hN : cfg0.N = 4 := N_0
  have h3 : t.val = 3 := by have := (flush0_4 t).mp hf; have := t.isLt; omega
  obtain rfl : t = t0_3 := Fin.ext h3
  show (cfg0.win 4).cut (grid0.coords t0_3) ((datF V c).after 4 t0_3) = _
  rw [afterF4]
  rw [show (outsAt V c t0_3.val t0_3.isLt).2.1 = G from (outBat_congr V c t0_3.val 3 t0_3.isLt t0_3.isLt rfl).trans (hG t0_3.isLt)]
  have hz' : (fun a => win0_4.index t0_3 a * main_v62_1.ty.shape.size a) = fun _ => 0 := funext fun a => by fin_cases a <;> decide
  exact (Memref.read_access_unit_zero (Elt Ideal) main_v62_1 hz' (fun a => by rw [congrFun hz' a]; simp) G).symm

theorem cover3 (i : S256x320.Idx) : ∃ t : Fin cfg0.N, (cfg0.win 3).flush t = true ∧ i ∈ ((cfg0.win 3).blk t).view.set := by
  have h0 : (i 0 : Nat) < 256 := (i 0).isLt
  have h1 : (i 1 : Nat) < 320 := (i 1).isLt
  refine ⟨t0_3, (flush0_3 t0_3).mpr rfl, ?_⟩
  show i ∈ ((View.whole main_v62_0).slice (win0_3.rect t0_3)).set
  rw [View.set_slice_whole, Rect.mem_set_unit]
  intro a
  match a with
  | ⟨0, _⟩ => show win0_3.index t0_3 0 * win0_3.size 0 ≤ (i 0 : Nat) ∧ (i 0 : Nat) < win0_3.index t0_3 0 * win0_3.size 0 + win0_3.xsize (grid0.coords t0_3) 0
              rw [show win0_3.index t0_3 0 * win0_3.size 0 = 0 from by decide +kernel, show win0_3.xsize (grid0.coords t0_3) 0 = 256 from by decide +kernel]; omega
  | ⟨1, _⟩ => show win0_3.index t0_3 1 * win0_3.size 1 ≤ (i 1 : Nat) ∧ (i 1 : Nat) < win0_3.index t0_3 1 * win0_3.size 1 + win0_3.xsize (grid0.coords t0_3) 1
              rw [show win0_3.index t0_3 1 * win0_3.size 1 = 0 from by decide +kernel, show win0_3.xsize (grid0.coords t0_3) 1 = 320 from by decide +kernel]; omega

theorem cover4 (i : S1x256.Idx) : ∃ t : Fin cfg0.N, (cfg0.win 4).flush t = true ∧ i ∈ ((cfg0.win 4).blk t).view.set := by
  have h0 : (i 0 : Nat) < 1 := (i 0).isLt
  have h1 : (i 1 : Nat) < 256 := (i 1).isLt
  refine ⟨t0_3, (flush0_4 t0_3).mpr rfl, ?_⟩
  show i ∈ ((View.whole main_v62_1).slice (win0_4.rect t0_3)).set
  rw [View.set_slice_whole, Rect.mem_set_unit]
  intro a
  match a with
  | ⟨0, _⟩ => show win0_4.index t0_3 0 * win0_4.size 0 ≤ (i 0 : Nat) ∧ (i 0 : Nat) < win0_4.index t0_3 0 * win0_4.size 0 + win0_4.xsize (grid0.coords t0_3) 0
              rw [show win0_4.index t0_3 0 * win0_4.size 0 = 0 from by decide +kernel, show win0_4.xsize (grid0.coords t0_3) 0 = 1 from by decide +kernel]; omega
  | ⟨1, _⟩ => show win0_4.index t0_3 1 * win0_4.size 1 ≤ (i 1 : Nat) ∧ (i 1 : Nat) < win0_4.index t0_3 1 * win0_4.size 1 + win0_4.xsize (grid0.coords t0_3) 1
              rw [show win0_4.index t0_3 1 * win0_4.size 1 = 0 from by decide +kernel, show win0_4.xsize (grid0.coords t0_3) 1 = 256 from by decide +kernel]; omega

theorem fold_valueW (V : (c : Dev nD) → (b : Ref sig .tc) → Buf (Elt Ideal) ((c : Thread nD τ).loc b)) (c : Dev nD)
    (Be : A2 8192 320) (Cw : A2 256 8192) (Rc : A2 1 8192)
    (hBe : (V c main_v58 : S8192x320.Idx → EReal) = Be) (hC : (V c main_v59 : S256x8192.Idx → EReal) = Cw)
    (hR : (V c main_v60 : S1x8192.Idx → EReal) = Rc) :
    ((datF V c).arrAt 3 cfg0.N : S256x320.Idx → EReal)
      = fun j => (∑ jj : Fin 2048, Cw (ix2 (j 0) (tl 0 jj)) * Be (ix2 (tl 0 jj) (j 1)))
          + (∑ jj : Fin 2048, Cw (ix2 (j 0) (tl 1 jj)) * Be (ix2 (tl 1 jj) (j 1)))
          + (∑ jj : Fin 2048, Cw (ix2 (j 0) (tl 2 jj)) * Be (ix2 (tl 2 jj) (j 1)))
          + (∑ jj : Fin 2048, Cw (ix2 (j 0) (tl 3 jj)) * Be (ix2 (tl 3 jj) (j 1))) := by
  refine (datF V c).arrAt_eq_of_cover 3 _ (flushedW_eq V c _ fun h => funext fun j => ?_) cover3
  obtain ⟨a, b, rfl⟩ : ∃ a b, j = ix2 a b := ⟨j 0, j 1, eq_ix2 j⟩
  exact outW_at3 V c Be Cw Rc hBe hC hR h a b

theorem fold_valueB (V : (c : Dev nD) → (b : Ref sig .tc) → Buf (Elt Ideal) ((c : Thread nD τ).loc b)) (c : Dev nD)
    (Be : A2 8192 320) (Cw : A2 256 8192) (Rc : A2 1 8192)
    (hBe : (V c main_v58 : S8192x320.Idx → EReal) = Be) (hC : (V c main_v59 : S256x8192.Idx → EReal) = Cw)
    (hR : (V c main_v60 : S1x8192.Idx → EReal) = Rc) :
    ((datF V c).arrAt 4 cfg0.N : S1x256.Idx → EReal)
      = fun j => (∑ jj : Fin 2048, Rc (ix2 0 (tl 0 jj)) * Cw (ix2 (j 1) (tl 0 jj)))
          + (∑ jj : Fin 2048, Rc (ix2 0 (tl 1 jj)) * Cw (ix2 (j 1) (tl 1 jj)))
          + (∑ jj : Fin 2048, Rc (ix2 0 (tl 2 jj)) * Cw (ix2 (j 1) (tl 2 jj)))
          + (∑ jj : Fin 2048, Rc (ix2 0 (tl 3 jj)) * Cw (ix2 (j 1) (tl 3 jj))) := by
  refine (datF V c).arrAt_eq_of_cover 4 _ (flushedB_eq V c _ fun h => funext fun j => ?_) cover4
  obtain ⟨a, b, rfl⟩ : ∃ a b, j = ix2 a b := ⟨j 0, j 1, eq_ix2 j⟩
  obtain rfl : a = 0 := Subsingleton.elim _ _
  exact outB_at3 V c Be Cw Rc hBe hC hR h b

end Cert.KernelIdeal.Run

end
-- ==== Proof.ApplyValue.lean ====
/-
  What the final-product region leaves in its output array, at the extended reals: entry (b, o) is the sum over k of
  the input row b times row o of W, plus the bias at o — block t of 2048 rows written at point t, the two blocks
  covering the array.
-/
import proofs.«419977_j22127671509386_3_alg».proof.Proof.ApplyRegion
import proofs.«419977_j22127671509386_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Run

open Cert.KernelIdeal Cert.KernelIdeal.Gen Cert.Rot Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### The payload at an index -/

private theorem hz : (![0, 0] : Fin 2 → Nat) = fun _ => 0 := funext fun a => by fin_cases a <;> rfl

private theorem lhs_pay_0 (i : S2048x256.Idx) (q : dot_S2048x320_S256x320_S2048x256_1_1_0_0_n_n.contr.Idx) :
    (dot_S2048x320_S256x320_S2048x256_1_1_0_0_n_n.lhsIdx i q 0).val = (i 0).val := by
  unfold DotDims.lhsIdx
  rw [dif_neg (show ¬(0 : Fin S2048x320.rank) ∈ dot_S2048x320_S256x320_S2048x256_1_1_0_0_n_n.lhsBatch by decide), dif_pos (show (0 : Fin S2048x320.rank) ∈ dot_S2048x320_S256x320_S2048x256_1_1_0_0_n_n.lhsNonContracting by decide)]
  rfl
private theorem lhs_pay_1 (i : S2048x256.Idx) (q : dot_S2048x320_S256x320_S2048x256_1_1_0_0_n_n.contr.Idx) :
    (dot_S2048x320_S256x320_S2048x256_1_1_0_0_n_n.lhsIdx i q 1).val = (q ⟨0, by decide⟩).val :=
  dot_S2048x320_S256x320_S2048x256_1_1_0_0_n_n.lhsIdx_val_of_single rfl i q
private theorem rhs_pay_0 (i : S2048x256.Idx) (q : dot_S2048x320_S256x320_S2048x256_1_1_0_0_n_n.contr.Idx) :
    (dot_S2048x320_S256x320_S2048x256_1_1_0_0_n_n.rhsIdx i q 0).val = (i 1).val := by
  unfold DotDims.rhsIdx
  rw [dif_neg (show ¬(0 : Fin S256x320.rank) ∈ dot_S2048x320_S256x320_S2048x256_1_1_0_0_n_n.rhsBatch by decide), dif_pos (show (0 : Fin S256x320.rank) ∈ dot_S2048x320_S256x320_S2048x256_1_1_0_0_n_n.rhsNonContracting by decide)]
  rfl
private theorem rhs_pay_1 (i : S2048x256.Idx) (q : dot_S2048x320_S256x320_S2048x256_1_1_0_0_n_n.contr.Idx) :
    (dot_S2048x320_S256x320_S2048x256_1_1_0_0_n_n.rhsIdx i q 1).val = (q ⟨0, by decide⟩).val :=
  dot_S2048x320_S256x320_S2048x256_1_1_0_0_n_n.rhsIdx_val_of_single rfl i q

/-- The block product into a zero accumulator, read at (r, o): row r of the left block against row o of the right. -/
private theorem prod_at (x0 : FVec Ideal S2048x320 .bf16) (x1 : FVec Ideal S256x320 .bf16) (r : Fin 2048) (o : Fin 256) :
    FloatOps.matmul dot_S2048x320_S256x320_S2048x256_1_1_0_0_n_n none x0 x1 (constant S2048x256 .f32 0x00000000#32) (ix2 r o)
      = ∑ k : Fin 320, x0 (ix2 r k) * x1 (ix2 o k) := by
  rw [Ideal.matmul_constant_zero_apply, ← Equiv.sum_comp (contrEquiv1 dot_S2048x320_S256x320_S2048x256_1_1_0_0_n_n 320 rfl rfl).symm]
  refine Finset.sum_congr rfl fun k _ => ?_
  have hk := contrEquiv1_symm_val dot_S2048x320_S256x320_S2048x256_1_1_0_0_n_n 320 rfl rfl k
  have el : dot_S2048x320_S256x320_S2048x256_1_1_0_0_n_n.lhsIdx (ix2 r o) ((contrEquiv1 dot_S2048x320_S256x320_S2048x256_1_1_0_0_n_n 320 rfl rfl).symm k) = ix2 r k := funext fun a => Fin.ext (by
    match a with
    | ⟨0, _⟩ => exact lhs_pay_0 _ _
    | ⟨1, _⟩ => exact (lhs_pay_1 _ _).trans hk)
  have er : dot_S2048x320_S256x320_S2048x256_1_1_0_0_n_n.rhsIdx (ix2 r o) ((contrEquiv1 dot_S2048x320_S256x320_S2048x256_1_1_0_0_n_n 320 rfl rfl).symm k) = ix2 o k := funext fun a => Fin.ext (by
    match a with
    | ⟨0, _⟩ => exact rhs_pay_0 _ _
    | ⟨1, _⟩ => exact (rhs_pay_1 _ _).trans hk)
  rw [el, er]

/-- The bias row laid down the block, read at (r, o). -/
private theorem bias_at (x2 : FVec Ideal S1x256 .f32) (r : Fin 2048) (o : Fin 256) :
    broadcastTo S2048x256 x2 broadcasts_S1x256_S2048x256 (ix2 r o) = x2 (ix2 (0 : Fin 1) o) :=
  broadcastTo_apply x2 broadcasts_S1x256_S2048x256 (ix2 r o) (ix2 (0 : Fin 1) o) (fun a => by
    match a with
    | ⟨0, _⟩ => rfl
    | ⟨1, _⟩ => rfl)

/-- What one point stores at (r, o) of its block: the row products summed, plus the bias at o. -/
private theorem pay_at (x0 : Vec Ideal S2048x320 .bf16) (x1 : Vec Ideal S256x320 .bf16) (x2 : Vec Ideal S1x256 .f32)
    (r : Fin 2048) (o : Fin 256) :
    (k1_pay1 (F := Ideal) x0 x1 x2 : S2048x256.Idx → EReal) (ix2 r o)
      = (∑ k : Fin 320, x0 (ix2 r k) * x1 (ix2 o k)) + x2 (ix2 (0 : Fin 1) o) := by
  unfold k1_pay1
  simp only [shapeCast_self]
  show (FloatOps.matmul (F := Ideal) dot_S2048x320_S256x320_S2048x256_1_1_0_0_n_n none x0 x1 (constant (F := Ideal) S2048x256 .f32 0x00000000#32) (ix2 r o) : EReal)
      + (broadcastTo S2048x256 x2 broadcasts_S1x256_S2048x256 (ix2 r o) : EReal) = _
  rw [prod_at, bias_at]

/-! ### The blocks a point reads and writes -/

/-- The printed index maps over the grid: the input rows and the output rows move with the point, everything else stays at block 0. -/
private theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b)) (c : Dev nD)

/-- Row r of point t's input block is row 2048·t + r of the input array. -/
private theorem blk0_at (X : A2 4096 320) (hX : (V c main_v61 : S4096x320.Idx → EReal) = X)
    (t : Fin cfg1.N) (r : Fin 2048) (k : Fin 320) (R : Fin 4096) (hR : R.val = t.val * 2048 + r.val) :
    (ablk V c 0 t : Vec Ideal S2048x320 .bf16) (ix2 r k) = X (ix2 R k) := by
  subst hX
  obtain ⟨e0, e1, -⟩ := idx_facts t
  unfold ablk
  rw [View.read_apply]
  show (V c main_v61 : S4096x320.Idx → EReal) _ = _
  congr 1
  funext a; apply Fin.ext
  match a with
  | ⟨0, _⟩ => show win1_0.index t (0 : Fin 2) * 2048 + 1 * r.val = R.val; rw [e0, hR]; omega
  | ⟨1, _⟩ => show win1_0.index t (1 : Fin 2) * 320 + 1 * k.val = k.val; rw [e1]; omega

/-- Every point's block of W is W. -/
private theorem blk1_at (Wt : A2 256 320) (hW : (V c main_v62_0 : S256x320.Idx → EReal) = Wt)
    (t : Fin cfg1.N) (o : Fin 256) (k : Fin 320) :
    (ablk V c 1 t : Vec Ideal S256x320 .bf16) (ix2 o k) = Wt (ix2 o k) := by
  subst hW
  obtain ⟨-, -, e2, e3, -⟩ := idx_facts t
  unfold ablk
  rw [View.read_apply]
  show (V c main_v62_0 : S256x320.Idx → EReal) _ = _
  congr 1
  funext a; apply Fin.ext
  match a with
  | ⟨0, _⟩ => show win1_1.index t (0 : Fin 2) * 256 + 1 * o.val = o.val; rw [e2]; omega
  | ⟨1, _⟩ => show win1_1.index t (1 : Fin 2) * 320 + 1 * k.val = k.val; rw [e3]; omega

/-- Every point's block of the bias row is the bias row. -/
private theorem blk2_at (Bi : A2 1 256) (hB : (V c main_v62_1 : S1x256.Idx → EReal) = Bi)
    (t : Fin cfg1.N) (o : Fin 256) :
    (ablk V c 2 t : Vec Ideal S1x256 .f32) (ix2 (0 : Fin 1) o) = Bi (ix2 (0 : Fin 1) o) := by
  subst hB
  obtain ⟨-, -, -, -, e4, e5, -⟩ := idx_facts t
  unfold ablk
  rw [View.read_apply]
  show (V c main_v62_1 : S1x256.Idx → EReal) _ = _
  congr 1
  funext a; apply Fin.ext
  match a with
  | ⟨0, _⟩ => show win1_2.index t (0 : Fin 2) * 1 + 1 * 0 = 0; rw [e4]
  | ⟨1, _⟩ => show win1_2.index t (1 : Fin 2) * 256 + 1 * o.val = o.val; rw [e5]; omega

end

/-! ### From the blocks to the array -/

/-- The array the region leaves: row b of the input against row o of W, plus the bias at o. -/
private abbrev prodG (X : A2 4096 320) (Wt : A2 256 320) (Bi : A2 1 256) : S4096x256.Idx → EReal :=
  fun j => (∑ k : Fin 320, X (ix2 (j 0) k) * Wt (ix2 (j 1) k)) + Bi (ix2 0 (j 1))

section
variable (V : (c : Dev nD) → (b : Ref sig .tc) → Buf (Elt Ideal) ((c : Thread nD τ).loc b)) (c : Dev nD)

/-- What point t writes back is block t of that array. -/
private theorem flushed_eq (X : A2 4096 320) (Wt : A2 256 320) (Bi : A2 1 256)
    (hX : (V c main_v61 : S4096x320.Idx → EReal) = X) (hW : (V c main_v62_0 : S256x320.Idx → EReal) = Wt)
    (hB : (V c main_v62_1 : S1x256.Idx → EReal) = Bi) (t : Fin cfg1.N) :
    (datA V c).flushed 3 t = ((cfg1.win 3).blk t).view.read (Elt Ideal) (prodG X Wt Bi) := by
  show (cfg1.win 3).cut (grid1.coords t) ((datA V c).after 3 t) = _
  rw [afterA3]
  unfold aout
  rw [View.canon_unit_zero hz]
  simp only [View.ld_unit_zero (S := S2048x320) hz, View.ld_unit_zero (S := S256x320) hz, View.ld_unit_zero (S := S1x256) hz]
  obtain ⟨-, -, -, -, -, -, e6, e7⟩ := idx_facts t
  have hN : t.val < 2 := Nat.lt_of_lt_of_eq t.isLt N_1
  funext j
  rw [View.read_apply]
  have hj0 : (j 0).val < 2048 := (j 0).isLt
  have hj1 : (j 1).val < 256 := (j 1).isLt
  have hemb : ((cfg1.win 3).blk t).view.emb j
      = ix2 (⟨t.val * 2048 + (j 0).val, by omega⟩ : Fin 4096) (⟨(j 1).val, hj1⟩ : Fin 256) := by
    funext a; apply Fin.ext
    match a with
    | ⟨0, _⟩ => show win1_3.index t (0 : Fin 2) * 2048 + 1 * (j 0).val = t.val * 2048 + (j 0).val; rw [e6]; omega
    | ⟨1, _⟩ => show win1_3.index t (1 : Fin 2) * 256 + 1 * (j 1).val = (j 1).val; rw [e7]; omega
  rw [hemb]
  show (k1_pay1 (F := Ideal) (ablk V c 0 t) (ablk V c 1 t) (ablk V c 2 t) : S2048x256.Idx → EReal)
      (ix2 (⟨(j 0).val, hj0⟩ : Fin 2048) (⟨(j 1).val, hj1⟩ : Fin 256))
    = (∑ k : Fin 320, X (ix2 (⟨t.val * 2048 + (j 0).val, by omega⟩ : Fin 4096) k) * Wt (ix2 (⟨(j 1).val, hj1⟩ : Fin 256) k))
        + Bi (ix2 (0 : Fin 1) (⟨(j 1).val, hj1⟩ : Fin 256))
  rw [pay_at, blk2_at V c Bi hB]
  congr 1
  refine Finset.sum_congr rfl fun k _ => ?_
  rw [blk0_at V c X hX t ⟨(j 0).val, hj0⟩ k ⟨t.val * 2048 + (j 0).val, by omega⟩ rfl, blk1_at V c Wt hW]

end

/-- An index of the array is in point t's block when each coordinate is in the block's range on its axis. -/
private theorem mem_blk (t : Fin cfg1.N) (i : S4096x256.Idx) :
    i ∈ ((cfg1.win 3).blk t).view.set ↔ ∀ a : Fin 2, win1_3.index t a * S2048x256.size a ≤ (i a).val
      ∧ (i a).val < win1_3.index t a * S2048x256.size a + S2048x256.size a := by
  show i ∈ ((View.whole main_v63).slice (win1_3.rect t)).set ↔ _
  rw [View.set_slice_whole, Rect.mem_set_unit]
  exact Iff.rfl

/-- Row r lies in the block of point r / 2048, and every point writes its block back. -/
private theorem covered (i : S4096x256.Idx) :
    ∃ t : Fin cfg1.N, (cfg1.win 3).flush t = true ∧ i ∈ ((cfg1.win 3).blk t).view.set := by
  have hi0 : (i 0).val < 4096 := (i 0).isLt
  have hi1 : (i 1).val < 256 := (i 1).isLt
  obtain ⟨t, ht⟩ : ∃ t : Fin cfg1.N, t.val = (i 0).val / 2048 :=
    ⟨⟨(i 0).val / 2048, Nat.lt_of_lt_of_eq (show (i 0).val / 2048 < 2 by omega) N_1.symm⟩, rfl⟩
  obtain ⟨-, -, -, -, -, -, e6, e7⟩ := idx_facts t
  refine ⟨t, flush1_3 t, ?_⟩
  rw [mem_blk]
  intro a
  match a with
  | ⟨0, _⟩ =>
    show win1_3.index t (0 : Fin 2) * 2048 ≤ (i 0).val ∧ (i 0).val < win1_3.index t (0 : Fin 2) * 2048 + 2048
    rw [e6, ht]; omega
  | ⟨1, _⟩ =>
    show win1_3.index t (1 : Fin 2) * 256 ≤ (i 1).val ∧ (i 1).val < win1_3.index t (1 : Fin 2) * 256 + 256
    rw [e7]; omega

theorem apply_value (V : (c : Dev nD) → (b : Ref sig .tc) → Buf (Elt Ideal) ((c : Thread nD τ).loc b)) (c : Dev nD)
    (X : A2 4096 320) (Wt : A2 256 320) (Bi : A2 1 256)
    (hX : (V c main_v61 : S4096x320.Idx → EReal) = X) (hW : (V c main_v62_0 : S256x320.Idx → EReal) = Wt)
    (hB : (V c main_v62_1 : S1x256.Idx → EReal) = Bi) :
    ((datA V c).arrAt 3 cfg1.N : S4096x256.Idx → EReal)
      = fun j => (∑ k : Fin 320, X (ix2 (j 0) k) * Wt (ix2 (j 1) k)) + Bi (ix2 0 (j 1)) := by
  exact (datA V c).arrAt_eq_of_cover 3 (prodG X Wt Bi) (fun t _ => flushed_eq V c X Wt Bi hX hW hB t) covered

end Cert.KernelIdeal.Run

end
-- ==== Proof.KernelValue.lean ====
/-
  The kernel program's result as a function of its arguments, at the extended reals: the host operations leave the
  folded B, C, the rotated state and the concatenated input in the arrays the regions read; the weight-fold region
  leaves W and the bias; the final-product region leaves Σ_k udu[b,k] · W[o,k] + bias[o], which is kerY.
-/
import proofs.«419977_j22127671509386_3_alg».proof.Proof.WholeRun
import proofs.«419977_j22127671509386_3_alg».proof.Proof.KernelHost
import proofs.«419977_j22127671509386_3_alg».proof.Proof.FoldValue
import proofs.«419977_j22127671509386_3_alg».proof.Proof.ApplyValue
import proofs.«419977_j22127671509386_3_alg».proof.Proof.Spec

set_option maxRecDepth 16384

noncomputable section

namespace Cert.KernelIdeal.Run

open Cert.KernelIdeal Cert.KernelIdeal.Gen Cert.Rot Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ) (c : Dev nD)

theorem result_eq_kerY : ((datA (V3 m) c).arrAt 3 cfg1.N : S4096x256.Idx → EReal)
    = fun j => kerY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (j 0) (j 1) := by
  have hW := fold_valueW (V2 m) c _ _ _ (beff_read m c) (cw_read m c) (rec_read m c)
  have hB := fold_valueB (V2 m) c _ _ _ (beff_read m c) (cw_read m c) (rec_read m c)
  have h61 := (W3_of_ne m c main_v61 (by decide)).trans (udu_read m c)
  have h620 := (W3_arr m c 3).trans hW
  have h621 := (W3_arr m c 4).trans hB
  rw [apply_value (V3 m) c _ _ _ h61 h620 h621]
  funext j
  simp only [kerY, wt, bias, tileW, tileB]
  rfl

end Cert.KernelIdeal.Run

end
-- ==== Proof.PreReal.lean ====
/-
  The precondition read back: every entry of every input is a real number, and no ω_i is zero.
-/
import proofs.«419977_j22127671509386_3_alg».proof.Pre_finite_inputs
import proofs.«419977_j22127671509386_3_alg».proof.Proof.Gen.Pre_finite_inputs
import proofs.«419977_j22127671509386_3_alg».proof.Proof.Spec
import Idealize.ShloMosaic.Lib.ReduceAll

noncomputable section

namespace Cert.Rot

open Idealize.ShloMosaic Idealize.ShloMosaic.ValueIdx

/-- The word 0x7F800000 is +∞. -/
private theorem top_f32 : Ideal.ofBits .f32 0x7F800000#32 = (⊤ : EReal) := by simp [Ideal.ofBits, Ideal.ieee]

/-- |x| < +∞ makes x a real. -/
private theorem real_of_abs_lt (x : EReal)
    (hx : Ideal.cmp .olt (max x (-x)) (Ideal.ofBits .f32 0x7F800000#32) = 1#1) : ∃ r : ℝ, x = (r : EReal) := by
  rw [top_f32] at hx
  induction x using EReal.rec with
  | bot => simp [Ideal.cmp] at hx
  | coe r => exact ⟨r, rfl⟩
  | top => simp [Ideal.cmp] at hx

/-- x ≠ 0 as the comparison says it. -/
private theorem ne_zero_of_une (x : EReal)
    (hx : Ideal.cmp .une x (Ideal.ofBits .f32 0x00000000#32) = 1#1) : x ≠ 0 := by
  have hz : Ideal.ofBits .f32 0x00000000#32 = (0 : EReal) := by simp [Ideal.ofBits, Ideal.ieee]
  rw [hz] at hx
  intro h
  simp [Ideal.cmp, h] at hx

private instance : Subsingleton Cert.Pre_finite_inputs.S_.Idx := ⟨fun a b => funext fun d => d.elim0⟩

theorem real_of_pre (u : A2 4096 256) (du : A2 4096 64) (h : A2 1 8192) (ω : A1 4096) (Bw : A2 8192 320) (Cw : A2 256 8192)
    (hpre : Cert.Pre_finite_inputs.fn (F := Ideal) u du h ω Bw Cw = fun _ => 1#1) :
    (∀ j, ∃ r : ℝ, u j = (r : EReal)) ∧ (∀ j, ∃ r : ℝ, du j = (r : EReal)) ∧ (∀ j, ∃ r : ℝ, h j = (r : EReal))
    ∧ (∀ j, ∃ r : ℝ, ω j = (r : EReal) ∧ r ≠ 0) ∧ (∀ j, ∃ r : ℝ, Bw j = (r : EReal)) ∧ (∀ j, ∃ r : ℝ, Cw j = (r : EReal)) := by
  have h0 := congrFun hpre ValueIdx.ix0
  dsimp only [Cert.Pre_finite_inputs.fn, Cert.Pre_finite_inputs.fn_part1] at h0
  dsimp only [Idealize.ShloMosaic.andi] at h0
  simp only [IntOp.andi_eq_one] at h0
  obtain ⟨⟨⟨⟨⟨⟨hu, hdu⟩, hh⟩, hω⟩, hB⟩, hC⟩, hne⟩ := h0
  refine ⟨fun j => real_of_abs_lt (u j) (Host.reduce_andi_all _ _ _ _ _ hu j),
    fun j => real_of_abs_lt (du j) (Host.reduce_andi_all _ _ _ _ _ hdu j),
    fun j => real_of_abs_lt (h j) (Host.reduce_andi_all _ _ _ _ _ hh j),
    fun j => ?_,
    fun j => real_of_abs_lt (Bw j) (Host.reduce_andi_all _ _ _ _ _ hB j),
    fun j => real_of_abs_lt (Cw j) (Host.reduce_andi_all _ _ _ _ _ hC j)⟩
  obtain ⟨r, hr⟩ := real_of_abs_lt (ω j) (Host.reduce_andi_all _ _ _ _ _ hω j)
  have hz : ω j ≠ 0 := ne_zero_of_une (ω j) (Host.reduce_andi_all _ _ _ _ _ hne j)
  refine ⟨r, hr, fun h0 => hz ?_⟩
  rw [hr, h0, EReal.coe_zero]

end Cert.Rot

end
-- ==== Proof.Algebra.lean ====
/-
  The law joining the two sides: with every input a real number and every ω_i nonzero, all intermediate values are
  real, the pair matrix is linear in û, and the sum over the state axis may be taken tile by tile and exchanged with
  the sum over k.
-/
import proofs.«419977_j22127671509386_3_alg».proof.Proof.Spec
import Mathlib.Data.EReal.Operations
import Mathlib.Data.Fintype.BigOperators
import Mathlib.Algebra.BigOperators.Fin
import Mathlib.Algebra.BigOperators.Group.Finset.Basic
import Mathlib.Algebra.BigOperators.Group.Finset.Sigma
import Mathlib.Algebra.BigOperators.Ring.Finset
import Mathlib.Tactic.Ring
import Mathlib.Tactic.NormNum

noncomputable section

namespace Cert.Rot

open Idealize.ShloMosaic Idealize.ShloMosaic.ValueIdx

/-! ### The two constants are real -/

/-- The word of 1 denotes 1. -/
private theorem one_eq : one = 1 := by
  simp [one, Ideal.ofBits, Ideal.ieee, -EReal.coe_mul]; norm_num

/-- The step is a real number. -/
private theorem δ_real : ∃ d : ℝ, δ = (d : EReal) := by
  refine ⟨δ.toReal, (EReal.coe_toReal ?_ ?_).symm⟩ <;> simp [δ, Ideal.ofBits, Ideal.ieee, -EReal.coe_mul]

/-- The coercion of a finite sum of reals is the sum of the coercions. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### Real arrays and the real twins of the specification's functions -/

/-- A rank-2 and a rank-1 array of reals. -/
private abbrev R2 (n m : Nat) : Type := (⟨2, ![n, m]⟩ : Shape).Idx → ℝ
private abbrev R1 (n : Nat) : Type := (⟨1, ![n]⟩ : Shape).Idx → ℝ

/-- A real array read as an array of extended reals. -/
private def up {α : Type} (f : α → ℝ) : α → EReal := fun j => (f j : EReal)

private theorem up_apply {α : Type} (f : α → ℝ) (j : α) : up f j = (f j : EReal) := rfl

section twins
variable (u : R2 4096 256) (du : R2 4096 64) (h : R2 1 8192) (ω : R1 4096) (Bw : R2 8192 320) (Cw : R2 256 8192) (d : ℝ)

private def csR (i : Fin 4096) : ℝ := Real.cos (ω (ix1 i) * d)
private def snR (i : Fin 4096) : ℝ := Real.sin (ω (ix1 i) * d)

private def recR (q : Fin 8192) : ℝ :=
  if q.val % 2 = 0 then csR ω d (pr q) * h (ix2 0 (ev (pr q))) + snR ω d (pr q) * h (ix2 0 (od (pr q)))
  else (-(snR ω d (pr q))) * h (ix2 0 (ev (pr q))) + csR ω d (pr q) * h (ix2 0 (od (pr q)))

private def uduR (b : Fin 4096) (k : Fin 320) : ℝ :=
  if hk : k.val < 64 then du (ix2 b ⟨k.val, hk⟩) else u (ix2 b ⟨k.val - 64, by omega⟩)

private def avR (i : Fin 4096) : ℝ := snR ω d i * (1 / ω (ix1 i))
private def bvR (i : Fin 4096) : ℝ := (csR ω d i - 1) * (1 / ω (ix1 i))

private def beffR (q : Fin 8192) (k : Fin 320) : ℝ :=
  if q.val % 2 = 0 then avR ω d (pr q) * Bw (ix2 (ev (pr q)) k) - bvR ω d (pr q) * Bw (ix2 (od (pr q)) k)
  else bvR ω d (pr q) * Bw (ix2 (ev (pr q)) k) + avR ω d (pr q) * Bw (ix2 (od (pr q)) k)

private def uhatR (b : Fin 4096) (q : Fin 8192) : ℝ := ∑ k : Fin 320, uduR u du b k * Bw (ix2 q k)

private def inpR (b : Fin 4096) (q : Fin 8192) : ℝ :=
  if q.val % 2 = 0 then
    (snR ω d (pr q) * uhatR u du Bw b (ev (pr q)) - (csR ω d (pr q) - 1) * uhatR u du Bw b (od (pr q))) * (1 / ω (ix1 (pr q)))
  else
    ((csR ω d (pr q) - 1) * uhatR u du Bw b (ev (pr q)) + snR ω d (pr q) * uhatR u du Bw b (od (pr q))) * (1 / ω (ix1 (pr q)))

/-! ### Each function of the specification at real arrays is the coercion of its twin -/

variable (hd : δ = (d : EReal))
include hd

private theorem cs_up (i : Fin 4096) : cs (up ω) i = (csR ω d i : EReal) := by
  rw [cs, up_apply, hd, ← EReal.coe_mul]; rfl

private theorem sn_up (i : Fin 4096) : sn (up ω) i = (snR ω d i : EReal) := by
  rw [sn, up_apply, hd, ← EReal.coe_mul]; rfl

private theorem rec_up (q : Fin 8192) : rec (up h) (up ω) q = (recR h ω d q : EReal) := by
  unfold rec recR
  split_ifs
  · rw [cs_up ω d hd, sn_up ω d hd, up_apply, up_apply]; push_cast; rfl
  · rw [cs_up ω d hd, sn_up ω d hd, up_apply, up_apply]; push_cast; rfl

omit hd in
private theorem udu_up (b : Fin 4096) (k : Fin 320) : udu (up u) (up du) b k = (uduR u du b k : EReal) := by
  unfold udu uduR
  split_ifs <;> rfl

private theorem av_up (hω : ∀ j, ω j ≠ 0) (i : Fin 4096) : av (up ω) i = (avR ω d i : EReal) := by
  rw [av, up_apply, Ideal.div_coe (hω _), sn_up ω d hd, avR, EReal.coe_mul]

private theorem bv_up (hω : ∀ j, ω j ≠ 0) (i : Fin 4096) : bv (up ω) i = (bvR ω d i : EReal) := by
  rw [bv, up_apply, Ideal.div_coe (hω _), cs_up ω d hd, one_eq, bvR, EReal.coe_mul, EReal.coe_sub, EReal.coe_one]

private theorem beff_up (hω : ∀ j, ω j ≠ 0) (q : Fin 8192) (k : Fin 320) :
    beff (up ω) (up Bw) q k = (beffR ω Bw d q k : EReal) := by
  unfold beff beffR
  split_ifs
  · rw [av_up ω d hd hω, bv_up ω d hd hω, up_apply, up_apply]; push_cast; rfl
  · rw [av_up ω d hd hω, bv_up ω d hd hω, up_apply, up_apply]; push_cast; rfl

omit hd in
private theorem uhat_up (b : Fin 4096) (q : Fin 8192) : uhat (up u) (up du) (up Bw) b q = (uhatR u du Bw b q : EReal) := by
  unfold uhat uhatR
  rw [coe_sum]
  refine Finset.sum_congr rfl fun k _ => ?_
  rw [udu_up, up_apply, EReal.coe_mul]

private theorem inp_up (hω : ∀ j, ω j ≠ 0) (b : Fin 4096) (q : Fin 8192) :
    inp (up u) (up du) (up ω) (up Bw) b q = (inpR u du ω Bw d b q : EReal) := by
  unfold inp inpR
  split_ifs
  · rw [up_apply, Ideal.div_coe (hω _), cs_up ω d hd, sn_up ω d hd, uhat_up, uhat_up, one_eq]; push_cast; rfl
  · rw [up_apply, Ideal.div_coe (hω _), cs_up ω d hd, sn_up ω d hd, uhat_up, uhat_up, one_eq]; push_cast; rfl

end twins

/-! ### The state axis by tiles -/

/-- The state axis is the disjoint union of the four tiles. -/
private def tileEquiv : Fin 4 × Fin 2048 ≃ Fin 8192 where
  toFun p := tl p.1 p.2
  invFun q := (⟨q.val / 2048, by omega⟩, ⟨q.val % 2048, by omega⟩)
  left_inv p := by
    rcases p with ⟨t, j⟩
    refine Prod.ext (Fin.ext ?_) (Fin.ext ?_)
    · show (2048 * t.val + j.val) / 2048 = t.val
      omega
    · show (2048 * t.val + j.val) % 2048 = j.val
      omega
  right_inv q := by
    refine Fin.ext ?_
    show 2048 * (q.val / 2048) + q.val % 2048 = q.val
    omega

/-- A sum over the state axis, tile by tile. -/
private theorem sum_tiles (f : Fin 8192 → ℝ) :
    ∑ q : Fin 8192, f q
      = ∑ j : Fin 2048, f (tl 0 j) + ∑ j : Fin 2048, f (tl 1 j) + ∑ j : Fin 2048, f (tl 2 j) + ∑ j : Fin 2048, f (tl 3 j) := by
  rw [← Fintype.sum_equiv tileEquiv (fun p => f (tl p.1 p.2)) f (fun _ => rfl), Fintype.sum_prod_type, Fin.sum_univ_four]

section sides
variable (u : R2 4096 256) (du : R2 4096 64) (h : R2 1 8192) (ω : R1 4096) (Bw : R2 8192 320) (Cw : R2 256 8192) (d : ℝ)
variable (hd : δ = (d : EReal)) (hω : ∀ j, ω j ≠ 0)
include hd hω

private theorem tileW_up (t : Fin 4) (o : Fin 256) (k : Fin 320) :
    tileW (up ω) (up Bw) (up Cw) t o k
      = ((∑ j : Fin 2048, Cw (ix2 o (tl t j)) * beffR ω Bw d (tl t j) k : ℝ) : EReal) := by
  unfold tileW
  rw [coe_sum]
  refine Finset.sum_congr rfl fun j _ => ?_
  rw [beff_up ω Bw d hd hω, up_apply, EReal.coe_mul]

private theorem wt_up (o : Fin 256) (k : Fin 320) :
    wt (up ω) (up Bw) (up Cw) o k = ((∑ q : Fin 8192, Cw (ix2 o q) * beffR ω Bw d q k : ℝ) : EReal) := by
  unfold wt
  rw [tileW_up ω Bw Cw d hd hω 0, tileW_up ω Bw Cw d hd hω 1, tileW_up ω Bw Cw d hd hω 2, tileW_up ω Bw Cw d hd hω 3,
    sum_tiles]
  simp only [EReal.coe_add]

omit hω in
private theorem tileB_up (t : Fin 4) (o : Fin 256) :
    tileB (up h) (up ω) (up Cw) t o = ((∑ j : Fin 2048, recR h ω d (tl t j) * Cw (ix2 o (tl t j)) : ℝ) : EReal) := by
  unfold tileB
  rw [coe_sum]
  refine Finset.sum_congr rfl fun j _ => ?_
  rw [rec_up h ω d hd, up_apply, EReal.coe_mul]

omit hω in
private theorem bias_up (o : Fin 256) :
    bias (up h) (up ω) (up Cw) o = ((∑ q : Fin 8192, recR h ω d q * Cw (ix2 o q) : ℝ) : EReal) := by
  unfold bias
  rw [tileB_up h ω Cw d hd 0, tileB_up h ω Cw d hd 1, tileB_up h ω Cw d hd 2, tileB_up h ω Cw d hd 3, sum_tiles]
  simp only [EReal.coe_add]

private theorem kerY_up (b : Fin 4096) (o : Fin 256) :
    kerY (up u) (up du) (up h) (up ω) (up Bw) (up Cw) b o
      = ((∑ k : Fin 320, uduR u du b k * (∑ q : Fin 8192, Cw (ix2 o q) * beffR ω Bw d q k)
          + ∑ q : Fin 8192, recR h ω d q * Cw (ix2 o q) : ℝ) : EReal) := by
  unfold kerY
  rw [bias_up h ω Cw d hd, EReal.coe_add]
  refine congrArg (· + _) ?_
  rw [coe_sum]
  refine Finset.sum_congr rfl fun k _ => ?_
  rw [udu_up, wt_up ω Bw Cw d hd hω, EReal.coe_mul]

private theorem refY_up (b : Fin 4096) (o : Fin 256) :
    refY (up u) (up du) (up h) (up ω) (up Bw) (up Cw) b o
      = ((∑ q : Fin 8192, (recR h ω d q + inpR u du ω Bw d b q) * Cw (ix2 o q) : ℝ) : EReal) := by
  unfold refY
  rw [coe_sum]
  refine Finset.sum_congr rfl fun q _ => ?_
  rw [rec_up h ω d hd, inp_up u du ω Bw d hd hω, up_apply, EReal.coe_mul, EReal.coe_add]

end sides

/-! ### The identity over the reals -/

section real
variable (u : R2 4096 256) (du : R2 4096 64) (h : R2 1 8192) (ω : R1 4096) (Bw : R2 8192 320) (Cw : R2 256 8192) (d : ℝ)

/-- The pair matrix is linear in û: applied to û it is the row [du, u] against the folded B. -/
private theorem inpR_lin (b : Fin 4096) (q : Fin 8192) :
    inpR u du ω Bw d b q = ∑ k : Fin 320, uduR u du b k * beffR ω Bw d q k := by
  unfold inpR beffR uhatR avR bvR
  split_ifs
  · rw [Finset.mul_sum, Finset.mul_sum, ← Finset.sum_sub_distrib, Finset.sum_mul]
    refine Finset.sum_congr rfl fun k _ => ?_
    ring
  · rw [Finset.mul_sum, Finset.mul_sum, ← Finset.sum_add_distrib, Finset.sum_mul]
    refine Finset.sum_congr rfl fun k _ => ?_
    ring

/-- The two sides over the reals. -/
private theorem refYR_eq_kerYR (b : Fin 4096) (o : Fin 256) :
    ∑ q : Fin 8192, (recR h ω d q + inpR u du ω Bw d b q) * Cw (ix2 o q)
      = ∑ k : Fin 320, uduR u du b k * (∑ q : Fin 8192, Cw (ix2 o q) * beffR ω Bw d q k)
          + ∑ q : Fin 8192, recR h ω d q * Cw (ix2 o q) := by
  simp only [add_mul, Finset.sum_add_distrib]
  rw [add_comm]
  refine congrArg (· + _) ?_
  simp only [inpR_lin, Finset.sum_mul, Finset.mul_sum]
  rw [Finset.sum_comm]
  refine Finset.sum_congr rfl fun k _ => Finset.sum_congr rfl fun q _ => ?_
  ring

end real

theorem refY_eq_kerY (u : A2 4096 256) (du : A2 4096 64) (h : A2 1 8192) (ω : A1 4096) (Bw : A2 8192 320) (Cw : A2 256 8192)
    (hu : ∀ j, ∃ r : ℝ, u j = (r : EReal)) (hdu : ∀ j, ∃ r : ℝ, du j = (r : EReal)) (hh : ∀ j, ∃ r : ℝ, h j = (r : EReal))
    (hω : ∀ j, ∃ r : ℝ, ω j = (r : EReal) ∧ r ≠ 0) (hB : ∀ j, ∃ r : ℝ, Bw j = (r : EReal)) (hC : ∀ j, ∃ r : ℝ, Cw j = (r : EReal))
    (b : Fin 4096) (o : Fin 256) : refY u du h ω Bw Cw b o = kerY u du h ω Bw Cw b o := by
  obtain ⟨d, hd⟩ := δ_real
  choose uR huR using hu
  choose duR hduR using hdu
  choose hR hhR using hh
  choose ωR hωR using hω
  choose BR hBR using hB
  choose CR hCR using hC
  obtain rfl : u = up uR := funext huR
  obtain rfl : du = up duR := funext hduR
  obtain rfl : h = up hR := funext hhR
  obtain rfl : ω = up ωR := funext fun j => (hωR j).1
  obtain rfl : Bw = up BR := funext hBR
  obtain rfl : Cw = up CR := funext hCR
  have hω0 : ∀ j, ωR j ≠ 0 := fun j => (hωR j).2
  rw [refY_up uR duR hR ωR BR CR d hd hω0, kerY_up uR duR hR ωR BR CR d hd hω0, refYR_eq_kerYR]

end Cert.Rot

end
-- ==== Proof.lean ====
/-
  The certificate. Both programs compute y = (rec + inp) · Cᵀ for the rotation of state pairs by the angles ω_i · δ;
  the kernel folds the 2 × 2 pair matrix into B, contracts with C in four tiles and finishes with one product plus
  a bias. Under the precondition (finite inputs, no ω_i zero) every intermediate value is a real number and the two
  results agree by linearity of the pair matrix and an exchange of finite sums.

  The three frames: each kernel program runs as four items (two stretches of host operations, then the two kernel
  regions), the reference as a line of host operations. preserves is trivial (the idealization rewrote nothing).
  algebraic: the kernel's run ends with its result array at kerY of the arguments, the reference's at refY, and
  refY = kerY under the precondition.
-/
import proofs.«419977_j22127671509386_3_alg».proof.Defs
import proofs.«419977_j22127671509386_3_alg».proof.Proof.Gen.Kernel
import proofs.«419977_j22127671509386_3_alg».proof.Proof.Gen.KernelIdeal
import proofs.«419977_j22127671509386_3_alg».proof.Proof.Gen.ReferenceIdeal
import proofs.«419977_j22127671509386_3_alg».proof.Proof.Gen.Pre_finite_inputs
import proofs.«419977_j22127671509386_3_alg».proof.Proof.Gen.ReferenceIdeal.Run
import proofs.«419977_j22127671509386_3_alg».proof.Proof.Gen.ReferenceIdeal.Read
import proofs.«419977_j22127671509386_3_alg».proof.Proof.BitsWholeRun
import proofs.«419977_j22127671509386_3_alg».proof.Proof.WholeRun
import proofs.«419977_j22127671509386_3_alg».proof.Proof.KernelValue
import proofs.«419977_j22127671509386_3_alg».proof.Proof.RefRead
import proofs.«419977_j22127671509386_3_alg».proof.Proof.PreReal
import proofs.«419977_j22127671509386_3_alg».proof.Proof.Algebra
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Run.frame_all m ρ
theorem frame_ki : Cert.frame_KernelIdeal := fun m ρ _ => Cert.KernelIdeal.Run.frame_all m ρ
theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at kerY of the arguments, the reference's at refY of arguments that agree;
    the precondition makes every entry real and every ω_i nonzero, under which the two are equal. -/
theorem algebraic : Cert.algebraic_KernelIdeal_ReferenceIdeal := by
  intro m ρ m' ρ' hpre hagree
  refine ⟨fun c => (Cert.KernelIdeal.Run.datA (Cert.KernelIdeal.Run.V3 m) c).arrAt 3 Cert.KernelIdeal.cfg1.N,
    Cert.KernelIdeal.Run.run_result m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v71 (F := Ideal) m' c
    = (Cert.KernelIdeal.Run.datA (Cert.KernelIdeal.Run.V3 m) c).arrAt 3 Cert.KernelIdeal.cfg1.N
  refine (Cert.ReferenceIdeal.RefValue.res_eq_refY m' c).trans (Eq.trans ?_ (Cert.KernelIdeal.Run.result_eq_kerY m c).symm)
  rw [(hagree c).1, (hagree c).2.1, (hagree c).2.2.1, (hagree c).2.2.2.1, (hagree c).2.2.2.2.1, (hagree c).2.2.2.2.2]
  obtain ⟨h0, h1, h2, h3, h4, h5⟩ := Cert.Rot.real_of_pre _ _ _ _ _ _ (hpre c)
  funext j
  exact Cert.Rot.refY_eq_kerY _ _ _ _ _ _ h0 h1 h2 h3 h4 h5 (j 0) (j 1)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
